-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x1000000 : Shape := ⟨3, ![8, 2, 1000000]⟩
abbrev S8x2x40000 : Shape := ⟨3, ![8, 2, 40000]⟩
abbrev S_ : Shape := ⟨0, ![]⟩

class Facts : Prop where
  bcast_S_S8x2x1000000 : S_.BroadcastsInDim S8x2x1000000 (![] : Fin 0 → Fin S8x2x1000000.rank)
  reducesTo_S8x2x1000000_S_d0_1_2 : S8x2x1000000.ReducesTo [0, 1, 2] S_
  h_S_ : 0 < S_.numel
  bcast_S_S8x2x40000 : S_.BroadcastsInDim S8x2x40000 (![] : Fin 0 → Fin S8x2x40000.rank)
  reducesTo_S8x2x40000_S_d0_1_2 : S8x2x40000.ReducesTo [0, 1, 2] S_

variable [Facts]

def fn_part1 {F : FTy → Type} [FloatOps F] (main_arg1 : FVec F S8x2x1000000 .f32) (main_v13 : IVec S_ 1) (main_v15 : IVec S8x2x1000000 1) (main_cst_5 : FVec F S_ .f32) : IVec S_ 1 :=
  let main_v16 : FVec F S8x2x1000000 .f32 := broadcastInDim S8x2x1000000 ![] bcast_S_S8x2x1000000 main_cst_5
  let main_v17 : IVec S8x2x1000000 1 := cmpf .ole main_arg1 main_v16
  let main_v18 : IVec S8x2x1000000 1 := andi main_v15 main_v17
  let main_c_6 : IVec S_ 1 := constantI S_ 1 1#1
  let main_v19 : IVec S_ 1 := (fun x v => Host.reduce IntOp.andi x v reducesTo_S8x2x1000000_S_d0_1_2 h_S_) main_v18 main_c_6
  let main_v20 : IVec S_ 1 := andi main_v13 main_v19
  main_v20

def fn {F : FTy → Type} [FloatOps F] (main_arg0 : FVec F S8x2x1000000 .f32) (main_arg1 : FVec F S8x2x1000000 .f32) (main_arg2 : FVec F S8x2x40000 .f32) : IVec S_ 1 :=
  let main_v0 : FVec F S8x2x1000000 .f32 := Host.absf main_arg0
  let main_cst : FVec F S_ .f32 := constant S_ .f32 0x7F800000#32
  let main_v1 : FVec F S8x2x1000000 .f32 := broadcastInDim S8x2x1000000 ![] bcast_S_S8x2x1000000 main_cst
  let main_v2 : IVec S8x2x1000000 1 := cmpf .olt main_v0 main_v1
  let main_c : IVec S_ 1 := constantI S_ 1 1#1
  let main_v3 : IVec S_ 1 := (fun x v => Host.reduce IntOp.andi x v reducesTo_S8x2x1000000_S_d0_1_2 h_S_) main_v2 main_c
  let main_v4 : FVec F S8x2x1000000 .f32 := Host.absf main_arg1
  let main_cst_0 : FVec F S_ .f32 := constant S_ .f32 0x7F800000#32
  let main_v5 : FVec F S8x2x1000000 .f32 := broadcastInDim S8x2x1000000 ![] bcast_S_S8x2x1000000 main_cst_0
  let main_v6 : IVec S8x2x1000000 1 := cmpf .olt main_v4 main_v5
  let main_c_1 : IVec S_ 1 := constantI S_ 1 1#1
  let main_v7 : IVec S_ 1 := (fun x v => Host.reduce IntOp.andi x v reducesTo_S8x2x1000000_S_d0_1_2 h_S_) main_v6 main_c_1
  let main_v8 : IVec S_ 1 := andi main_v3 main_v7
  let main_v9 : FVec F S8x2x40000 .f32 := Host.absf main_arg2
  let main_cst_2 : FVec F S_ .f32 := constant S_ .f32 0x7F800000#32
  let main_v10 : FVec F S8x2x40000 .f32 := broadcastInDim S8x2x40000 ![] bcast_S_S8x2x40000 main_cst_2
  let main_v11 : IVec S8x2x40000 1 := cmpf .olt main_v9 main_v10
  let main_c_3 : IVec S_ 1 := constantI S_ 1 1#1
  let main_v12 : IVec S_ 1 := (fun x v => Host.reduce IntOp.andi x v reducesTo_S8x2x40000_S_d0_1_2 h_S_) main_v11 main_c_3
  let main_v13 : IVec S_ 1 := andi main_v8 main_v12
  let main_cst_4 : FVec F S_ .f32 := constant S_ .f32 0x00000000#32
  let main_v14 : FVec F S8x2x1000000 .f32 := broadcastInDim S8x2x1000000 ![] bcast_S_S8x2x1000000 main_cst_4
  let main_v15 : IVec S8x2x1000000 1 := cmpf .oge main_arg1 main_v14
  let main_cst_5 : FVec F S_ .f32 := constant S_ .f32 0x471C4000#32
  fn_part1 (F := F) main_arg1 main_v13 main_v15 main_cst_5
-- ==== Kernel.lean ====
abbrev S8x2x1000000 : Shape := ⟨3, ![8, 2, 1000000]⟩
abbrev S8x2x40000 : Shape := ⟨3, ![8, 2, 40000]⟩
abbrev S_ : Shape := ⟨0, ![]⟩
abbrev S8x2x896 : Shape := ⟨3, ![8, 2, 896]⟩
abbrev S8x2x1040896 : Shape := ⟨3, ![8, 2, 1040896]⟩
abbrev S8x2x1000448 : Shape := ⟨3, ![8, 2, 1000448]⟩
abbrev S1x2x512 : Shape := ⟨3, ![1, 2, 512]⟩
abbrev S1x2x1040896 : Shape := ⟨3, ![1, 2, 1040896]⟩
abbrev S1x512 : Shape := ⟨2, ![1, 512]⟩
abbrev S512 : Shape := ⟨1, ![512]⟩
abbrev S1x1x512 : Shape := ⟨3, ![1, 1, 512]⟩
abbrev S1x1x40960 : Shape := ⟨3, ![1, 1, 40960]⟩
abbrev S40960 : Shape := ⟨1, ![40960]⟩
abbrev S80x512 : Shape := ⟨2, ![80, 512]⟩
abbrev S512x80 : Shape := ⟨2, ![512, 80]⟩
abbrev S512x1 : Shape := ⟨2, ![512, 1]⟩
abbrev S512x512 : Shape := ⟨2, ![512, 512]⟩

abbrev nBuf : Space → Nat
  | .hbm => 11
  | .vmem => 6
  | .smem => 0
  | _ => 0

abbrev bufTy : (tb : Table) → Fin (tcTables nBuf tb) → BufTy
  | .hbm, ⟨0, _⟩ => ⟨S8x2x1000000, .f32⟩
  | .hbm, ⟨1, _⟩ => ⟨S8x2x1000000, .f32⟩
  | .hbm, ⟨2, _⟩ => ⟨S8x2x40000, .f32⟩
  | .hbm, ⟨3, _⟩ => ⟨S_, .f32⟩
  | .hbm, ⟨4, _⟩ => ⟨S8x2x896, .f32⟩
  | .hbm, ⟨5, _⟩ => ⟨S8x2x1040896, .f32⟩
  | .hbm, ⟨6, _⟩ => ⟨S_, .i32⟩
  | .hbm, ⟨7, _⟩ => ⟨S_, .f32⟩
  | .hbm, ⟨8, _⟩ => ⟨S8x2x1000448, .f32⟩
  | .hbm, ⟨9, _⟩ => ⟨S8x2x1000448, .f32⟩
  | .hbm, ⟨10, _⟩ => ⟨S8x2x1000000, .f32⟩
  | .local _ .vmem, ⟨0, _⟩ => ⟨S1x2x512, .f32⟩
  | .local _ .vmem, ⟨1, _⟩ => ⟨S1x2x512, .f32⟩
  | .local _ .vmem, ⟨2, _⟩ => ⟨S1x2x1040896, .f32⟩
  | .local _ .vmem, ⟨3, _⟩ => ⟨S1x2x1040896, .f32⟩
  | .local _ .vmem, ⟨4, _⟩ => ⟨S1x2x512, .f32⟩
  | .local _ .vmem, ⟨5, _⟩ => ⟨S1x2x512, .f32⟩
  | _, _ => ⟨S8x2x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 1954], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0_2 : Index := 0#32
  let c0_3 : Index := 0#32
  let arg1 : BitVec 32 := BitVec.ofNat 32 (i 1).val
  let c512_i32 : BitVec 32 := 512#32
  let v0 : BitVec 32 := Scalar.muli arg1 c512_i32
  let v1 : BitVec 32 := v0
  let v17 : Index := Scalar.indexCast v1
  ![0, 0, v17.toNat]
def k0_off2 (i : grid0.Coords) : Fin 3 → Nat :=
  let c0_32 : Index := 0#32
  let c1_33 : Index := 1#32
  let arg1 : BitVec 32 := BitVec.ofNat 32 (i 1).val
  let c512_i32 : BitVec 32 := 512#32
  let v0 : BitVec 32 := Scalar.muli arg1 c512_i32
  let v1 : BitVec 32 := v0
  let v126 : Index := Scalar.indexCast v1
  ![0, 1, v126.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1040896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8x2x896 : S_.BroadcastsInDim S8x2x896 (![] : Fin 0 → Fin S8x2x896.rank)
  concatenates_S8x2x40000_S8x2x1000000_S8x2x896_S8x2x1040896_d2 : Shape.Concatenates [S8x2x40000, S8x2x1000000, S8x2x896] S8x2x1040896 2
  pads_S8x2x1000000_S8x2x1000448_000_000_04480 : S8x2x1000000.Pads (![0, 0, 0] : Fin 3 → Nat) ![0, 0, 448] ![0, 0, 0] S8x2x1000448
  h_S_ : 0 < S_.numel
  iota_S1x512_d1_w32 : S1x512.Iotas .tc 32 [1]
  shapeCasts_S1x512_S512 : S1x512.ShapeCasts S512
  inb_S1x2x512_S1x1x512_0_0_0 : ∀ a, (![0, 0, 0] : Fin 3 → Nat) a + S1x1x512.size a ≤ S1x2x512.size a
  h_S1x1x512 : 0 < S1x1x512.numel
  shapeCasts_S1x1x512_S512 : S1x1x512.ShapeCasts S512
  h_S1x1x40960 : 0 < S1x1x40960.numel
  shapeCasts_S1x1x40960_S40960 : S1x1x40960.ShapeCasts S40960
  shapeCasts_S40960_S80x512 : S40960.ShapeCasts S80x512
  natLt_1_32 : 1 < 32
  iota_S512x80_d1_w32 : S512x80.Iotas .tc 32 [1]
  shapeCasts_S512_S512x1 : S512.ShapeCasts S512x1
  broadcasts_S512x1_S512x80 : S512x1.Broadcasts S512x80
  iota_S512x512_d1_w32 : S512x512.Iotas .tc 32 [1]
  broadcasts_S512x1_S512x512 : S512x1.Broadcasts S512x512
  reduces_S512x512_S512 : S512x512.Reduces [1] S512
  shapeCasts_S512_S1x1x512 : S512.ShapeCasts S1x1x512
  inb_S1x2x512_S1x1x512_0_1_0 : ∀ a, (![0, 1, 0] : Fin 3 → Nat) a + S1x1x512.size a ≤ S1x2x512.size a
  slices_S8x2x1000448_S8x2x1000000_0_0_0 : S8x2x1000448.Slices ![0, 0, 0] S8x2x1000000
  dot_S512x80_S80x512_S512x512_1_0_0_1_n_n_wf : DotDims.WF S512x80 S80x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x1x40960.size a ≤ S1x2x1040896.size a
  k0_off2_inb : ∀ i : grid0.Coords, ∀ a, (k0_off2 i) a + S1x1x40960.size a ≤ S1x2x1040896.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x512.size a ≤ S8x2x1000448.size a
  hwx0_0 : ∀ i : grid0.Coords, EltTy.bits .f32 = 32 ∨ (Rect.block (s := S8x2x1000448) S1x2x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1040896.size a ≤ S8x2x1040896.size a
  hwx0_1 : ∀ i : grid0.Coords, EltTy.bits .f32 = 32 ∨ (Rect.block (s := S8x2x1040896) S1x2x1040896.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x512.size a ≤ S8x2x1000448.size a
  hwx0_2 : ∀ i : grid0.Coords, EltTy.bits .f32 = 32 ∨ (Rect.block (s := S8x2x1000448) S1x2x512.size (cc0_transform_2 i) (hinb0_2 i)).WholeWords (EltTy.packing .f32)

variable [Facts₀]

def dot_S512x80_S80x512_S512x512_1_0_0_1_n_n : DotDims S512x80 S80x512 S512x512 where
  lhsContracting := [1]
  rhsContracting := [0]
  lhsNonContracting := [0]
  rhsNonContracting := [1]
  lhsBatch := []
  rhsBatch := []
  wf := dot_S512x80_S80x512_S512x512_1_0_0_1_n_n_wf

abbrev win0_0 : Pipeline.Window sig grid0 :=
  Pipeline.Window.ofSpec (Memref.whole main_v2) S1x2x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x1040896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2x1000000 : Shape := ⟨3, ![8, 2, 1000000]⟩
abbrev S8x2x40000 : Shape := ⟨3, ![8, 2, 40000]⟩
abbrev S8x2x1040000 : Shape := ⟨3, ![8, 2, 1040000]⟩
abbrev S1000000 : Shape := ⟨1, ![1000000]⟩
abbrev S_ : Shape := ⟨0, ![]⟩
abbrev S1x1x1000000 : Shape := ⟨3, ![1, 1, 1000000]⟩
abbrev S8x2x1000000x1 : Shape := ⟨4, ![8, 2, 1000000, 1]⟩
abbrev S1 : Shape := ⟨1, ![1]⟩
abbrev S1x1x1x1 : Shape := ⟨4, ![1, 1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S8x2x1000000, .f32⟩
  | .hbm, ⟨1, _⟩ => ⟨S8x2x1000000, .f32⟩
  | .hbm, ⟨2, _⟩ => ⟨S8x2x40000, .f32⟩
  | .hbm, ⟨3, _⟩ => ⟨S8x2x1040000, .f32⟩
  | .hbm, ⟨4, _⟩ => ⟨S1000000, .i32⟩
  | .hbm, ⟨5, _⟩ => ⟨S_, .i32⟩
  | .hbm, ⟨6, _⟩ => ⟨S1000000, .i32⟩
  | .hbm, ⟨7, _⟩ => ⟨S1000000, .i32⟩
  | .hbm, ⟨8, _⟩ => ⟨S8x2x1000000, .f32⟩
  | .hbm, ⟨9, _⟩ => ⟨S8x2x1000000, .i32⟩
  | .hbm, ⟨10, _⟩ => ⟨S8x2x1000000, .f32⟩
  | .hbm, ⟨11, _⟩ => ⟨S8x2x1000000, .f32⟩
  | .hbm, ⟨12, _⟩ => ⟨S1x1x1000000, .i32⟩
  | .hbm, ⟨13, _⟩ => ⟨S8x2x1000000, .i32⟩
  | .hbm, ⟨14, _⟩ => ⟨S8x2x1000000, .i32⟩
  | .hbm, ⟨15, _⟩ => ⟨S_, .i32⟩
  | .hbm, ⟨16, _⟩ => ⟨S8x2x1000000, .i32⟩
  | .hbm, ⟨17, _⟩ => ⟨S8x2x1000000, .i32⟩
  | .hbm, ⟨18, _⟩ => ⟨S_, .i32⟩
  | .hbm, ⟨19, _⟩ => ⟨S8x2x1000000, .i32⟩
  | .hbm, ⟨20, _⟩ => ⟨S8x2x1000000, .i32⟩
  | .hbm, ⟨21, _⟩ => ⟨S_, .i32⟩
  | .hbm, ⟨22, _⟩ => ⟨S8x2x1000000, .i32⟩
  | .hbm, ⟨23, _⟩ => ⟨S8x2x1000000, .i1⟩
  | .hbm, ⟨24, _⟩ => ⟨S_, .i32⟩
  | .hbm, ⟨25, _⟩ => ⟨S8x2x1000000, .i32⟩
  | .hbm, ⟨26, _⟩ => ⟨S8x2x1000000, .i32⟩
  | .hbm, ⟨27, _⟩ => ⟨S8x2x1000000, .i32⟩
  | .hbm, ⟨28, _⟩ => ⟨S8x2x1000000x1, .i32⟩
  | .hbm, ⟨29, _⟩ => ⟨S1, .i32⟩
  | .hbm, ⟨30, _⟩ => ⟨S_, .i32⟩
  | .hbm, ⟨31, _⟩ => ⟨S8x2x1000000x1, .i32⟩
  | .hbm, ⟨32, _⟩ => ⟨S8x2x1000000x1, .i1⟩
  | .hbm, ⟨33, _⟩ => ⟨S1x1x1x1, .i32⟩
  | .hbm, ⟨34, _⟩ => ⟨S8x2x1000000x1, .i32⟩
  | .hbm, ⟨35, _⟩ => ⟨S8x2x1000000x1, .i1⟩
  | .hbm, ⟨36, _⟩ => ⟨S8x2x1000000x1, .i1⟩
  | .hbm, ⟨37, _⟩ => ⟨S_, .i1⟩
  | .hbm, ⟨38, _⟩ => ⟨S8x2x1000000, .i1⟩
  | .hbm, ⟨39, _⟩ => ⟨S8x2x1000000, .f32⟩
  | .hbm, ⟨40, _⟩ => ⟨S_, .f32⟩
  | .hbm, ⟨41, _⟩ => ⟨S8x2x1000000, .f32⟩
  | .hbm, ⟨42, _⟩ => ⟨S8x2x1000000, .f32⟩
  | .hbm, ⟨43, _⟩ => ⟨S_, .i32⟩
  | .hbm, ⟨44, _⟩ => ⟨S8x2x1000000, .i32⟩
  | .hbm, ⟨45, _⟩ => ⟨S8x2x1000000, .i1⟩
  | .hbm, ⟨46, _⟩ => ⟨S_, .i32⟩
  | .hbm, ⟨47, _⟩ => ⟨S8x2x1000000, .i32⟩
  | .hbm, ⟨48, _⟩ => ⟨S8x2x1000000, .i32⟩
  | .hbm, ⟨49, _⟩ => ⟨S8x2x1000000, .i32⟩
  | .hbm, ⟨50, _⟩ => ⟨S8x2x1000000x1, .i32⟩
  | .hbm, ⟨51, _⟩ => ⟨S1, .i32⟩
  | .hbm, ⟨52, _⟩ => ⟨S_, .i32⟩
  | .hbm, ⟨53, _⟩ => ⟨S8x2x1000000x1, .i32⟩
  | .hbm, ⟨54, _⟩ => ⟨S8x2x1000000x1, .i1⟩
  | .hbm, ⟨55, _⟩ => ⟨S1x1x1x1, .i32⟩
  | .hbm, ⟨56, _⟩ => ⟨S8x2x1000000x1, .i32⟩
  | .hbm, ⟨57, _⟩ => ⟨S8x2x1000000x1, .i1⟩
  | .hbm, ⟨58, _⟩ => ⟨S8x2x1000000x1, .i1⟩
  | .hbm, ⟨59, _⟩ => ⟨S_, .i1⟩
  | .hbm, ⟨60, _⟩ => ⟨S8x2x1000000, .i1⟩
  | .hbm, ⟨61, _⟩ => ⟨S8x2x1000000, .f32⟩
  | .hbm, ⟨62, _⟩ => ⟨S_, .f32⟩
  | .hbm, ⟨63, _⟩ => ⟨S8x2x1000000, .f32⟩
  | .hbm, ⟨64, _⟩ => ⟨S8x2x1000000, .f32⟩
  | .hbm, ⟨65, _⟩ => ⟨S_, .f32⟩
  | .hbm, ⟨66, _⟩ => ⟨S8x2x1000000, .f32⟩
  | .hbm, ⟨67, _⟩ => ⟨S8x2x1000000, .f32⟩
  | .hbm, ⟨68, _⟩ => ⟨S8x2x1000000, .f32⟩
  | .hbm, ⟨69, _⟩ => ⟨S8x2x1000000, .f32⟩
  | .hbm, ⟨70, _⟩ => ⟨S8x2x1000000, .f32⟩
  | _, _ => ⟨S8x2x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v16 : Ref sig .tc := ⟨.hbm, 64, rfl⟩
abbrev main_cst : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩

abbrev nD : Nat := 1
abbrev τ : Topo := Topo.v7x

variable {F : FTy → Type} [FloatOps F]

class Facts₀ : Prop where
  concatenates_S8x2x40000_S8x2x1000000_S8x2x1040000_d2 : Shape.Concatenates [S8x2x40000, S8x2x1000000] S8x2x1040000 2
  bcast_S_S1000000 : S_.BroadcastsInDim S1000000 (![] : Fin 0 → Fin S1000000.rank)
  bcast_S1000000_S1x1x1000000_2 : S1000000.BroadcastsInDim S1x1x1000000 (![2] : Fin 1 → Fin S1x1x1000000.rank)
  bcast_S1x1x1000000_S8x2x1000000_0_1_2 : S1x1x1000000.BroadcastsInDim S8x2x1000000 (![0, 1, 2] : Fin 3 → Fin S8x2x1000000.rank)
  bcast_S_S8x2x1000000 : S_.BroadcastsInDim S8x2x1000000 (![] : Fin 0 → Fin S8x2x1000000.rank)
  shapeCasts_S8x2x1000000_S8x2x1000000x1 : S8x2x1000000.ShapeCasts S8x2x1000000x1
  bcast_S_S8x2x1000000x1 : S_.BroadcastsInDim S8x2x1000000x1 (![] : Fin 0 → Fin S8x2x1000000x1.rank)
  bcast_S1_S1x1x1x1_3 : S1.BroadcastsInDim S1x1x1x1 (![3] : Fin 1 → Fin S1x1x1x1.rank)
  bcast_S1x1x1x1_S8x2x1000000x1_0_1_2_3 : S1x1x1x1.BroadcastsInDim S8x2x1000000x1 (![0, 1, 2, 3] : Fin 4 → Fin S8x2x1000000x1.rank)
  reducesTo_S8x2x1000000x1_S8x2x1000000_d3 : S8x2x1000000x1.ReducesTo [3] S8x2x1000000
  h_S_ : 0 < S_.numel
  gather_S8x2x1040000_S8x2x1000000x1_S8x2x1000000_n_2_01_01_2_3_111_wf : GatherDims.WF S8x2x1040000 S8x2x1000000x1 S8x2x1000000 [] [2] [0, 1] [2] [0, 1] 3 ![1, 1, 1]

variable [Facts₀]

def gather_S8x2x1040000_S8x2x1000000x1_S8x2x1000000_n_2_01_01_2_3_111 : GatherDims S8x2x1040000 S8x2x1000000x1 S8x2x1000000 where
  offsetDims := []
  collapsedSliceDims := [2]
  operandBatchingDims := [0, 1]
  startIndicesBatchingDims := [0, 1]
  startIndexMap := [2]
  indexVectorDim := 3
  sliceSizes := ![1, 1, 1]
  wf := gather_S8x2x1040000_S8x2x1000000x1_S8x2x1000000_n_2_01_01_2_3_111_wf

class Facts : Prop extends Facts₀ where

variable [Facts]
-- ==== Proof.KFrame.lean ====
/-
  The frame run of the delay-line kernel's program, at any float family: @main is four host lines (a zero
  constant, its broadcast, the concatenation `buffer ++ x ++ zeros`, an integer zero), the padding of `dt` with
  448 zeros, the one region on the 8 × 1954 grid, and the slice that drops the padded tail of the result.
  Here: the arrays as the region finds them, @main as "host lines, the region, host lines", the kernel body's
  triple (two rows of 512 outputs, each stored once, together covering the output block), the proof data of the
  pipeline, the body obligation at every grid point, and the run to the library's frame post — from which both the
  frame claim and the result array's contents are read.
-/
import proofs.«405944_j33406255628322_3_alg».proof.Proof.Gen.Kernel.Launch
import proofs.«405944_j33406255628322_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch memory after the six host lines before it. -/
abbrev V0 (c : Dev nD) : Valuation τ sig (Elt F) := StableHlo.after (List.flatten [hostOps0, hostOps0_1]) (fun b => m (c, b))
/-- The same, read at a TensorCore reference. -/
abbrev V (c : Dev nD) (b : Ref sig .tc) : Buf (Elt F) ((c : Thread nD τ).loc b) := V0 m c (Proc.devRef .tc b)

theorem pre_fresh0 : (hostOps0 : List (HloOp τ sig (Elt F))).Forall fun op => op.fresh = ∅ := by
  simp only [List.Forall]; repeat' constructor
theorem pre_fresh1 : (hostOps0_1 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is the two stretches of host lines, the region, and the slice after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨pre_fresh0, pre_fresh1⟩) main_chain

/-- The slice after the region touches unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp post_fresh) op hop

/-- And it writes its own result `main_v4`, which is none of the pipeline's three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.unary_writes, Finset.mem_singleton] <;> exact StableHlo.devRef_ne_of_ne (by decide)

/-- None of the six host lines before the region writes an argument array: the region finds each as launched. -/
theorem V_arg (c : Dev nD) (a : Ref sig .tc) (ha : a = main_arg0 ∨ a = main_arg1 ∨ a = main_arg2) :
    V m c a = m ((c : Thread nD τ).loc a) :=
  StableHlo.after_of_forall_not_mem (b := Proc.devRef .tc a) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.nary_writes, StableHlo.TRef.unary, StableHlo.TRef.binary, Finset.mem_singleton]
    rcases ha with rfl | rfl | rfl <;> (repeat' apply And.intro) <;> exact StableHlo.devRef_ne_of_ne (by decide)))

/-- No window of the pipeline stages an argument array. -/
theorem arr_ne_arg (a : Ref sig .tc) (ha : a = main_arg0 ∨ a = main_arg1 ∨ a = main_arg2) :
    ∀ w, Pipeline.arrRef spec0 w ≠ a := by
  rcases ha with rfl | rfl | rfl <;> decide

/-- Nor does the slice after it: each argument array ends as launched. -/
theorem W_arg (dats : (p : Fin _) → (c : Dev nD) → Dat τ (Elt F) Unit ℕ (UR sig nD τ) ℕ (cfgs p) c) (c : Dev nD)
    (a : Ref sig .tc) (ha : a = main_arg0 ∨ a = main_arg1 ∨ a = main_arg2) :
    Pipeline.afterTail₀ cfgs dats 0 (V0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.unary_writes, Finset.mem_singleton]
      rcases ha with rfl | rfl | rfl <;> exact StableHlo.devRef_ne_of_ne (by decide))),
    Pipeline.withArrays_of_ne _ c (V0 m c) _ a (arr_ne_arg a ha)]
  exact V_arg m c a ha

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every grid point, whether the pipeline fetched it there
    or (the block index not having moved) at an earlier one, for any proof data over these arrays whose body leaves the
    buffer as it found it. -/
theorem before_in0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every grid point, whether the pipeline fetched it there
    or (the block index not having moved) at an earlier one, for any proof data over these arrays whose body leaves the
    buffer as it found it. -/
theorem before_in1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, over any proof data whose arrays are the region-entry contents: the three
    argument arrays end as launched (none is staged by a window; the post gives each as the tail leaves it). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_arg m dats c main_arg0 (.inl rfl)),
     ((h c).2 main_arg1 (Pipeline.mem_restRefs_of main_arg1 (by decide) (by decide))).trans (W_arg m dats c main_arg1 (.inr (.inl rfl))),
     ((h c).2 main_arg2 (Pipeline.mem_restRefs_of main_arg2 (by decide) (by decide))).trans (W_arg m dats c main_arg2 (.inr (.inr rfl)))⟩) h

/-! ## The body's accesses and what it stores -/

/-- Row 0 and row 1 of a 1 × 2 × 512 block: where the body reads the two channels' delays and stores their outputs. -/
abbrev rRow0 : Rect S1x2x512 := Rect.unit (s := S1x2x512) ![0, 0, 0] S1x1x512.size Facts₀.inb_S1x2x512_S1x1x512_0_0_0
abbrev rRow1 : Rect S1x2x512 := Rect.unit (s := S1x2x512) ![0, 1, 0] S1x1x512.size Facts₀.inb_S1x2x512_S1x1x512_0_1_0
/-- The 40960 samples of channel 0 / channel 1 the body reads at grid point `i`: they start at 512 times the tile number. -/
abbrev rWin0 (i : grid0.Coords) : Rect S1x2x1040896 := Rect.unit (s := S1x2x1040896) (k0_off1 i) S1x1x40960.size (Facts₀.k0_off1_inb i)
abbrev rWin1 (i : grid0.Coords) : Rect S1x2x1040896 := Rect.unit (s := S1x2x1040896) (k0_off2 i) S1x1x40960.size (Facts₀.k0_off2_inb i)

/-- Channel 0's 512 outputs, from its 512 delays `v4` and its 40960 samples `v18`: the skeleton's payloads composed
    as the body's four parts hand them on. -/
def row0 (v4 : Vec F S1x1x512 .f32) (v18 : Vec F S1x1x40960 .f32) : Vec F S1x1x512 .f32 :=
  k0_pay14 (k0_pay5 v4) (k0_pay8 v18) (k0_pay11 (k0_pay6 v4) (k0_pay8 v18) (k0_pay9 v4) (k0_pay10 v4) 1#32)
    (k0_pay12 (k0_pay7 v4)) (k0_pay13 (k0_pay7 v4)) (iota .tc S512x80 32 [1] Facts₀.iota_S512x80_d1_w32)

/-- Channel 1's, likewise from `v113` and `v127`. -/
def row1 (v113 : Vec F S1x1x512 .f32) (v127 : Vec F S1x1x40960 .f32) : Vec F S1x1x512 .f32 :=
  k0_pay1 (k0_pay17 v113) (k0_pay19 k0_pay2 v113) (k0_pay20 v127)
    (k0_pay23 (k0_pay18 k0_pay2 v113) (k0_pay20 v127) 512#32 (k0_pay21 k0_pay2 v113) (k0_pay22 k0_pay2 v113)) 512#32
    (k0_pay24 (k0_pay19 k0_pay2 v113)) (k0_pay25 (k0_pay19 k0_pay2 v113)) (Scalar.cmpi .sgt 512#32 0#32)

/-- The output block after the body at grid point `i`, from the delays' block `x0` and the samples' block `x1`: its two
    stores as pieces, the later one first. -/
def outBlk (i : grid0.Coords) (x0 : Vec F S1x2x512 .f32) (x1 : Vec F S1x2x1040896 .f32) : Vec F S1x2x512 .f32 :=
  View.canon [⟨rRow1, row1 (View.ld x0 rRow1) (View.ld x1 (rWin1 i))⟩, ⟨rRow0, row0 (View.ld x0 rRow0) (View.ld x1 (rWin0 i))⟩]

/-- The two rows tile the block. -/
theorem cover_out (p1 p0 : Vec F S1x1x512 .f32) (y : S1x2x512.Idx) :
    ∃ pc ∈ ([⟨rRow1, p1⟩, ⟨rRow0, p0⟩] : List (View.Piece (Elt F) S1x2x512 .f32)), y ∈ pc.1.set :=
  View.cover_of_tiled [⟨rRow1, p1⟩, ⟨rRow0, p0⟩] S1x1x512.size (by rfl) y

/-! ## The body's triple -/

set_option maxHeartbeats 4000000 in
/-- The kernel body on whole staging memrefs — the delays' at contents `x0`, the samples' at `x1`, the output's at
    anything — runs to its end leaving the inputs as they were and the output at `outBlk i x0 x1`. -/
theorem sound_kernel (c : Dev nD) (E : Set ℕ) (i : grid0.Coords)
    (arg2 : Memref sig .tc .vmem S1x2x512 .f32) (harg2 : arg2.IsWhole)
    (arg3 : Memref sig .tc .vmem S1x2x1040896 .f32) (harg3 : arg3.IsWhole)
    (arg4 : Memref sig .tc .vmem S1x2x512 .f32) (harg4 : arg4.IsWhole)
    (x0 : Vec F S1x2x512 .f32) (x1 : Vec F S1x2x1040896 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlk i x0 x1)) -∗ K ⟨⟩))
      ⊢ wp frame (wpE (defs₀ (F := F)) Variants.none c none) E (cc0__delay_kernel i arg2 harg2 arg3 harg3 arg4 harg4) K := by
  simp only [cc0__delay_kernel_eq_skeleton]; unfold cc0__delay_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _ _)

/-! ## The pipeline's proof data -/

/-- The proof data of the one pipeline on core `c`: the arrays as the region finds them; after the body at point `t`
    the two input buffers at their blocks and the output buffer at `outBlk` of them; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (grid0.coords t) (iblk m c 0 t) (iblk m c 1 t)
  Φ _ := Pipeline.ΦA spec0 c
  q _ := fullShare
  owed _ := 0

/-- Its arrays are the region-entry contents (the definition projected, so that the fold over the host lines is never
    opened to see it). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = outBlk (grid0.coords t) (iblk m c 0 t) (iblk m c 1 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d

/-! ## The body obligation, at a generic point -/

/-- The current staging memref of each window at point `t`. -/
abbrev stg0 (t : Fin cfg0.N) := (cfg0.win 0).stage (cfg0.slots t 0)
abbrev stg1 (t : Fin cfg0.N) := (cfg0.win 1).stage (cfg0.slots t 1)
abbrev stg2 (t : Fin cfg0.N) := (cfg0.win 2).stage (cfg0.slots t 2)

/-- The kernel body as the pipeline calls it at point `t`. -/
abbrev bodyAt (t : Fin cfg0.N) : Prog (TpuEff nD τ sig (Elt F) Λ₀ .tc) PUnit :=
  cc0__delay_kernel (grid0.coords t) (win0_0.stage (cfg0.slots t 0)) (Facts₀.hstage0_0 ((cfg0.slots t 0).cast Facts₀.nbuf0_0))
    (win0_1.stage (cfg0.slots t 1)) (Facts₀.hstage0_1 ((cfg0.slots t 1).cast Facts₀.nbuf0_1))
    (win0_2.stage (cfg0.slots t 2)) (Facts₀.hstage0_2 ((cfg0.slots t 2).cast Facts₀.nbuf0_2))

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the library computes from the proof data and every other unscoped buffer as the slice
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the program runs to its end and its three argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Fr

end
-- ==== Proof.KIFrame.lean ====
/-
  The frame run of the delay-line kernel's program, at any float family: @main is four host lines (a zero
  constant, its broadcast, the concatenation `buffer ++ x ++ zeros`, an integer zero), the padding of `dt` with
  448 zeros, the one region on the 8 × 1954 grid, and the slice that drops the padded tail of the result.
  Here: the arrays as the region finds them, @main as "host lines, the region, host lines", the kernel body's
  triple (two rows of 512 outputs, each stored once, together covering the output block), the proof data of the
  pipeline, the body obligation at every grid point, and the run to the library's frame post — from which both the
  frame claim and the result array's contents are read.
-/
import proofs.«405944_j33406255628322_3_alg».proof.Proof.Gen.KernelIdeal.Launch
import proofs.«405944_j33406255628322_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch memory after the six host lines before it. -/
abbrev V0 (c : Dev nD) : Valuation τ sig (Elt F) := StableHlo.after (List.flatten [hostOps0, hostOps0_1]) (fun b => m (c, b))
/-- The same, read at a TensorCore reference. -/
abbrev V (c : Dev nD) (b : Ref sig .tc) : Buf (Elt F) ((c : Thread nD τ).loc b) := V0 m c (Proc.devRef .tc b)

theorem pre_fresh0 : (hostOps0 : List (HloOp τ sig (Elt F))).Forall fun op => op.fresh = ∅ := by
  simp only [List.Forall]; repeat' constructor
theorem pre_fresh1 : (hostOps0_1 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is the two stretches of host lines, the region, and the slice after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨pre_fresh0, pre_fresh1⟩) main_chain

/-- The slice after the region touches unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp post_fresh) op hop

/-- And it writes its own result `main_v4`, which is none of the pipeline's three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.unary_writes, Finset.mem_singleton] <;> exact StableHlo.devRef_ne_of_ne (by decide)

/-- None of the six host lines before the region writes an argument array: the region finds each as launched. -/
theorem V_arg (c : Dev nD) (a : Ref sig .tc) (ha : a = main_arg0 ∨ a = main_arg1 ∨ a = main_arg2) :
    V m c a = m ((c : Thread nD τ).loc a) :=
  StableHlo.after_of_forall_not_mem (b := Proc.devRef .tc a) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.nary_writes, StableHlo.TRef.unary, StableHlo.TRef.binary, Finset.mem_singleton]
    rcases ha with rfl | rfl | rfl <;> (repeat' apply And.intro) <;> exact StableHlo.devRef_ne_of_ne (by decide)))

/-- No window of the pipeline stages an argument array. -/
theorem arr_ne_arg (a : Ref sig .tc) (ha : a = main_arg0 ∨ a = main_arg1 ∨ a = main_arg2) :
    ∀ w, Pipeline.arrRef spec0 w ≠ a := by
  rcases ha with rfl | rfl | rfl <;> decide

/-- Nor does the slice after it: each argument array ends as launched. -/
theorem W_arg (dats : (p : Fin _) → (c : Dev nD) → Dat τ (Elt F) Unit ℕ (UR sig nD τ) ℕ (cfgs p) c) (c : Dev nD)
    (a : Ref sig .tc) (ha : a = main_arg0 ∨ a = main_arg1 ∨ a = main_arg2) :
    Pipeline.afterTail₀ cfgs dats 0 (V0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.unary_writes, Finset.mem_singleton]
      rcases ha with rfl | rfl | rfl <;> exact StableHlo.devRef_ne_of_ne (by decide))),
    Pipeline.withArrays_of_ne _ c (V0 m c) _ a (arr_ne_arg a ha)]
  exact V_arg m c a ha

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every grid point, whether the pipeline fetched it there
    or (the block index not having moved) at an earlier one, for any proof data over these arrays whose body leaves the
    buffer as it found it. -/
theorem before_in0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every grid point, whether the pipeline fetched it there
    or (the block index not having moved) at an earlier one, for any proof data over these arrays whose body leaves the
    buffer as it found it. -/
theorem before_in1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, over any proof data whose arrays are the region-entry contents: the three
    argument arrays end as launched (none is staged by a window; the post gives each as the tail leaves it). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_arg m dats c main_arg0 (.inl rfl)),
     ((h c).2 main_arg1 (Pipeline.mem_restRefs_of main_arg1 (by decide) (by decide))).trans (W_arg m dats c main_arg1 (.inr (.inl rfl))),
     ((h c).2 main_arg2 (Pipeline.mem_restRefs_of main_arg2 (by decide) (by decide))).trans (W_arg m dats c main_arg2 (.inr (.inr rfl)))⟩) h

/-! ## The body's accesses and what it stores -/

/-- Row 0 and row 1 of a 1 × 2 × 512 block: where the body reads the two channels' delays and stores their outputs. -/
abbrev rRow0 : Rect S1x2x512 := Rect.unit (s := S1x2x512) ![0, 0, 0] S1x1x512.size Facts₀.inb_S1x2x512_S1x1x512_0_0_0
abbrev rRow1 : Rect S1x2x512 := Rect.unit (s := S1x2x512) ![0, 1, 0] S1x1x512.size Facts₀.inb_S1x2x512_S1x1x512_0_1_0
/-- The 40960 samples of channel 0 / channel 1 the body reads at grid point `i`: they start at 512 times the tile number. -/
abbrev rWin0 (i : grid0.Coords) : Rect S1x2x1040896 := Rect.unit (s := S1x2x1040896) (k0_off1 i) S1x1x40960.size (Facts₀.k0_off1_inb i)
abbrev rWin1 (i : grid0.Coords) : Rect S1x2x1040896 := Rect.unit (s := S1x2x1040896) (k0_off2 i) S1x1x40960.size (Facts₀.k0_off2_inb i)

/-- Channel 0's 512 outputs, from its 512 delays `v4` and its 40960 samples `v18`: the skeleton's payloads composed
    as the body's four parts hand them on. -/
def row0 (v4 : Vec F S1x1x512 .f32) (v18 : Vec F S1x1x40960 .f32) : Vec F S1x1x512 .f32 :=
  k0_pay14 (k0_pay5 v4) (k0_pay8 v18) (k0_pay11 (k0_pay6 v4) (k0_pay8 v18) (k0_pay9 v4) (k0_pay10 v4) 1#32)
    (k0_pay12 (k0_pay7 v4)) (k0_pay13 (k0_pay7 v4)) (iota .tc S512x80 32 [1] Facts₀.iota_S512x80_d1_w32)

/-- Channel 1's, likewise from `v113` and `v127`. -/
def row1 (v113 : Vec F S1x1x512 .f32) (v127 : Vec F S1x1x40960 .f32) : Vec F S1x1x512 .f32 :=
  k0_pay1 (k0_pay17 v113) (k0_pay19 k0_pay2 v113) (k0_pay20 v127)
    (k0_pay23 (k0_pay18 k0_pay2 v113) (k0_pay20 v127) 512#32 (k0_pay21 k0_pay2 v113) (k0_pay22 k0_pay2 v113)) 512#32
    (k0_pay24 (k0_pay19 k0_pay2 v113)) (k0_pay25 (k0_pay19 k0_pay2 v113)) (Scalar.cmpi .sgt 512#32 0#32)

/-- The output block after the body at grid point `i`, from the delays' block `x0` and the samples' block `x1`: its two
    stores as pieces, the later one first. -/
def outBlk (i : grid0.Coords) (x0 : Vec F S1x2x512 .f32) (x1 : Vec F S1x2x1040896 .f32) : Vec F S1x2x512 .f32 :=
  View.canon [⟨rRow1, row1 (View.ld x0 rRow1) (View.ld x1 (rWin1 i))⟩, ⟨rRow0, row0 (View.ld x0 rRow0) (View.ld x1 (rWin0 i))⟩]

/-- The two rows tile the block. -/
theorem cover_out (p1 p0 : Vec F S1x1x512 .f32) (y : S1x2x512.Idx) :
    ∃ pc ∈ ([⟨rRow1, p1⟩, ⟨rRow0, p0⟩] : List (View.Piece (Elt F) S1x2x512 .f32)), y ∈ pc.1.set :=
  View.cover_of_tiled [⟨rRow1, p1⟩, ⟨rRow0, p0⟩] S1x1x512.size (by rfl) y

/-! ## The body's triple -/

set_option maxHeartbeats 4000000 in
/-- The kernel body on whole staging memrefs — the delays' at contents `x0`, the samples' at `x1`, the output's at
    anything — runs to its end leaving the inputs as they were and the output at `outBlk i x0 x1`. -/
theorem sound_kernel (c : Dev nD) (E : Set ℕ) (i : grid0.Coords)
    (arg2 : Memref sig .tc .vmem S1x2x512 .f32) (harg2 : arg2.IsWhole)
    (arg3 : Memref sig .tc .vmem S1x2x1040896 .f32) (harg3 : arg3.IsWhole)
    (arg4 : Memref sig .tc .vmem S1x2x512 .f32) (harg4 : arg4.IsWhole)
    (x0 : Vec F S1x2x512 .f32) (x1 : Vec F S1x2x1040896 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlk i x0 x1)) -∗ K ⟨⟩))
      ⊢ wp frame (wpE (defs₀ (F := F)) Variants.none c none) E (cc0__delay_kernel i arg2 harg2 arg3 harg3 arg4 harg4) K := by
  simp only [cc0__delay_kernel_eq_skeleton]; unfold cc0__delay_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _ _)

/-! ## The pipeline's proof data -/

/-- The proof data of the one pipeline on core `c`: the arrays as the region finds them; after the body at point `t`
    the two input buffers at their blocks and the output buffer at `outBlk` of them; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (grid0.coords t) (iblk m c 0 t) (iblk m c 1 t)
  Φ _ := Pipeline.ΦA spec0 c
  q _ := fullShare
  owed _ := 0

/-- Its arrays are the region-entry contents (the definition projected, so that the fold over the host lines is never
    opened to see it). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = outBlk (grid0.coords t) (iblk m c 0 t) (iblk m c 1 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d

/-! ## The body obligation, at a generic point -/

/-- The current staging memref of each window at point `t`. -/
abbrev stg0 (t : Fin cfg0.N) := (cfg0.win 0).stage (cfg0.slots t 0)
abbrev stg1 (t : Fin cfg0.N) := (cfg0.win 1).stage (cfg0.slots t 1)
abbrev stg2 (t : Fin cfg0.N) := (cfg0.win 2).stage (cfg0.slots t 2)

/-- The kernel body as the pipeline calls it at point `t`. -/
abbrev bodyAt (t : Fin cfg0.N) : Prog (TpuEff nD τ sig (Elt F) Λ₀ .tc) PUnit :=
  cc0__delay_kernel (grid0.coords t) (win0_0.stage (cfg0.slots t 0)) (Facts₀.hstage0_0 ((cfg0.slots t 0).cast Facts₀.nbuf0_0))
    (win0_1.stage (cfg0.slots t 1)) (Facts₀.hstage0_1 ((cfg0.slots t 1).cast Facts₀.nbuf0_1))
    (win0_2.stage (cfg0.slots t 2)) (Facts₀.hstage0_2 ((cfg0.slots t 2).cast Facts₀.nbuf0_2))

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the library computes from the proof data and every other unscoped buffer as the slice
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the program runs to its end and its three argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Fr

end
-- ==== Proof.GridFacts.lean ====
/-
  The 8 × 1954 grid of the delay-line kernel, by arithmetic: point `t` has batch `t / 1954` and tile `t % 1954`; the
  delays' and the result's windows have block index (batch, 0, tile) there and the signal's window (batch, 0, 0); the
  result's window is written back at every point (the tile number changes from each point to the next); and every
  (batch, tile) is some point's.
-/
import proofs.«405944_j33406255628322_3_alg».proof.Proof.KIFrame
import Idealize.ShloMosaic.Lib.Pipeline.Value
import Idealize.ShloMosaic.Lib.ValueIdx

set_option maxRecDepth 16384

noncomputable section

namespace Cert.KernelIdeal.GridFacts

open Cert.KernelIdeal Cert.KernelIdeal.Fr
open Idealize.ShloMosaic Idealize.ShloMosaic.TcCoe Idealize.ShloMosaic.ValueIdx Idealize.SL.Sem
open Idealize.ShloMosaic.Pipeline (Dat)

/-! ## The grid's points -/

theorem gridN : grid0.N = 15632 := Cert.KernelIdeal.Gen.N_0

/-- Point `t`'s batch and tile. -/
theorem coords0 (t : Fin grid0.N) : (grid0.coords t 0).val = t.val / 1954 % 8 := rfl
theorem coords1 (t : Fin grid0.N) : (grid0.coords t 1).val = t.val % 1954 := by
  show t.val / 1 % 1954 = _
  rw [Nat.div_one]

theorem ofNat_toNat_small (n : ℕ) (h : n < 4294967296) : (BitVec.ofNat 32 n).toNat = n := by
  rw [BitVec.toNat_ofNat]; exact Nat.mod_eq_of_lt h

/-- The block indices of the three windows at point `t`: the delays' and the result's blocks are (batch, 0, tile),
    the signal's block is the whole of the batch's two channels. -/
theorem index0 (t : Fin grid0.N) : win0_0.index t = ![(grid0.coords t 0).val, 0, (grid0.coords t 1).val] := by
  show cc0_transform_0 (grid0.coords t) = _
  unfold cc0_transform_0
  have h0 : (grid0.coords t 0).val < 8 := (grid0.coords t 0).isLt
  have h1 : (grid0.coords t 1).val < 1954 := (grid0.coords t 1).isLt
  simp only []
  rw [ofNat_toNat_small (grid0.coords t 0).val (by omega), ofNat_toNat_small (grid0.coords t 1).val (by omega)]; rfl
theorem index1 (t : Fin grid0.N) : win0_1.index t = ![(grid0.coords t 0).val, 0, 0] := by
  show cc0_transform_1 (grid0.coords t) = _
  unfold cc0_transform_1
  have h0 : (grid0.coords t 0).val < 8 := (grid0.coords t 0).isLt
  simp only []
  rw [ofNat_toNat_small (grid0.coords t 0).val (by omega)]; rfl
theorem index2 (t : Fin grid0.N) : win0_2.index t = ![(grid0.coords t 0).val, 0, (grid0.coords t 1).val] := by
  show cc0_transform_2 (grid0.coords t) = _
  unfold cc0_transform_2
  have h0 : (grid0.coords t 0).val < 8 := (grid0.coords t 0).isLt
  have h1 : (grid0.coords t 1).val < 1954 := (grid0.coords t 1).isLt
  simp only []
  rw [ofNat_toNat_small (grid0.coords t 0).val (by omega), ofNat_toNat_small (grid0.coords t 1).val (by omega)]; rfl

/-- The result's window is written back at every point: the tile number changes from each point to the next. -/
theorem flush2 (t : Fin cfg0.N) : (cfg0.win 2).flush t = true := by
  show (win0_2.isOut && (decide (t.val + 1 = grid0.N) || decide (∃ h : t.val + 1 < grid0.N, win0_2.index ⟨t.val + 1, h⟩ ≠ win0_2.index t))) = true
  rw [show win0_2.isOut = true from rfl, Bool.true_and, Bool.or_eq_true, decide_eq_true_eq, decide_eq_true_eq]
  by_cases hl : t.val + 1 = grid0.N
  · exact .inl hl
  · have ht : t.val < grid0.N := t.isLt
    have hlt : t.val + 1 < grid0.N := by omega
    refine .inr ⟨hlt, fun he => ?_⟩
    rw [index2, index2] at he
    have h2 := congrFun he 2
    have e1 : (grid0.coords ⟨t.val + 1, hlt⟩ 1).val = (grid0.coords t 1).val := h2
    rw [coords1, coords1] at e1
    simp only [] at e1
    omega

/-- Every batch and tile is some point's. -/
theorem point_of (b : Fin 8) (ti : Fin 1954) : ∃ t : Fin cfg0.N, (grid0.coords t 0).val = b.val ∧ (grid0.coords t 1).val = ti.val := by
  have hb := b.isLt; have hti := ti.isLt
  refine ⟨⟨b.val * 1954 + ti.val, by show _ < grid0.N; rw [gridN]; omega⟩, ?_, ?_⟩
  · rw [coords0]; simp only []; omega
  · rw [coords1]; simp only []; omega

end Cert.KernelIdeal.GridFacts

end
-- ==== Proof.Arr.lean ====
/-
  An array's contents read as a function to the extended reals (a memory hands its buffers out at a type that only
  unfolds to this one; statements that compare or add elements are written through this reading).
-/
import Idealize.ShloMosaic.PureOps.Ideal

namespace Cert.Delay

open Idealize.ShloMosaic

/-- The contents `f` of an array of shape `S`, as a function from its indices to the extended reals. -/
abbrev arr (S : Shape) (f : S.Idx → EReal) : S.Idx → EReal := f

end Cert.Delay
-- ==== Proof.Blocks.lean ====
/-
  The kernel body's loads and its output block, read at a coordinate, at grid point `t` (batch `b = t / 1954`, tile
  `ti = t % 1954`): row `ch` of the delays' block is `dt_pad[b, ch, 512·ti + r]`; the 40960 samples the body loads for
  channel `ch` are `x_pad[b, ch, 512·ti + j]`; and row `ch` of the output block is that channel's stored payload.
-/
import proofs.«405944_j33406255628322_3_alg».proof.Proof.KIFrame
import proofs.«405944_j33406255628322_3_alg».proof.Proof.GridFacts
import proofs.«405944_j33406255628322_3_alg».proof.Proof.Arr
import Idealize.ShloMosaic.Lib.Pipeline.Value
import Idealize.ShloMosaic.Lib.ValueIdx

set_option maxRecDepth 16384

noncomputable section

namespace Cert.KernelIdeal.Blocks

open Cert.KernelIdeal Cert.KernelIdeal.Fr Cert.KernelIdeal.GridFacts
open Idealize.ShloMosaic Idealize.ShloMosaic.TcCoe Idealize.ShloMosaic.ValueIdx Idealize.SL.Sem

variable (m : (ℓ : Loc nD τ sig) → Buf (Elt Ideal) ℓ)

/-- Row 1 of the output block is the later store's payload, -/
theorem outBlk_row1 (i : grid0.Coords) (x0 : Vec Ideal S1x2x512 .f32) (x1 : Vec Ideal S1x2x1040896 .f32) (r : Fin 512) :
    outBlk i x0 x1 (ix3 (0 : Fin 1) (1 : Fin 2) r) = row1 (View.ld x0 rRow1) (View.ld x1 (rWin1 i)) (ix3 (0 : Fin 1) (0 : Fin 1) r) := by
  have he : ix3 (0 : Fin 1) (1 : Fin 2) r = (rRow1.emb (ix3 (0 : Fin 1) (0 : Fin 1) r) : S1x2x512.Idx) := by
    funext a
    apply Fin.ext
    match a with
    | ⟨0, _⟩ => show 0 = 0 + 1 * 0; rfl
    | ⟨1, _⟩ => show 1 = 1 + 1 * 0; rfl
    | ⟨2, _⟩ => show r.val = 0 + 1 * r.val; omega
  unfold outBlk
  rw [he]
  exact View.canon_cons_emb rRow1 _ _ _

/-- Under the two rows as pieces, the later one first, an index of row 0 reads the earlier piece's payload: row 1's
    rectangle starts at coordinate 1 on the channel axis and does not hold it. -/
private theorem canon_rows_row0 (p1 p0 : Vec Ideal S1x1x512 .f32) (r : Fin 512) :
    View.canon ([⟨rRow1, p1⟩, ⟨rRow0, p0⟩] : List (View.Piece (Elt Ideal) S1x2x512 .f32)) (ix3 (0 : Fin 1) (0 : Fin 2) r)
      = p0 (ix3 (0 : Fin 1) (0 : Fin 1) r) := by
  have hnot : (ix3 (0 : Fin 1) (0 : Fin 2) r : S1x2x512.Idx) ∉ rRow1.set := by
    intro hmem
    have h1 := (Rect.mem_set_unit.mp hmem) (⟨1, by decide⟩ : Fin 3)
    have h2 : (1 : ℕ) ≤ 0 := h1.1
    omega
  have he : ix3 (0 : Fin 1) (0 : Fin 2) r = (rRow0.emb (ix3 (0 : Fin 1) (0 : Fin 1) r) : S1x2x512.Idx) := by
    funext a
    apply Fin.ext
    match a with
    | ⟨0, _⟩ => show 0 = 0 + 1 * 0; rfl
    | ⟨1, _⟩ => show 0 = 0 + 1 * 0; rfl
    | ⟨2, _⟩ => show r.val = 0 + 1 * r.val; omega
  refine (View.canon_cons_of_not_mem ⟨rRow1, p1⟩ [⟨rRow0, p0⟩] hnot).trans ?_
  rw [he]
  exact View.canon_cons_emb rRow0 p0 [] _

/-- and row 0, which the later store does not touch, is the earlier store's. -/
theorem outBlk_row0 (i : grid0.Coords) (x0 : Vec Ideal S1x2x512 .f32) (x1 : Vec Ideal S1x2x1040896 .f32) (r : Fin 512) :
    outBlk i x0 x1 (ix3 (0 : Fin 1) (0 : Fin 2) r) = row0 (View.ld x0 rRow0) (View.ld x1 (rWin0 i)) (ix3 (0 : Fin 1) (0 : Fin 1) r) := by
  unfold outBlk
  exact canon_rows_row0 _ _ r

/-- The delays the body loads for channel 0 / channel 1 at point `t`. -/
theorem ld_dt0 (c : Dev nD) (t : Fin cfg0.N) (r : Fin 512) :
    View.ld (iblk m c 0 t) rRow0 (ix3 (0 : Fin 1) (0 : Fin 1) r)
      = Cert.Delay.arr S8x2x1000448 (V m c main_v2)
          (ix3 (⟨(grid0.coords t 0).val, (grid0.coords t 0).isLt⟩ : Fin 8) (0 : Fin 2)
            (⟨512 * (grid0.coords t 1).val + r.val, by have h1 : (grid0.coords t 1).val < 1954 := (grid0.coords t 1).isLt; have := r.isLt; omega⟩ : Fin 1000448)) := by
  show V m c main_v2 (((cfg0.win 0).blk t).view.emb (rRow0.idx (ix3 (0 : Fin 1) (0 : Fin 1) r))) = V m c main_v2 _
  refine congrArg (V m c main_v2) ?_
  funext a
  apply Fin.ext
  have i0 := index0 t
  match a with
  | ⟨0, _⟩ =>
    show win0_0.index t (0 : Fin 3) * 1 + 1 * (0 + 1 * 0) = (grid0.coords t 0).val
    rw [i0]
    show (grid0.coords t 0).val * 1 + 1 * (0 + 1 * 0) = _
    omega
  | ⟨1, _⟩ =>
    show win0_0.index t (1 : Fin 3) * 2 + 1 * (0 + 1 * 0) = 0
    rw [i0]
    rfl
  | ⟨2, _⟩ =>
    show win0_0.index t (2 : Fin 3) * 512 + 1 * (0 + 1 * r.val) = 512 * (grid0.coords t 1).val + r.val
    rw [i0]
    show (grid0.coords t 1).val * 512 + 1 * (0 + 1 * r.val) = _
    omega
theorem ld_dt1 (c : Dev nD) (t : Fin cfg0.N) (r : Fin 512) :
    View.ld (iblk m c 0 t) rRow1 (ix3 (0 : Fin 1) (0 : Fin 1) r)
      = Cert.Delay.arr S8x2x1000448 (V m c main_v2)
          (ix3 (⟨(grid0.coords t 0).val, (grid0.coords t 0).isLt⟩ : Fin 8) (1 : Fin 2)
            (⟨512 * (grid0.coords t 1).val + r.val, by have h1 : (grid0.coords t 1).val < 1954 := (grid0.coords t 1).isLt; have := r.isLt; omega⟩ : Fin 1000448)) := by
  show V m c main_v2 (((cfg0.win 0).blk t).view.emb (rRow1.idx (ix3 (0 : Fin 1) (0 : Fin 1) r))) = V m c main_v2 _
  refine congrArg (V m c main_v2) ?_
  funext a
  apply Fin.ext
  have i0 := index0 t
  match a with
  | ⟨0, _⟩ =>
    show win0_0.index t (0 : Fin 3) * 1 + 1 * (0 + 1 * 0) = (grid0.coords t 0).val
    rw [i0]
    show (grid0.coords t 0).val * 1 + 1 * (0 + 1 * 0) = _
    omega
  | ⟨1, _⟩ =>
    show win0_0.index t (1 : Fin 3) * 2 + 1 * (1 + 1 * 0) = 1
    rw [i0]
    rfl
  | ⟨2, _⟩ =>
    show win0_0.index t (2 : Fin 3) * 512 + 1 * (0 + 1 * r.val) = 512 * (grid0.coords t 1).val + r.val
    rw [i0]
    show (grid0.coords t 1).val * 512 + 1 * (0 + 1 * r.val) = _
    omega

/-- The 40960 samples the body loads for channel 0 / channel 1 at point `t`: they start at position `512·tile`. -/
theorem ld_win0 (c : Dev nD) (t : Fin cfg0.N) (j : Fin 40960) :
    View.ld (iblk m c 1 t) (rWin0 (grid0.coords t)) (ix3 (0 : Fin 1) (0 : Fin 1) j)
      = Cert.Delay.arr S8x2x1040896 (V m c main_v1)
          (ix3 (⟨(grid0.coords t 0).val, (grid0.coords t 0).isLt⟩ : Fin 8) (0 : Fin 2)
            (⟨512 * (grid0.coords t 1).val + j.val, by have h1 : (grid0.coords t 1).val < 1954 := (grid0.coords t 1).isLt; have := j.isLt; omega⟩ : Fin 1040896)) := by
  show V m c main_v1 (((cfg0.win 1).blk t).view.emb ((rWin0 (grid0.coords t)).idx (ix3 (0 : Fin 1) (0 : Fin 1) j))) = V m c main_v1 _
  refine congrArg (V m c main_v1) ?_
  funext a
  apply Fin.ext
  have i1 := index1 t
  have ho := Gen.k0_off1_eq (grid0.coords t)
  match a with
  | ⟨0, _⟩ =>
    show win0_1.index t (0 : Fin 3) * 1 + 1 * (k0_off1 (grid0.coords t) (0 : Fin 3) + 1 * 0) = (grid0.coords t 0).val
    rw [i1, ho]
    show (grid0.coords t 0).val * 1 + 1 * (0 + 1 * 0) = _
    omega
  | ⟨1, _⟩ =>
    show win0_1.index t (1 : Fin 3) * 2 + 1 * (k0_off1 (grid0.coords t) (1 : Fin 3) + 1 * 0) = 0
    rw [i1, ho]
    rfl
  | ⟨2, _⟩ =>
    show win0_1.index t (2 : Fin 3) * 1040896 + 1 * (k0_off1 (grid0.coords t) (2 : Fin 3) + 1 * j.val) = 512 * (grid0.coords t 1).val + j.val
    rw [i1, ho]
    show 0 * 1040896 + 1 * (512 * (grid0.coords t 1).val + 1 * j.val) = _
    omega
theorem ld_win1 (c : Dev nD) (t : Fin cfg0.N) (j : Fin 40960) :
    View.ld (iblk m c 1 t) (rWin1 (grid0.coords t)) (ix3 (0 : Fin 1) (0 : Fin 1) j)
      = Cert.Delay.arr S8x2x1040896 (V m c main_v1)
          (ix3 (⟨(grid0.coords t 0).val, (grid0.coords t 0).isLt⟩ : Fin 8) (1 : Fin 2)
            (⟨512 * (grid0.coords t 1).val + j.val, by have h1 : (grid0.coords t 1).val < 1954 := (grid0.coords t 1).isLt; have := j.isLt; omega⟩ : Fin 1040896)) := by
  show V m c main_v1 (((cfg0.win 1).blk t).view.emb ((rWin1 (grid0.coords t)).idx (ix3 (0 : Fin 1) (0 : Fin 1) j))) = V m c main_v1 _
  refine congrArg (V m c main_v1) ?_
  funext a
  apply Fin.ext
  have i1 := index1 t
  have ho := Gen.k0_off2_eq (grid0.coords t)
  match a with
  | ⟨0, _⟩ =>
    show win0_1.index t (0 : Fin 3) * 1 + 1 * (k0_off2 (grid0.coords t) (0 : Fin 3) + 1 * 0) = (grid0.coords t 0).val
    rw [i1, ho]
    show (grid0.coords t 0).val * 1 + 1 * (0 + 1 * 0) = _
    omega
  | ⟨1, _⟩ =>
    show win0_1.index t (1 : Fin 3) * 2 + 1 * (k0_off2 (grid0.coords t) (1 : Fin 3) + 1 * 0) = 1
    rw [i1, ho]
    rfl
  | ⟨2, _⟩ =>
    show win0_1.index t (2 : Fin 3) * 1040896 + 1 * (k0_off2 (grid0.coords t) (2 : Fin 3) + 1 * j.val) = 512 * (grid0.coords t 1).val + j.val
    rw [i1, ho]
    show 0 * 1040896 + 1 * (512 * (grid0.coords t 1).val + 1 * j.val) = _
    omega

end Cert.KernelIdeal.Blocks

end
-- ==== Proof.Spec.lean ====
/-
  The specification both programs are proved against: a delay line with a fractional delay.
  For each batch `b`, channel `c` and time `t` the delay `d = dt[b,c,t]` is split into its integer part
  `⌊d⌋` (as the 32-bit word both programs compute: floor, then conversion to a signed integer) and its fractional
  part `d - ⌊d⌋`; the output is the linear interpolation
  `(1 - frac) · line[40000 + t - ⌊d⌋] + frac · line[40000 + t - ⌊d⌋ - 1]`
  of the signal `line = buffer ++ x` (the 40000 samples of history followed by the input), the second tap
  clipped at position 0. Also the few facts about the integer and fractional parts of a delay in `[0, 40000]`
  and the collapse of a sum against a one-hot weight that the two bridges use.
-/
import Idealize.ShloMosaic.PureOps.Ideal
import Idealize.ShloMosaic.Lib.ValueIdx

noncomputable section

namespace Cert.Delay

open Idealize.ShloMosaic Idealize.ShloMosaic.ValueIdx

/-- The integer part of a delay, as the signed 32-bit word `fptosi (floor d)`. -/
def ipart (d : EReal) : BitVec 32 := Ideal.fptosi 32 (Ideal.liftRound Int.floor d)

/-- The fractional part of a delay: the delay less its integer part read back as a real. -/
def fpart (d : EReal) : EReal := d - (((ipart d).toInt : ℝ) : EReal)

/-- The delay line's signal at position `n`: the history buffer on `[0, 40000)`, the input after it, zero past the
    input's end (where the kernel's padded copy holds zeros and the reference never reads). -/
def line (x : (⟨3, ![8, 2, 1000000]⟩ : Shape).Idx → EReal) (buf : (⟨3, ![8, 2, 40000]⟩ : Shape).Idx → EReal)
    (b : Fin 8) (c : Fin 2) (n : ℕ) : EReal :=
  if h : n < 40000 then buf (ix3 b c ⟨n, h⟩)
  else if h' : n - 40000 < 1000000 then x (ix3 b c ⟨n - 40000, h'⟩) else 0

/-- The interpolated output at `(b, c, t)` for the delay `d`. -/
def tapped (x : (⟨3, ![8, 2, 1000000]⟩ : Shape).Idx → EReal) (buf : (⟨3, ![8, 2, 40000]⟩ : Shape).Idx → EReal)
    (b : Fin 8) (c : Fin 2) (t : ℕ) (d : EReal) : EReal :=
  (1 - fpart d) * line x buf b c (40000 + t - (ipart d).toNat)
    + fpart d * line x buf b c (40000 + t - (ipart d).toNat - 1)

/-- The whole output array. -/
def delayed (x dt : (⟨3, ![8, 2, 1000000]⟩ : Shape).Idx → EReal) (buf : (⟨3, ![8, 2, 40000]⟩ : Shape).Idx → EReal) :
    (⟨3, ![8, 2, 1000000]⟩ : Shape).Idx → EReal :=
  fun j => tapped x buf (j 0) (j 1) (j 2).val (dt j)

/-- A delay in `[0, 40000]` is a real number. -/
theorem exists_real_of_range {d : EReal} (h0 : (0 : EReal) ≤ d) (h1 : d ≤ ((40000 : ℝ) : EReal)) :
    ∃ r : ℝ, d = (r : EReal) ∧ 0 ≤ r ∧ r ≤ 40000 := by
  induction d using EReal.rec with
  | bot => exact absurd h0 (by simp)
  | top => exact absurd h1 (by simp)
  | coe r => exact ⟨r, rfl, by exact_mod_cast h0, by exact_mod_cast h1⟩

/-- Its integer part is the word of `⌊d⌋`, a natural number at most 40000. -/
theorem ipart_eq {r : ℝ} (h0 : 0 ≤ r) (h1 : r ≤ 40000) :
    ipart (r : EReal) = BitVec.ofNat 32 ⌊r⌋₊ ∧ ⌊r⌋₊ ≤ 40000 := by
  have hle : ⌊r⌋₊ ≤ 40000 := Nat.floor_le_of_le (by exact_mod_cast h1)
  refine ⟨?_, hle⟩
  -- the floor of a non-negative real is the natural number `⌊r⌋₊`
  have hfl : ⌊r⌋ = (⌊r⌋₊ : ℤ) := (Int.natCast_floor_eq_floor h0).symm
  have hnn : (0 : ℝ) ≤ ((⌊r⌋ : ℤ) : ℝ) := by exact_mod_cast Int.floor_nonneg.mpr h0
  -- inside the signed 32-bit range the clamp does nothing
  have hcl : max (-((2 ^ (32 - 1) : ℕ) : ℤ)) (min (((2 ^ (32 - 1) : ℕ) : ℤ) - 1) (⌊r⌋₊ : ℤ)) = (⌊r⌋₊ : ℤ) := by
    omega
  rw [ipart, Ideal.liftRound_coe, Ideal.fptosi, Ideal.toIntClamped_coe, if_pos hnn, Int.floor_intCast, hfl, hcl,
    BitVec.ofInt_natCast]

theorem ipart_toNat_le {d : EReal} (h0 : (0 : EReal) ≤ d) (h1 : d ≤ ((40000 : ℝ) : EReal)) :
    (ipart d).toNat ≤ 40000 := by
  obtain ⟨r, rfl, hr0, hr1⟩ := exists_real_of_range h0 h1
  obtain ⟨he, hle⟩ := ipart_eq hr0 hr1
  rw [he, BitVec.toNat_ofNat]
  exact (Nat.mod_le _ _).trans hle

/-- The word is non-negative as a signed integer: its signed and unsigned readings agree. -/
theorem ipart_toInt {d : EReal} (h0 : (0 : EReal) ≤ d) (h1 : d ≤ ((40000 : ℝ) : EReal)) :
    (ipart d).toInt = ((ipart d).toNat : ℤ) := by
  have hle := ipart_toNat_le h0 h1
  exact BitVec.toInt_eq_toNat_of_lt (by omega)

/-- At the top of the range the delay is the integer 40000 itself, so nothing is left for the second tap. -/
theorem fpart_eq_zero {d : EReal} (h0 : (0 : EReal) ≤ d) (h1 : d ≤ ((40000 : ℝ) : EReal))
    (h : (ipart d).toNat = 40000) : fpart d = 0 := by
  obtain ⟨r, rfl, hr0, hr1⟩ := exists_real_of_range h0 h1
  obtain ⟨he, hle⟩ := ipart_eq hr0 hr1
  -- the floor is 40000, so `40000 ≤ r ≤ 40000`
  have hfl : ⌊r⌋₊ = 40000 := by
    rw [he, BitVec.toNat_ofNat, Nat.mod_eq_of_lt (by omega)] at h
    exact h
  have hr : r = 40000 := by
    have h2 : ((⌊r⌋₊ : ℕ) : ℝ) ≤ r := Nat.floor_le hr0
    rw [hfl] at h2
    exact le_antisymm hr1 (by exact_mod_cast h2)
  rw [fpart, ipart_toInt h0 h1, h, hr]
  have hc : ((((40000 : ℕ) : ℤ) : ℝ) : EReal) = ((40000 : ℝ) : EReal) := by norm_num
  rw [hc, ← EReal.coe_sub, sub_self, EReal.coe_zero]

/-- A sum against a weight that is one at `k0` and zero elsewhere is the summand at `k0` (on the extended reals
    `0 * a = 0` for every `a`, the infinities included, and a sum of zeros and one term is that term). -/
theorem sum_onehot {K : ℕ} (k0 : Fin K) (w f : Fin K → EReal) (h1 : w k0 = 1) (h0 : ∀ k, k ≠ k0 → w k = 0) :
    ∑ k : Fin K, w k * f k = f k0 := by
  rw [Finset.sum_eq_single k0]
  · rw [h1, one_mul]
  · intro k _ hk
    rw [h0 k hk, zero_mul]
  · intro hk
    exact absurd (Finset.mem_univ k0) hk

/-- For a real delay in range the word's unsigned reading is the floor itself. -/
theorem ipart_toNat_coe {r : ℝ} (h0 : 0 ≤ r) (h1 : r ≤ 40000) : (ipart (r : EReal)).toNat = ⌊r⌋₊ := by
  obtain ⟨he, hle⟩ := ipart_eq h0 h1
  rw [he, BitVec.toNat_ofNat, Nat.mod_eq_of_lt (by omega)]

/-- For a real delay in range the fractional part is the real `r - ⌊r⌋₊`. -/
theorem fpart_coe {r : ℝ} (h0 : 0 ≤ r) (h1 : r ≤ 40000) :
    fpart (r : EReal) = ((r - (⌊r⌋₊ : ℝ) : ℝ) : EReal) := by
  have e0 : (0 : EReal) ≤ (r : EReal) := by exact_mod_cast h0
  have e1 : (r : EReal) ≤ ((40000 : ℝ) : EReal) := by exact_mod_cast h1
  rw [fpart, ipart_toInt e0 e1, ipart_toNat_coe h0 h1, Int.cast_natCast, ← EReal.coe_sub]

/-- The fractional part of a non-negative real lies in `[0, 1)`. -/
theorem fpart_coe_mem {r : ℝ} (h0 : 0 ≤ r) :
    0 ≤ r - (⌊r⌋₊ : ℝ) ∧ r - (⌊r⌋₊ : ℝ) < 1 :=
  ⟨sub_nonneg.mpr (Nat.floor_le h0), by have := Nat.lt_floor_add_one r; linarith⟩

end Cert.Delay

end
-- ==== Proof.Tap.lean ====
/-
  One tap of the delay line as the kernel reads it. The 40960 samples the kernel holds for a tile are laid out as
  80 chunks of 512; the tap at window position `n` is found in two steps: a one-hot row over the 80 chunks
  (the chunk number `n / 512`, by a floor division spelt through the truncating one) times the chunk matrix picks the
  whole chunk, then a one-hot mask over its 512 lanes (the remainder `n - 512 · (n / 512)`) and a lane sum pick the
  sample. On the extended reals both sums collapse to their one surviving term, so the tap is the sample itself.
-/
import proofs.«405944_j33406255628322_3_alg».proof.Proof.Gen.KernelIdeal
import proofs.«405944_j33406255628322_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.WordArith

noncomputable section

namespace Cert.KernelIdeal.Tap

open Cert.KernelIdeal Cert.KernelIdeal.Facts₀ Cert.KernelIdeal.Facts
open Idealize.ShloMosaic Idealize.ShloMosaic.ValueIdx

variable {F : FTy → Type} [FloatOps F]

/-- The chunk number of each of the 512 positions `idx`: `idx / 512` rounded toward minus infinity, as the kernel
    spells it (the truncated quotient, less one where the signs differ and the remainder is not zero). -/
def chunkOf (idx : IVec S512 32) : IVec S512 32 :=
  let q : IVec S512 32 := divsi idx (broadcast S512 512#32)
  let sgn : IVec S512 32 := subi (extui 32 (cmpi .sgt idx (broadcast S512 0#32)) natLt_1_32)
    (extui 32 (cmpi .slt idx (broadcast S512 0#32)) natLt_1_32)
  let sgnD : BitVec 32 := Scalar.subi (Scalar.extui (Scalar.cmpi .sgt 512#32 0#32)) (Scalar.extui (Scalar.cmpi .slt 512#32 0#32))
  let adj : IVec S512 1 := andi (cmpi .ne sgn (broadcast S512 sgnD)) (cmpi .ne (remsi idx (broadcast S512 512#32)) (broadcast S512 0#32))
  select adj (subi q (broadcast S512 1#32)) q

/-- The position inside its chunk: `idx - 512 · chunk`. -/
def laneOf (idx : IVec S512 32) : IVec S512 32 :=
  subi idx (muli (chunkOf idx) (broadcast S512 512#32))

/-- The tap: select the chunk by a one-hot matrix product, then the lane by a one-hot mask and a lane sum. -/
def tap (idx : IVec S512 32) (xw : FVec F S80x512 .f32) : FVec F S512 .f32 :=
  let oh : FVec F S512x80 .f32 := sitofp .f32 (extui 32 (cmpi .eq (iota .tc S512x80 32 [1] iota_S512x80_d1_w32)
    (broadcastTo S512x80 (shapeCast S512x1 (chunkOf idx) shapeCasts_S512_S512x1) broadcasts_S512x1_S512x80)) natLt_1_32)
  let sel : FVec F S512x512 .f32 := matmul dot_S512x80_S80x512_S512x512_1_0_0_1_n_n (some .fp32) oh xw (constant S512x512 .f32 0x00000000#32)
  let mask : FVec F S512x512 .f32 := sitofp .f32 (extui 32 (cmpi .eq (iota .tc S512x512 32 [1] iota_S512x512_d1_w32)
    (broadcastTo S512x512 (shapeCast S512x1 (laneOf idx) shapeCasts_S512_S512x1) broadcasts_S512x1_S512x512)) natLt_1_32)
  multiReduction .add [1] S512 (mulf mask sel) 0x00000000#32 reduces_S512x512_S512 (.inl rfl) rfl

/-! ## The words: a floor division by 512 of a non-negative position -/

/-- The floor division by 512 on one word, spelt as the chain spells it on every lane. -/
private def floorDiv512 (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 512#32 0#32)) (Scalar.extui (Scalar.cmpi .slt 512#32 0#32))))
      (IntOp.cmpi .ne (IntOp.remsi .vector x 512#32) 0#32))
    (IntOp.subi (IntOp.divsi .vector x 512#32) 1#32) (IntOp.divsi .vector x 512#32)

/-- The chunk number at a lane is that word function of the position at the lane. -/
private theorem chunkOf_eq (idx : IVec S512 32) (i : S512.Idx) : chunkOf idx i = floorDiv512 (idx i) := rfl

/-- A natural number below `2³¹` is a non-negative word. -/
private theorem msb_ofNat_small (n : ℕ) (hn : n < 2 ^ 31) : (BitVec.ofNat 32 n).msb = false := by
  rw [BitVec.msb_eq_false_iff_two_mul_lt, BitVec.toNat_ofNat]
  have : n % 2 ^ 32 = n := Nat.mod_eq_of_lt (by omega)
  omega

/-- The truncating quotient of a non-negative word by 512 is the natural quotient. -/
private theorem divsi_512 (n : ℕ) (hn : n < 2 ^ 31) :
    IntOp.divsi .vector (BitVec.ofNat 32 n) 512#32 = BitVec.ofNat 32 (n / 512) := by
  unfold IntOp.divsi
  rw [if_neg (by simp [IntOp.SDivCorner])]
  simp only [BitVec.sdiv_eq, msb_ofNat_small n hn, show (512#32 : BitVec 32).msb = false by decide]
  apply BitVec.eq_of_toNat_eq
  rw [BitVec.udiv_eq, BitVec.toNat_udiv, BitVec.toNat_ofNat, BitVec.toNat_ofNat, BitVec.toNat_ofNat]
  have h1 : n % 2 ^ 32 = n := Nat.mod_eq_of_lt (by omega)
  have h2 : n / 512 % 2 ^ 32 = n / 512 := Nat.mod_eq_of_lt (by omega)
  rw [h1, h2]

/-- The remainder of a non-negative word by 512 is the natural remainder. -/
private theorem remsi_512 (n : ℕ) (hn : n < 2 ^ 31) :
    IntOp.remsi .vector (BitVec.ofNat 32 n) 512#32 = BitVec.ofNat 32 (n % 512) := by
  unfold IntOp.remsi
  rw [if_neg (by simp [IntOp.SDivCorner])]
  simp only [BitVec.srem_eq, msb_ofNat_small n hn, show (512#32 : BitVec 32).msb = false by decide]
  apply BitVec.eq_of_toNat_eq
  rw [BitVec.toNat_umod, BitVec.toNat_ofNat, BitVec.toNat_ofNat, BitVec.toNat_ofNat]
  have h1 : n % 2 ^ 32 = n := Nat.mod_eq_of_lt (by omega)
  have h2 : n % 512 % 2 ^ 32 = n % 512 := Nat.mod_eq_of_lt (by omega)
  rw [h1, h2]

/-- On a non-negative word the floor division is the truncating one: at zero the remainder is zero, above zero the
    sign is the divisor's, so the correction never applies. -/
private theorem floorDiv512_ofNat (n : ℕ) (hn : n < 2 ^ 31) : floorDiv512 (BitVec.ofNat 32 n) = BitVec.ofNat 32 (n / 512) := by
  unfold floorDiv512
  rw [divsi_512 n hn, remsi_512 n hn]
  rcases Nat.eq_zero_or_pos n with h0 | hpos
  · subst h0
    decide
  · have hsgt : IntOp.cmpi .sgt (BitVec.ofNat 32 n) 0#32 = 1#1 := by
      unfold IntOp.cmpi
      simp only [BitVec.slt_eq_decide, WordArith.toInt_ofNat_small n hn]
      have : (0#32 : BitVec 32).toInt = 0 := by decide
      rw [this]
      simp [hpos]
    have hslt : IntOp.cmpi .slt (BitVec.ofNat 32 n) 0#32 = 0#1 := by
      unfold IntOp.cmpi
      simp only [BitVec.slt_eq_decide, WordArith.toInt_ofNat_small n hn]
      have : (0#32 : BitVec 32).toInt = 0 := by decide
      rw [this, decide_eq_false (by omega : ¬ ((n : ℤ) < 0))]
      rfl
    rw [hsgt, hslt]
    have hs : IntOp.cmpi .ne (IntOp.subi ((1#1 : BitVec 1).setWidth 32) ((0#1 : BitVec 1).setWidth 32))
        (Scalar.subi (Scalar.extui (Scalar.cmpi .sgt 512#32 0#32)) (Scalar.extui (Scalar.cmpi .slt 512#32 0#32))) = 0#1 := by
      decide
    rw [hs]
    unfold IntOp.andi
    rw [BitVec.zero_and, select_zero]

/-- For a position `0 ≤ n < 40960` the chunk number is `n / 512` ... -/
theorem chunkOf_apply (idx : IVec S512 32) (r : Fin 512) (n : ℕ) (hn : n < 40960) (h : idx (ix1 r) = BitVec.ofNat 32 n) :
    chunkOf idx (ix1 r) = BitVec.ofNat 32 (n / 512) := by
  rw [chunkOf_eq, h]
  exact floorDiv512_ofNat n (by omega)

/-- ... and the lane is `n % 512`. -/
theorem laneOf_apply (idx : IVec S512 32) (r : Fin 512) (n : ℕ) (hn : n < 40960) (h : idx (ix1 r) = BitVec.ofNat 32 n) :
    laneOf idx (ix1 r) = BitVec.ofNat 32 (n % 512) := by
  show IntOp.subi (idx (ix1 r)) (IntOp.muli (chunkOf idx (ix1 r)) (BitVec.ofNat 32 512)) = _
  rw [chunkOf_apply idx r n hn h, h]
  unfold IntOp.subi IntOp.muli
  rw [BitVec.ofNat_mul_ofNat, BitVec.ofNat_sub_ofNat_of_le _ _ (by omega) (by omega)]
  congr 1
  omega

/-! ## The layout steps at an index: a vector made a column, and a column spread over the lanes -/

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A one-hot row: the lane number compared with a word, as a real -/

/-- The comparison of two small numbers as words, widened and converted, is the real `1` where they are equal and `0`
    where they are not. -/
private theorem onehot_word (a b : ℕ) (ha : a < 2 ^ 32) (hb : b < 2 ^ 32) :
    FloatOps.sitofp (F := Ideal) .f32 ((IntOp.cmpi .eq (BitVec.ofNat 32 a) (BitVec.ofNat 32 b)).setWidth 32)
      = if a = b then (1 : EReal) else 0 := by
  show (((((IntOp.cmpi .eq (BitVec.ofNat 32 a) (BitVec.ofNat 32 b)).setWidth 32).toInt : ℤ) : ℝ) : EReal) = _
  unfold IntOp.cmpi
  by_cases hab : a = b
  · subst hab
    rw [if_pos rfl]
    simp
  · rw [if_neg hab]
    have hne : (BitVec.ofNat 32 a == BitVec.ofNat 32 b) = false := by
      rw [beq_eq_false_iff_ne]
      intro he
      have := congrArg BitVec.toNat he
      rw [BitVec.toNat_ofNat, BitVec.toNat_ofNat, Nat.mod_eq_of_lt ha, Nat.mod_eq_of_lt hb] at this
      exact hab this
    rw [hne]
    simp

/-- The one-hot matrix at `(r, k)`: one where the lane number `k` is the word `c` the column holds at row `r`. -/
private theorem onehot_apply {b : ℕ} (hb : b < 2 ^ 32) (v : IVec (⟨1, ![512]⟩ : Shape) 32)
    (hi : (⟨2, ![512, b]⟩ : Shape).Iotas .tc 32 [1]) (hs : (⟨1, ![512]⟩ : Shape).ShapeCasts ⟨2, ![512, 1]⟩)
    (hbc : (⟨2, ![512, 1]⟩ : Shape).Broadcasts ⟨2, ![512, b]⟩) (h32 : 1 < 32)
    (r : Fin 512) (k : Fin b) (c : ℕ) (hc : c < 2 ^ 32) (hv : v (ix1 r) = BitVec.ofNat 32 c) :
    (sitofp .f32 (extui 32 (cmpi .eq (iota .tc (⟨2, ![512, b]⟩ : Shape) 32 [1] hi)
        (broadcastTo (⟨2, ![512, b]⟩ : Shape) (shapeCast (⟨2, ![512, 1]⟩ : Shape) v hs) hbc)) h32)
      : FVec Ideal (⟨2, ![512, b]⟩ : Shape) .f32) (ix2 r k) = if k.val = c then (1 : EReal) else 0 := by
  show FloatOps.sitofp (F := Ideal) .f32 ((IntOp.cmpi .eq (iota .tc (⟨2, ![512, b]⟩ : Shape) 32 [1] hi (ix2 r k))
      (broadcastTo (⟨2, ![512, b]⟩ : Shape) (shapeCast (⟨2, ![512, 1]⟩ : Shape) v hs) hbc (ix2 r k))).setWidth 32) = _
  rw [iota_single_apply, broadcastTo_a1_ab_apply, shapeCast_a_a1_apply, hv]
  exact onehot_word k.val c (by have := k.isLt; omega) hc

/-! ## The matrix product into the zero constant, at an index -/

private theorem lhs_dot_0 (j : S512x512.Idx) (k : dot_S512x80_S80x512_S512x512_1_0_0_1_n_n.contr.Idx) :
    (dot_S512x80_S80x512_S512x512_1_0_0_1_n_n.lhsIdx j k 0).val = (j 0).val := rfl

private theorem lhs_dot_1 (j : S512x512.Idx) (k : dot_S512x80_S80x512_S512x512_1_0_0_1_n_n.contr.Idx) :
    (dot_S512x80_S80x512_S512x512_1_0_0_1_n_n.lhsIdx j k 1).val = (k ⟨0, Nat.one_pos⟩).val :=
  DotDims.lhsIdx_val_of_single _ rfl j k

private theorem rhs_dot_0 (j : S512x512.Idx) (k : dot_S512x80_S80x512_S512x512_1_0_0_1_n_n.contr.Idx) :
    (dot_S512x80_S80x512_S512x512_1_0_0_1_n_n.rhsIdx j k 0).val = (k ⟨0, Nat.one_pos⟩).val :=
  DotDims.rhsIdx_val_of_single _ rfl j k

private theorem rhs_dot_1 (j : S512x512.Idx) (k : dot_S512x80_S80x512_S512x512_1_0_0_1_n_n.contr.Idx) :
    (dot_S512x80_S80x512_S512x512_1_0_0_1_n_n.rhsIdx j k 1).val = (j 1).val := rfl

/-- The product of a `[512, 80]` and an `[80, 512]` matrix into the zero constant is, at `(p, q)`, the sum over the 80
    contracted positions. -/
private theorem matmul_apply_ix (A : FVec Ideal S512x80 .f32) (B : FVec Ideal S80x512 .f32) (p q : Fin 512) :
    matmul dot_S512x80_S80x512_S512x512_1_0_0_1_n_n (some .fp32) A B (constant (F := Ideal) S512x512 .f32 0x00000000#32) (ix2 p q)
      = ∑ k : Fin 80, A (ix2 p k) * B (ix2 k q) := by
  refine (Ideal.matmul_constant_zero_apply _ _ A B (ix2 p q)).trans ?_
  rw [← Equiv.sum_comp (contrEquiv1 dot_S512x80_S80x512_S512x512_1_0_0_1_n_n 80 rfl rfl).symm]
  refine Finset.sum_congr rfl fun k _ => ?_
  have hk := contrEquiv1_symm_val dot_S512x80_S80x512_S512x512_1_0_0_1_n_n 80 rfl rfl k
  have hl : dot_S512x80_S80x512_S512x512_1_0_0_1_n_n.lhsIdx (ix2 p q)
      ((contrEquiv1 dot_S512x80_S80x512_S512x512_1_0_0_1_n_n 80 rfl rfl).symm k) = ix2 p k :=
    Shape.idx_ext₂ (lhs_dot_0 _ _) ((lhs_dot_1 _ _).trans hk)
  have hr : dot_S512x80_S80x512_S512x512_1_0_0_1_n_n.rhsIdx (ix2 p q)
      ((contrEquiv1 dot_S512x80_S80x512_S512x512_1_0_0_1_n_n 80 rfl rfl).symm k) = ix2 k q :=
    Shape.idx_ext₂ ((rhs_dot_0 _ _).trans hk) (rhs_dot_1 _ _)
  rw [hl, hr]

/-! ## The lane sum at a row -/

/-- The source index over row `r` with lane `k` inserted is `(r, k)`. -/
private theorem lift_ix1 (h : S512x512.Reduces [1] S512) (r : Fin 512) (k : Fin 512) :
    h.lift (ix1 r) k = ix2 r k := by
  funext c
  match c with
  | ⟨0, _⟩ => exact Fin.ext rfl
  | ⟨1, _⟩ => exact Fin.ext rfl

/-- The lane sum of a `[512, 512]` array from the zero word is, at row `r`, the sum over the 512 lanes. -/
private theorem laneSum_apply (X : FVec Ideal S512x512 .f32) (r : Fin 512) :
    multiReduction (F := Ideal) .add [1] S512 X 0x00000000#32 reduces_S512x512_S512 (.inl rfl) rfl (ix1 r)
      = ∑ k : Fin 512, X (ix2 r k) := by
  refine (Ideal.multiReduction_add_single X _ reduces_S512x512_S512 _ _ (ix1 r)).trans ?_
  exact Finset.sum_congr rfl fun k _ => congrArg X (lift_ix1 _ r k)

/-! ## A sum against a one-hot row or mask -/

/-- A lane sum of a product whose first factor is one at lane `k0` of row `r` and zero at its other lanes is the
    second factor there. -/
private theorem pickLane (M S : FVec Ideal S512x512 .f32) (r k0 : Fin 512)
    (hM : ∀ k : Fin 512, M (ix2 r k) = if k.val = k0.val then (1 : EReal) else 0) :
    ∑ k : Fin 512, (mulf M S) (ix2 r k) = S (ix2 r k0) := by
  show ∑ k : Fin 512, M (ix2 r k) * S (ix2 r k) = _
  exact Cert.Delay.sum_onehot k0 (fun k => M (ix2 r k)) (fun k => S (ix2 r k))
    (by show M (ix2 r k0) = 1; rw [hM, if_pos rfl])
    (fun k hk => by
      show M (ix2 r k) = 0
      rw [hM, if_neg fun he => hk (Fin.ext he)])

/-- A row of a product whose left row `r` is one at `k0` and zero elsewhere is row `k0` of the right factor. -/
private theorem pickChunk (A : FVec Ideal S512x80 .f32) (B : FVec Ideal S80x512 .f32) (r q : Fin 512) (k0 : Fin 80)
    (hA : ∀ k : Fin 80, A (ix2 r k) = if k.val = k0.val then (1 : EReal) else 0) :
    ∑ k : Fin 80, A (ix2 r k) * B (ix2 k q) = B (ix2 k0 q) :=
  Cert.Delay.sum_onehot k0 (fun k => A (ix2 r k)) (fun k => B (ix2 k q))
    (by show A (ix2 r k0) = 1; rw [hA, if_pos rfl])
    (fun k hk => by
      show A (ix2 r k) = 0
      rw [hA, if_neg fun he => hk (Fin.ext he)])

/-! ## The tap -/

/-- At the extended reals the tap at row `r`, for a position `n` inside the window, is the sample at chunk `n / 512`,
    lane `n % 512`. -/
theorem tap_apply (idx : IVec S512 32) (xw : FVec Ideal S80x512 .f32) (r : Fin 512) (n : ℕ) (hn : n < 40960)
    (h : idx (ix1 r) = BitVec.ofNat 32 n) :
    tap (F := Ideal) idx xw (ix1 r)
      = xw (ix2 (⟨n / 512, by omega⟩ : Fin 80) (⟨n % 512, Nat.mod_lt _ (by norm_num)⟩ : Fin 512)) := by
  have hc := chunkOf_apply idx r n hn h
  have hl := laneOf_apply idx r n hn h
  simp only [tap]
  rw [laneSum_apply]
  refine (pickLane _ _ r (⟨n % 512, Nat.mod_lt _ (by norm_num)⟩ : Fin 512) fun k =>
    onehot_apply (by norm_num) _ _ _ _ _ r k (n % 512) (by omega) hl).trans ?_
  rw [matmul_apply_ix]
  exact pickChunk _ xw r _ (⟨n / 512, by omega⟩ : Fin 80) fun k =>
    onehot_apply (by norm_num) _ _ _ _ _ r k (n / 512) (by omega) hc

end Cert.KernelIdeal.Tap

end
-- ==== Proof.Rows.lean ====
/-
  One channel's 512 outputs at a tile, as a function of the tile's 512 delays and the 40960 samples the kernel
  holds for the tile: split each delay into its integer and fractional part, read the two taps at window positions
  `40000 + r - ⌊d⌋` and one before it (not below 0), and interpolate. The kernel's two stored payloads are this one
  function (of channel 0's and of channel 1's loads), and on the extended reals its value at row `r` is the
  interpolation of the two samples, for a delay in `[0, 40000]`.
-/
import proofs.«405944_j33406255628322_3_alg».proof.Proof.KIFrame
import proofs.«405944_j33406255628322_3_alg».proof.Proof.Tap
import proofs.«405944_j33406255628322_3_alg».proof.Proof.Spec

noncomputable section

namespace Cert.KernelIdeal.Rows

open Cert.KernelIdeal Cert.KernelIdeal.Facts₀ Cert.KernelIdeal.Facts
open Idealize.ShloMosaic Idealize.ShloMosaic.ValueIdx Cert.KernelIdeal.Tap

variable {F : FTy → Type} [FloatOps F]

/-- The row numbers 0 … 511 of a tile. -/
def lanes : IVec S512 32 := shapeCast S512 (iota .tc S1x512 32 [1] iota_S1x512_d1_w32) shapeCasts_S1x512_S512

/-- The 512 outputs of one channel from its delays `dtb` and its samples `win`. -/
def rowOut (dtb : Vec F S1x1x512 .f32) (win : Vec F S1x1x40960 .f32) : Vec F S1x1x512 .f32 :=
  let d : FVec F S512 .f32 := shapeCast S512 dtb shapeCasts_S1x1x512_S512
  let i0 : IVec S512 32 := fptosi 32 (floor d)
  let fr : FVec F S512 .f32 := subf d (sitofp .f32 i0)
  let idx0 : IVec S512 32 := subi (addi (broadcast S512 40000#32) lanes) i0
  let idx1 : IVec S512 32 := maxsi (subi idx0 (broadcast S512 1#32)) (broadcast S512 0#32)
  let xw : FVec F S80x512 .f32 := shapeCast S80x512 (shapeCast S40960 win shapeCasts_S1x1x40960_S40960) shapeCasts_S40960_S80x512
  shapeCast S1x1x512 (addf (mulf (subf (broadcast S512 (Scalar.ofBits .f32 0x3F800000#32)) fr) (tap idx0 xw)) (mulf fr (tap idx1 xw)))
    shapeCasts_S512_S1x1x512

/-- The payload the body stores in row 0 is `rowOut` of channel 0's loads, -/
theorem row0_eq (v4 : Vec F S1x1x512 .f32) (v18 : Vec F S1x1x40960 .f32) : Fr.row0 v4 v18 = rowOut v4 v18 := by
  rfl

/-- and the one it stores in row 1 is `rowOut` of channel 1's. -/
theorem row1_eq (v113 : Vec F S1x1x512 .f32) (v127 : Vec F S1x1x40960 .f32) : Fr.row1 v113 v127 = rowOut v113 v127 := by
  rfl

/-- The row-number vector reads its own row number. -/
private theorem lanes_apply (r : Fin 512) : lanes (ix1 r) = BitVec.ofNat 32 r.val := by
  unfold lanes
  rw [shapeCast_1a_a_apply, iota_single_apply]

/-- A `[1, 1, n]` array cast to `[n]` reads, at `r`, the operand at `(0, 0, r)`. -/
private theorem shapeCast_11n_n_apply {α : Type} {n : ℕ} (x : (⟨3, ![1, 1, n]⟩ : Shape).Idx → α)
    (h : (⟨3, ![1, 1, n]⟩ : Shape).ShapeCasts ⟨1, ![n]⟩) (r : Fin n) :
    shapeCast ⟨1, ![n]⟩ x h (ix1 r) = x (ix3 (0 : Fin 1) (0 : Fin 1) r) :=
  shapeCast_apply x h _ _ (by
    rw [Shape.rowMajor_val_three, Shape.rowMajor_val_one]
    show (0 * 1 + 0) * n + r.val = r.val
    simp)

/-- An `[n]` array cast to `[1, 1, n]` reads, at `(0, 0, r)`, the operand at `r`. -/
private theorem shapeCast_n_11n_apply {α : Type} {n : ℕ} (x : (⟨1, ![n]⟩ : Shape).Idx → α)
    (h : (⟨1, ![n]⟩ : Shape).ShapeCasts ⟨3, ![1, 1, n]⟩) (r : Fin n) :
    shapeCast ⟨3, ![1, 1, n]⟩ x h (ix3 (0 : Fin 1) (0 : Fin 1) r) = x (ix1 r) :=
  shapeCast_apply x h _ _ (by
    rw [Shape.rowMajor_val_three, Shape.rowMajor_val_one]
    show r.val = (0 * 1 + 0) * n + r.val
    simp)

/-- The `[1, 1, 40960]` window viewed as 80 chunks of 512 reads, at chunk `p` and lane `q`, the sample `512 p + q`. -/
private theorem window_apply {α : Type} (win : S1x1x40960.Idx → α) (p : Fin 80) (q : Fin 512) :
    shapeCast S80x512 (shapeCast S40960 win shapeCasts_S1x1x40960_S40960) shapeCasts_S40960_S80x512 (ix2 p q)
      = win (ix3 (0 : Fin 1) (0 : Fin 1) (⟨512 * p.val + q.val, by have := p.isLt; have := q.isLt; omega⟩ : Fin 40960)) := by
  rw [shapeCast_apply (shapeCast S40960 win shapeCasts_S1x1x40960_S40960) shapeCasts_S40960_S80x512 (ix2 p q)
    (ix1 (⟨512 * p.val + q.val, by have := p.isLt; have := q.isLt; omega⟩ : Fin 40960)) (by
      rw [Shape.rowMajor_val_two, Shape.rowMajor_val_one]
      show 512 * p.val + q.val = p.val * 512 + q.val
      omega)]
  exact shapeCast_11n_n_apply win _ _

/-- Word arithmetic of the first tap's position: no wrap-around below `2^31`. -/
private theorem word_pos (r k : ℕ) (hr : r < 512) (hk : k ≤ 40000) (w : BitVec 32) (hw : w.toNat = k) :
    40000#32 + BitVec.ofNat 32 r - w = BitVec.ofNat 32 (40000 + r - k) := by
  apply BitVec.eq_of_toNat_eq
  rw [BitVec.toNat_sub, BitVec.toNat_add, BitVec.toNat_ofNat, BitVec.toNat_ofNat, BitVec.toNat_ofNat, hw]
  omega

/-- One position earlier, not below zero: the signed maximum with 0 of `n - 1` is the truncated predecessor. -/
private theorem maxsi_pred (n : ℕ) (hn : n < 2 ^ 31) :
    IntOp.maxsi (BitVec.ofNat 32 n - 1#32) 0#32 = BitVec.ofNat 32 (n - 1) := by
  rcases n with _ | m
  · decide
  · have e : BitVec.ofNat 32 (m + 1) - 1#32 = BitVec.ofNat 32 m := by
      apply BitVec.eq_of_toNat_eq
      rw [BitVec.toNat_sub, BitVec.toNat_ofNat, BitVec.toNat_ofNat, BitVec.toNat_ofNat]
      omega
    have hm : (BitVec.ofNat 32 m).toNat = m := by rw [BitVec.toNat_ofNat]; omega
    have ht : (BitVec.ofNat 32 m).toInt = (m : ℤ) := by
      rw [BitVec.toInt_eq_toNat_of_lt (by rw [hm]; omega), hm]
    rw [e, Nat.add_sub_cancel]
    unfold IntOp.maxsi
    by_cases h0 : m = 0
    · subst h0; decide
    · rw [if_pos]
      rw [BitVec.slt, ht]
      simp
      omega

/-- On the extended reals, for a delay `d = dtb[r]` in `[0, 40000]`: the output at row `r` is
    `(1 - frac d) · win[40000 + r - ⌊d⌋] + frac d · win[40000 + r - ⌊d⌋ - 1]`, the second position not below 0. -/
theorem rowOut_apply (dtb : Vec Ideal S1x1x512 .f32) (win : Vec Ideal S1x1x40960 .f32) (r : Fin 512)
    (h0 : (0 : EReal) ≤ dtb (ix3 (0 : Fin 1) (0 : Fin 1) r)) (h1 : dtb (ix3 (0 : Fin 1) (0 : Fin 1) r) ≤ ((40000 : ℝ) : EReal)) :
    rowOut (F := Ideal) dtb win (ix3 (0 : Fin 1) (0 : Fin 1) r)
      = (1 - Cert.Delay.fpart (dtb (ix3 (0 : Fin 1) (0 : Fin 1) r)))
          * win (ix3 (0 : Fin 1) (0 : Fin 1)
              (⟨40000 + r.val - (Cert.Delay.ipart (dtb (ix3 (0 : Fin 1) (0 : Fin 1) r))).toNat, by have := r.isLt; omega⟩ : Fin 40960))
        + Cert.Delay.fpart (dtb (ix3 (0 : Fin 1) (0 : Fin 1) r))
          * win (ix3 (0 : Fin 1) (0 : Fin 1)
              (⟨40000 + r.val - (Cert.Delay.ipart (dtb (ix3 (0 : Fin 1) (0 : Fin 1) r))).toNat - 1, by have := r.isLt; omega⟩ : Fin 40960)) := by
  have hk := Cert.Delay.ipart_toNat_le h0 h1
  have hr := r.isLt
  unfold rowOut
  set d : FVec Ideal S512 .f32 := shapeCast S512 dtb shapeCasts_S1x1x512_S512
  set i0 : IVec S512 32 := fptosi 32 (floor d)
  set fr : FVec Ideal S512 .f32 := subf d (sitofp .f32 i0)
  set idx0 : IVec S512 32 := subi (addi (broadcast S512 40000#32) lanes) i0
  set idx1 : IVec S512 32 := maxsi (subi idx0 (broadcast S512 1#32)) (broadcast S512 0#32)
  set xw : FVec Ideal S80x512 .f32 :=
    shapeCast S80x512 (shapeCast S40960 win shapeCasts_S1x1x40960_S40960) shapeCasts_S40960_S80x512
  -- the delay, its integer part and its fractional part at row `r`
  have hd : d (ix1 r) = dtb (ix3 (0 : Fin 1) (0 : Fin 1) r) := shapeCast_11n_n_apply dtb _ r
  have hi0 : i0 (ix1 r) = Cert.Delay.ipart (dtb (ix3 (0 : Fin 1) (0 : Fin 1) r)) := by
    show Ideal.fptosi 32 (Ideal.liftRound Int.floor (d (ix1 r))) = _
    rw [hd]
    rfl
  have hfr : fr (ix1 r) = Cert.Delay.fpart (dtb (ix3 (0 : Fin 1) (0 : Fin 1) r)) := by
    show d (ix1 r) - (((i0 (ix1 r)).toInt : ℝ) : EReal) = _
    rw [hd, hi0]
    rfl
  -- the two window positions as words
  have hidx0 : idx0 (ix1 r)
      = BitVec.ofNat 32 (40000 + r.val - (Cert.Delay.ipart (dtb (ix3 (0 : Fin 1) (0 : Fin 1) r))).toNat) := by
    show 40000#32 + lanes (ix1 r) - i0 (ix1 r) = _
    rw [lanes_apply, hi0]
    exact word_pos r.val _ hr hk _ rfl
  have hidx1 : idx1 (ix1 r)
      = BitVec.ofNat 32 (40000 + r.val - (Cert.Delay.ipart (dtb (ix3 (0 : Fin 1) (0 : Fin 1) r))).toNat - 1) := by
    show IntOp.maxsi (idx0 (ix1 r) - 1#32) 0#32 = _
    rw [hidx0]
    exact maxsi_pred _ (by omega)
  -- the window as chunks
  have hxw : ∀ (n : ℕ) (hn : n < 40960),
      xw (ix2 (⟨n / 512, by omega⟩ : Fin 80) (⟨n % 512, Nat.mod_lt _ (by norm_num)⟩ : Fin 512))
        = win (ix3 (0 : Fin 1) (0 : Fin 1) (⟨n, hn⟩ : Fin 40960)) := by
    intro n hn
    refine (window_apply win _ _).trans ?_
    congr 2
    exact Fin.ext (Nat.div_add_mod n 512)
  -- the constant is one
  have hone : FloatOps.ofBits (F := Ideal) .f32 0x3F800000#32 = (1 : EReal) := by
    show Ideal.ofBits .f32 0x3F800000#32 = 1
    simp [Ideal.ofBits, Ideal.ieee, -EReal.coe_mul]
    norm_num
  rw [shapeCast_n_11n_apply, addf_apply, mulf_apply, mulf_apply, subf_apply, broadcast_apply, hfr, hone,
    tap_apply idx0 xw r _ (by omega) hidx0, tap_apply idx1 xw r _ (by omega) hidx1, hxw, hxw]

end Cert.KernelIdeal.Rows

end
-- ==== Proof.LibNary3.lean ====
/-
  What a `nary` operation over a LITERAL family of three references leaves at its result buffer, with each operand's
  contents read at its own reference: the three-operand companion of the library's result lemma for four references
  (a `stablehlo.concatenate` of three operands prints as `nary ![a, b, c] …`).
-/
import Idealize.ShloMosaic.Lib.StableHlo.Run

noncomputable section

namespace Cert.Nary3

open Idealize.ShloMosaic Idealize.ShloMosaic.StableHlo Idealize.SL.Sem

variable {τ : Topo} {sig : RefSig} {Val : EltTy → Type}
variable {x a b y : Ref sig .tc}

/-- `nary` over a literal family of three references: the result buffer holds the function's value at the family
    `Fin.cons (F ↑x) (Fin.cons (F ↑a) (Fin.cons (F ↑b) …))` of the operands' contents, each AT ITS OWN REFERENCE, in
    place of `fun k => F ↑(![x, a, b] k)` — under that binder the reference `![x, a, b] k` is no literal and no
    result lemma applies to it, so a fold over the operations before this one would stop there; here it goes on
    through each operand. The function's body with `u k` read as operand `k`'s contents is then this term by `rfl`
    (β, then `Fin.cons` at the literals `0`, `1`, `2`). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Nary3

end
-- ==== Proof.HostArrays.lean ====
/-
  What the region finds in the two arrays its input windows stage, at the extended reals: the concatenation
  `buffer ++ x ++ 896 zeros` along time is the delay line's signal (`Cert.Delay.line`: history, input, then zero),
  and the delays padded with 448 zeros.
-/
import proofs.«405944_j33406255628322_3_alg».proof.Proof.KIFrame
import proofs.«405944_j33406255628322_3_alg».proof.Proof.Spec
import proofs.«405944_j33406255628322_3_alg».proof.Proof.Arr
import proofs.«405944_j33406255628322_3_alg».proof.Proof.LibNary3
import Idealize.ShloMosaic.Lib.StableHlo.Run
import Idealize.ShloMosaic.Lib.Pipeline.Value
import Idealize.ShloMosaic.Lib.KernelVsHost
import Idealize.ShloMosaic.Lib.IdealHost

set_option maxRecDepth 16384

noncomputable section

namespace Cert.KernelIdeal.HostArrays

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-! ## The two arrays as the host operations' terms -/

/-- The contents of one buffer after a line of host operations: the fold unfolded, each operation's result at its own
    result buffer rewritten to its function's value and at any other reference to what was there, the three-operand
    operation's result read operand by operand (`Cert.Nary3.nary3_result`). -/
local macro "after_results3" : tactic =>
  `(tactic| (simp only [after_cons, after_nil]
             repeat (first
               | rw [Cert.Nary3.nary3_result]
               | rw [nullary_result] | rw [unary_result] | rw [binary_result]
               | (rw [nullary_result_ne]; rotate_left; decide)
               | (rw [unary_result_ne]; rotate_left; decide)
               | (rw [binary_result_ne]; rotate_left; decide)
               | (rw [nary_result_ne]; rotate_left; decide))))

/-- The samples' array when the region is entered: the history buffer, the input and 896 copies of the zero constant
    laid end to end along time. -/
private theorem line_term (c : Dev nD) :
    (Fr.V m c main_v1 : S8x2x1040896.Idx → EReal)
      = concatenate S8x2x1040896 2
          [⟨S8x2x40000, (m ((c : Thread nD τ).loc main_arg2) : S8x2x40000.Idx → EReal)⟩,
           ⟨S8x2x1000000, (m ((c : Thread nD τ).loc main_arg0) : S8x2x1000000.Idx → EReal)⟩,
           ⟨S8x2x896, broadcastInDim S8x2x896 ![] bcast_S_S8x2x896 (constant (F := Ideal) S_ .f32 0x00000000#32)⟩]
          concatenates_S8x2x40000_S8x2x1000000_S8x2x896_S8x2x1040896_d2 := by
  dsimp only [Fr.V, Fr.V0]
  simp only [Gen.hostOps0, Gen.hostOps0_1, List.flatten_cons, List.flatten_nil, List.append_nil, List.cons_append,
    List.nil_append]
  after_results3
  rfl

/-- The delays' array when the region is entered: the delays padded at the end of the time axis with 448 copies of the
    integer zero converted to a float. -/
private theorem dt_term (c : Dev nD) :
    (Fr.V m c main_v2 : S8x2x1000448.Idx → EReal)
      = pad S8x2x1000448 ![0, 0, 0] ![0, 0, 448] ![0, 0, 0]
          (m ((c : Thread nD τ).loc main_arg1) : S8x2x1000000.Idx → EReal)
          (sitofp (F := Ideal) .f32 (constantI S_ 32 0#32)) pads_S8x2x1000000_S8x2x1000448_000_000_04480 h_S_ := by
  dsimp only [Fr.V, Fr.V0]
  simp only [Gen.hostOps0, Gen.hostOps0_1, List.flatten_cons, List.flatten_nil, List.append_nil, List.cons_append,
    List.nil_append]
  after_results3
  rfl

/-! ## The concatenation read at an index -/

/-- The first two pieces span `40000 + 1000000` positions of the time axis (stated over the shapes alone, so that it
    is a computation on numerals). -/
private theorem span_two : (([S8x2x40000, S8x2x1000000] : List Shape).map fun s =>
      if h : s.rank = S8x2x1040896.rank then s.size ((2 : Fin S8x2x1040896.rank).cast h.symm) else 0).sum = 1040000 := by
  decide

/-- Three arrays of 40000, 1000000 and 896 samples laid end to end along time, the last one zero everywhere, read at
    `(b, ch, n)`: the signal at position `n` — the first array below 40000, the second at `n - 40000` below
    1040000, zero after. -/
private theorem concat3_apply (x : S8x2x1000000.Idx → EReal) (buf : S8x2x40000.Idx → EReal) (z : S8x2x896.Idx → EReal)
    (hz : ∀ i, z i = 0) (b : Fin 8) (ch : Fin 2) (n : Fin 1040896) :
    concatenate S8x2x1040896 2 [⟨S8x2x40000, buf⟩, ⟨S8x2x1000000, x⟩, ⟨S8x2x896, z⟩]
        concatenates_S8x2x40000_S8x2x1000000_S8x2x896_S8x2x1040896_d2 (ix3 b ch n)
      = Cert.Delay.line x buf b ch n.val := by
  unfold Cert.Delay.line
  by_cases h1 : n.val < 40000
  · -- in the first piece, nothing before it
    rw [dif_pos h1]
    refine concatenate_apply_piece 2 _ _ (ix3 b ch n) 0 (by simp) S8x2x40000 buf rfl rfl 0 rfl
      (ix3 b ch ⟨n.val, h1⟩) ?_ ?_
    · intro a ha
      fin_cases a
      · rfl
      · rfl
      · exact absurd rfl ha
    · show 0 + n.val = n.val
      omega
  · rw [dif_neg h1]
    by_cases h2 : n.val - 40000 < 1000000
    · -- in the second piece, 40000 positions before it
      rw [dif_pos h2]
      refine concatenate_apply_piece 2 _ _ (ix3 b ch n) 1 (by simp) S8x2x1000000 x rfl rfl 40000 rfl
        (ix3 b ch ⟨n.val - 40000, h2⟩) ?_ ?_
      · intro a ha
        fin_cases a
        · rfl
        · rfl
        · exact absurd rfl ha
      · show 40000 + (n.val - 40000) = n.val
        omega
    · -- in the third piece, 1040000 positions before it; it is zero everywhere
      rw [dif_neg h2]
      have h3 : n.val - 1040000 < 896 := by have := n.isLt; omega
      rw [concatenate_apply_piece 2 _ _ (ix3 b ch n) 2 (by simp) S8x2x896 z rfl rfl 1040000 ?_
        (ix3 b ch ⟨n.val - 1040000, h3⟩) ?_ ?_]
      · exact hz _
      · exact span_two
      · intro a ha
        fin_cases a
        · rfl
        · rfl
        · exact absurd rfl ha
      · show 1040000 + (n.val - 1040000) = n.val
        omega

/-- The concatenated array at `(b, ch, n)` is the signal at position `n`. -/
theorem V_line (c : Dev nD) (b : Fin 8) (ch : Fin 2) (n : Fin 1040896) :
    Cert.Delay.arr S8x2x1040896 (Fr.V m c main_v1) (ix3 b ch n)
      = Cert.Delay.line (m ((c : Thread nD τ).loc main_arg0)) (m ((c : Thread nD τ).loc main_arg2)) b ch n.val := by
  show (Fr.V m c main_v1 : S8x2x1040896.Idx → EReal) (ix3 b ch n) = _
  rw [line_term]
  refine concat3_apply _ _ _ (fun i => ?_) b ch n
  -- the broadcast scalar is the bit pattern of zero
  rw [broadcastInDim_scalar_apply]
  exact Ideal.ofBits_zero_f32

/-! ## The padding read at an index -/

/-- An array of 1000000 samples padded with 448 copies of `v`'s one element after it along time, read at
    `(b, ch, n)`: the array below 1000000, the padding value after. -/
private theorem pad_apply (x : S8x2x1000000.Idx → EReal) (v : S_.Idx → EReal) (b : Fin 8) (ch : Fin 2)
    (n : Fin 1000448) :
    pad S8x2x1000448 ![0, 0, 0] ![0, 0, 448] ![0, 0, 0] x v pads_S8x2x1000000_S8x2x1000448_000_000_04480 h_S_
        (ix3 b ch n)
      = if h : n.val < 1000000 then x (ix3 b ch ⟨n.val, h⟩) else v (Shape.Idx.first h_S_) := by
  by_cases h : n.val < 1000000
  · rw [dif_pos h]
    refine pad_apply_of_inside _ _ _ x v _ _ (ix3 b ch n) (ix3 b ch ⟨n.val, h⟩) (fun a => ?_)
    fin_cases a
    · show b.val = 0 + b.val * (0 + 1)
      omega
    · show ch.val = 0 + ch.val * (0 + 1)
      omega
    · show n.val = 0 + n.val * (0 + 1)
      omega
  · rw [dif_neg h]
    refine pad_apply_of_not_inside _ _ _ x v _ _ (ix3 b ch n) 2 (fun hin => h ?_)
    have h5 : (n.val - 0) / (0 + 1) < 1000000 := hin.2.2
    rw [Nat.sub_zero, Nat.zero_add, Nat.div_one] at h5
    exact h5

/-- The padded delays at `(b, ch, n)`: the delay for `n < 1000000`, zero after. -/
theorem V_dt (c : Dev nD) (b : Fin 8) (ch : Fin 2) (n : Fin 1000448) :
    Cert.Delay.arr S8x2x1000448 (Fr.V m c main_v2) (ix3 b ch n)
      = if h : n.val < 1000000 then Cert.Delay.arr S8x2x1000000 (m ((c : Thread nD τ).loc main_arg1)) (ix3 b ch ⟨n.val, h⟩) else 0 := by
  show (Fr.V m c main_v2 : S8x2x1000448.Idx → EReal) (ix3 b ch n) = _
  rw [dt_term, pad_apply]
  -- the padding value: the integer zero read as a real
  have hv : (sitofp (F := Ideal) .f32 (constantI S_ 32 0#32)) (Shape.Idx.first h_S_) = (0 : EReal) := by
    show (((0#32 : BitVec 32).toInt : ℝ) : EReal) = 0
    rw [show (0#32 : BitVec 32).toInt = 0 by decide, Int.cast_zero, EReal.coe_zero]
  rw [hv]

end Cert.KernelIdeal.HostArrays

end
-- ==== Proof.SpecK.lean ====
/-
  The kernel reads its two taps relative to the start `512·ti` of the tile that holds time `t = 512·ti + r`: at window
  positions `40000 + r - ⌊d⌋` and one before it, not below the window's start. Against the specification's positions
  `40000 + t - ⌊d⌋` and one before it (not below 0) the first tap is the same sample; the second is the same sample too
  unless the first sits exactly at the window's start — which happens only for `r = 0` and `⌊d⌋ = 40000`, where the delay
  is the integer 40000, its fractional part is zero, and the second tap carries no weight on either side.
-/
import proofs.«405944_j33406255628322_3_alg».proof.Proof.Spec

noncomputable section

namespace Cert.Delay

open Idealize.ShloMosaic Idealize.ShloMosaic.ValueIdx

/-- The tile-relative interpolation is the specification's, for a delay in `[0, 40000]`. -/
theorem tapped_tile (x : (⟨3, ![8, 2, 1000000]⟩ : Shape).Idx → EReal) (buf : (⟨3, ![8, 2, 40000]⟩ : Shape).Idx → EReal)
    (b : Fin 8) (c : Fin 2) (ti r : ℕ) (hr : r < 512) {d : EReal} (h0 : (0 : EReal) ≤ d) (h1 : d ≤ ((40000 : ℝ) : EReal)) :
    (1 - fpart d) * line x buf b c (512 * ti + (40000 + r - (ipart d).toNat))
      + fpart d * line x buf b c (512 * ti + (40000 + r - (ipart d).toNat - 1))
    = tapped x buf b c (512 * ti + r) d := by
  have hk := ipart_toNat_le h0 h1
  unfold tapped
  generalize hkdef : (ipart d).toNat = k at hk ⊢
  -- the first tap: `k ≤ 40000 + r`, so the subtraction does not truncate and the positions are equal
  have e1 : 512 * ti + (40000 + r - k) = 40000 + (512 * ti + r) - k := by omega
  rw [e1]
  by_cases hpos : 1 ≤ 40000 + r - k
  · -- the second tap, one before a first tap that is not at the window's start
    have e2 : 512 * ti + (40000 + r - k - 1) = 40000 + (512 * ti + r) - k - 1 := by omega
    rw [e2]
  · -- the first tap at the window's start: `k = 40000 + r` with `k ≤ 40000`, so `k = 40000` and the weight is zero
    have hk40 : k = 40000 := by omega
    have hf : fpart d = 0 := fpart_eq_zero h0 h1 (hkdef.trans hk40)
    rw [hf, zero_mul, zero_mul]

/-- Past the input's end (the padded tail of the last tile) the signal is zero wherever the kernel looks with a zero delay:
    not needed for the result, stated for completeness of the tile picture. -/
theorem line_zero_of_ge (x : (⟨3, ![8, 2, 1000000]⟩ : Shape).Idx → EReal) (buf : (⟨3, ![8, 2, 40000]⟩ : Shape).Idx → EReal)
    (b : Fin 8) (c : Fin 2) (n : ℕ) (hn : 1040000 ≤ n) : line x buf b c n = 0 := by
  unfold line
  rw [dif_neg (by omega), dif_neg (by omega)]

end Cert.Delay

end
-- ==== Proof.Final.lean ====
/-
  The kernel program's result, at the extended reals: after the run the result array `main_v4` is the delay
  line's output `Cert.Delay.delayed` of the three argument arrays, for delays in `[0, 40000]`.
  Point `t` of the grid (batch `b`, tile `ti`) writes back rows `(b, ch, 512·ti + r)` of the padded result, each the
  interpolation of the tile's delay `d = dt_pad[b, ch, 512·ti + r]` over the batch's padded signal read relative to the
  tile's start; that is the specification's interpolation at time `512·ti + r` (`Cert.Delay.tapped_tile`). The blocks
  tile the padded result, and the slice after the region keeps its first 1000000 positions, where the padded delays are
  the delays.
-/
import proofs.«405944_j33406255628322_3_alg».proof.Proof.KIFrame
import proofs.«405944_j33406255628322_3_alg».proof.Proof.GridFacts
import proofs.«405944_j33406255628322_3_alg».proof.Proof.Blocks
import proofs.«405944_j33406255628322_3_alg».proof.Proof.Rows
import proofs.«405944_j33406255628322_3_alg».proof.Proof.HostArrays
import proofs.«405944_j33406255628322_3_alg».proof.Proof.Spec
import proofs.«405944_j33406255628322_3_alg».proof.Proof.SpecK
import proofs.«405944_j33406255628322_3_alg».proof.Proof.Arr
import Idealize.ShloMosaic.Lib.Pipeline.Value
import Idealize.ShloMosaic.Lib.StableHlo.Run
import Idealize.ShloMosaic.Lib.ValueIdx

set_option maxRecDepth 16384

noncomputable section

namespace Cert.KernelIdeal.Final

open Cert.KernelIdeal Cert.KernelIdeal.Fr Cert.KernelIdeal.GridFacts
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three argument arrays and the padded delays, as functions to the extended reals. -/
abbrev xA (c : Dev nD) : S8x2x1000000.Idx → EReal := Cert.Delay.arr S8x2x1000000 (m ((c : Thread nD τ).loc main_arg0))
abbrev dtA (c : Dev nD) : S8x2x1000000.Idx → EReal := Cert.Delay.arr S8x2x1000000 (m ((c : Thread nD τ).loc main_arg1))
abbrev bufA (c : Dev nD) : S8x2x40000.Idx → EReal := Cert.Delay.arr S8x2x40000 (m ((c : Thread nD τ).loc main_arg2))
abbrev dtP (c : Dev nD) : S8x2x1000448.Idx → EReal := Cert.Delay.arr S8x2x1000448 (V m c main_v2)

/-- The padded result: at `(b, ch, n)` the interpolation at time `n` for the padded delay there. -/
def padded (c : Dev nD) : S8x2x1000448.Idx → EReal := fun i =>
  Cert.Delay.tapped (xA m c) (bufA m c) (i 0) (i 1) (i 2).val (dtP m c i)

/-- The padded delays are in range wherever the delays are: they are a delay or zero. -/
theorem dtP_range (hdt : ∀ c j, (0 : EReal) ≤ dtA m c j ∧ dtA m c j ≤ ((40000 : ℝ) : EReal)) (c : Dev nD)
    (b : Fin 8) (ch : Fin 2) (n : Fin 1000448) :
    (0 : EReal) ≤ dtP m c (ix3 b ch n) ∧ dtP m c (ix3 b ch n) ≤ ((40000 : ℝ) : EReal) := by
  have e : dtP m c (ix3 b ch n) = (if h : n.val < 1000000 then dtA m c (ix3 b ch ⟨n.val, h⟩) else 0) :=
    HostArrays.V_dt m c b ch n
  rw [e]
  split
  · exact hdt c _
  · exact ⟨le_refl _, by exact_mod_cast (by norm_num : (0 : ℝ) ≤ 40000)⟩

/-- Point `t`'s batch and the position of row `r` of its tile, as indices of the padded arrays. -/
abbrev bOf (t : Fin cfg0.N) : Fin 8 := ⟨(grid0.coords t 0).val, (grid0.coords t 0).isLt⟩
abbrev nOf (t : Fin cfg0.N) (r : Fin 512) : Fin 1000448 :=
  ⟨512 * (grid0.coords t 1).val + r.val, by have h1 : (grid0.coords t 1).val < 1954 := (grid0.coords t 1).isLt; have := r.isLt; omega⟩

/-- Row 0 of the block point `t` writes back is channel 0 of the padded result on the tile's 512 positions, -/
theorem block_row0 (hdt : ∀ c j, (0 : EReal) ≤ dtA m c j ∧ dtA m c j ≤ ((40000 : ℝ) : EReal)) (c : Dev nD) (t : Fin cfg0.N) (r : Fin 512) :
    outBlk (grid0.coords t) (iblk m c 0 t) (iblk m c 1 t) (ix3 (0 : Fin 1) (0 : Fin 2) r)
      = padded m c (ix3 (bOf t) (0 : Fin 2) (nOf t r)) := by
  have hd := dtP_range m hdt c (bOf t) (0 : Fin 2) (nOf t r)
  have ed : View.ld (iblk m c 0 t) rRow0 (ix3 (0 : Fin 1) (0 : Fin 1) r) = dtP m c (ix3 (bOf t) (0 : Fin 2) (nOf t r)) :=
    Blocks.ld_dt0 m c t r
  rw [Blocks.outBlk_row0, Rows.row0_eq, Rows.rowOut_apply _ _ r (by rw [ed]; exact hd.1) (by rw [ed]; exact hd.2)]
  simp only [ed]
  rw [Blocks.ld_win0, Blocks.ld_win0, HostArrays.V_line, HostArrays.V_line]
  exact Cert.Delay.tapped_tile _ _ _ _ _ _ r.isLt hd.1 hd.2

/-- and row 1 is channel 1. -/
theorem block_row1 (hdt : ∀ c j, (0 : EReal) ≤ dtA m c j ∧ dtA m c j ≤ ((40000 : ℝ) : EReal)) (c : Dev nD) (t : Fin cfg0.N) (r : Fin 512) :
    outBlk (grid0.coords t) (iblk m c 0 t) (iblk m c 1 t) (ix3 (0 : Fin 1) (1 : Fin 2) r)
      = padded m c (ix3 (bOf t) (1 : Fin 2) (nOf t r)) := by
  have hd := dtP_range m hdt c (bOf t) (1 : Fin 2) (nOf t r)
  have ed : View.ld (iblk m c 0 t) rRow1 (ix3 (0 : Fin 1) (0 : Fin 1) r) = dtP m c (ix3 (bOf t) (1 : Fin 2) (nOf t r)) :=
    Blocks.ld_dt1 m c t r
  rw [Blocks.outBlk_row1, Rows.row1_eq, Rows.rowOut_apply _ _ r (by rw [ed]; exact hd.1) (by rw [ed]; exact hd.2)]
  simp only [ed]
  rw [Blocks.ld_win1, Blocks.ld_win1, HostArrays.V_line, HostArrays.V_line]
  exact Cert.Delay.tapped_tile _ _ _ _ _ _ r.isLt hd.1 hd.2

/-- Where block coordinate `(0, ch, r)` of point `t`'s block sits in the padded result. -/
theorem emb_blk (t : Fin cfg0.N) (ch : Fin 2) (r : Fin 512) :
    ((cfg0.win 2).blk t).view.emb (ix3 (0 : Fin 1) ch r) = ix3 (bOf t) ch (nOf t r) := by
  funext a; apply Fin.ext
  match a with
  | ⟨0, _⟩ => show win0_2.index t (0 : Fin 3) * 1 + 1 * 0 = (grid0.coords t 0).val; rw [index2]; show (grid0.coords t 0).val * 1 + 1 * 0 = _; omega
  | ⟨1, _⟩ => show win0_2.index t (1 : Fin 3) * 2 + 1 * ch.val = ch.val; rw [index2]; show 0 * 2 + 1 * ch.val = _; omega
  | ⟨2, _⟩ => show win0_2.index t (2 : Fin 3) * 512 + 1 * r.val = 512 * (grid0.coords t 1).val + r.val; rw [index2]; show (grid0.coords t 1).val * 512 + 1 * r.val = _; omega

/-- WHAT POINT `t` WRITES BACK is block `t` of the padded result. -/
theorem flushed_eq (hdt : ∀ c j, (0 : EReal) ≤ dtA m c j ∧ dtA m c j ≤ ((40000 : ℝ) : EReal)) (c : Dev nD) (t : Fin cfg0.N) :
    (dats m 0 c).flushed 2 t = ((cfg0.win 2).blk t).view.read (Elt Ideal) (padded m c) := by
  show (cfg0.win 2).cut (grid0.coords t) ((dats m 0 c).after 2 t) = _
  rw [after2]
  have key : ∀ y : S1x2x512.Idx, outBlk (grid0.coords t) (iblk m c 0 t) (iblk m c 1 t) y
      = padded m c (((cfg0.win 2).blk t).view.emb y) := by
    intro y
    obtain ⟨p, ch, r, rfl⟩ : ∃ (p : Fin 1) (ch : Fin 2) (r : Fin 512), y = ix3 p ch r := ⟨y 0, y 1, y 2, eq_ix3 y⟩
    obtain rfl : p = 0 := Subsingleton.elim _ _
    rw [emb_blk]
    match ch with
    | ⟨0, _⟩ => exact block_row0 m hdt c t r
    | ⟨1, _⟩ => exact block_row1 m hdt c t r
  funext y
  exact key y

/-- Every index of the padded result is in the block of the point with its batch and its tile. -/
theorem cover (i : S8x2x1000448.Idx) :
    ∃ t : Fin cfg0.N, (cfg0.win 2).flush t = true ∧ i ∈ ((cfg0.win 2).blk t).view.set := by
  have hi0 : (i 0).val < 8 := (i 0).isLt
  have hi1 : (i 1).val < 2 := (i 1).isLt
  have hi2 : (i 2).val < 1000448 := (i 2).isLt
  obtain ⟨t, ht0, ht1⟩ := point_of ⟨(i 0).val, hi0⟩ ⟨(i 2).val / 512, by omega⟩
  simp only [] at ht0 ht1
  refine ⟨t, flush2 t, ?_⟩
  show i ∈ ((View.whole main_v3).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [index2]; show (grid0.coords t 0).val * 1 ≤ _ ∧ _ < (grid0.coords t 0).val * 1 + 1; omega
  | ⟨1, _⟩ => show win0_2.index t (1 : Fin 3) * 2 ≤ (i 1).val ∧ (i 1).val < win0_2.index t (1 : Fin 3) * 2 + 2; rw [index2]; show 0 * 2 ≤ _ ∧ _ < 0 * 2 + 2; omega
  | ⟨2, _⟩ => show win0_2.index t (2 : Fin 3) * 512 ≤ (i 2).val ∧ (i 2).val < win0_2.index t (2 : Fin 3) * 512 + 512; rw [index2]; show (grid0.coords t 1).val * 512 ≤ _ ∧ _ < (grid0.coords t 1).val * 512 + 512; omega

/-- The padded result array after the region. -/
theorem final_v3 (hdt : ∀ c j, (0 : EReal) ≤ dtA m c j ∧ dtA m c j ≤ ((40000 : ℝ) : EReal)) (c : Dev nD) :
    (dats m 0 c).arrAt 2 cfg0.N = padded m c :=
  (dats m 0 c).arrAt_eq_of_cover 2 (padded m c) (fun t _ => flushed_eq m hdt c t) (cover)

/-- The slice after the region: the result is the padded result's first 1000000 positions. -/
theorem tail_v4 (c : Dev nD) :
    Pipeline.afterTail₀ cfgs (dats m) 0 (V0 m) [Gen.hostOps1] c main_v4
      = extractStridedSlice S8x2x1000000 ![0, 0, 0] ((dats m 0 c).arrAt 2 cfg0.N) Facts₀.slices_S8x2x1000448_S8x2x1000000_0_0_0 := by
  unfold Pipeline.afterTail₀
  show StableHlo.after Gen.hostOps1 _ (Proc.devRef .tc main_v4) = _
  after_results
  congr 1
  exact Pipeline.withArrays_arr spec0 Gen.launch0.win.arr_inj c _ _ 2

/-- The result array: the delay line's output. -/
theorem result_eq (hdt : ∀ c j, (0 : EReal) ≤ dtA m c j ∧ dtA m c j ≤ ((40000 : ℝ) : EReal)) (c : Dev nD) :
    Cert.Delay.arr S8x2x1000000 (Pipeline.afterTail₀ cfgs (dats m) 0 (V0 m) [Gen.hostOps1] c main_v4)
      = Cert.Delay.delayed (xA m c) (dtA m c) (bufA m c) := by
  rw [tail_v4, final_v3 m hdt c]
  funext j
  obtain ⟨b, ch, n, rfl⟩ : ∃ (b : Fin 8) (ch : Fin 2) (n : Fin 1000000), j = ix3 b ch n := ⟨j 0, j 1, j 2, eq_ix3 j⟩
  have hn : n.val < 1000448 := by have := n.isLt; omega
  show extractStridedSlice S8x2x1000000 ![0, 0, 0] (padded m c) _ (ix3 b ch n) = _
  rw [extractStridedSlice_apply ![0, 0, 0] (padded m c) _ (ix3 b ch n) (ix3 b ch (⟨n.val, hn⟩ : Fin 1000448)) (fun a => by
    match a with
    | ⟨0, _⟩ => show b.val = 0 + b.val; omega
    | ⟨1, _⟩ => show ch.val = 0 + ch.val; omega
    | ⟨2, _⟩ => show n.val = 0 + n.val; omega)]
  have e : dtP m c (ix3 b ch (⟨n.val, hn⟩ : Fin 1000448)) = dtA m c (ix3 b ch n) := by
    have h := HostArrays.V_dt m c b ch (⟨n.val, hn⟩ : Fin 1000448)
    rw [dif_pos (show (⟨n.val, hn⟩ : Fin 1000448).val < 1000000 from n.isLt)] at h
    exact h
  show Cert.Delay.tapped (xA m c) (bufA m c) b ch n.val (dtP m c (ix3 b ch (⟨n.val, hn⟩ : Fin 1000448)))
    = Cert.Delay.tapped (xA m c) (bufA m c) b ch n.val (dtA m c (ix3 b ch n))
  rw [e]

/-- THE RUN, read at the extended reals: from any memory with zero counters whose delays lie in `[0, 40000]` every weakly
    fair execution of @main terminates with the result array at the delay line's output and the arguments unchanged. -/
theorem kernel_run (hdt : ∀ c j, (0 : EReal) ≤ dtA m c j ∧ dtA m c j ≤ ((40000 : ℝ) : EReal)) :
    θ_run defs (onTc (τ := τ) (main (F := Ideal))) ⟨m, fun _ => 0, ρ⟩ (fun r => ∀ c : Dev nD,
      r.2.mem ((c.tc : Thread nD τ).loc main_v4) = Cert.Delay.delayed (xA m c) (dtA m c) (bufA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (result_eq m hdt c),
     ((h c).2 main_arg0 (Pipeline.mem_restRefs_of main_arg0 (by decide) (by decide))).trans (W_arg m (dats m) c main_arg0 (.inl rfl)),
     ((h c).2 main_arg1 (Pipeline.mem_restRefs_of main_arg1 (by decide) (by decide))).trans (W_arg m (dats m) c main_arg1 (.inr (.inl rfl))),
     ((h c).2 main_arg2 (Pipeline.mem_restRefs_of main_arg2 (by decide) (by decide))).trans (W_arg m (dats m) c main_arg2 (.inr (.inr rfl)))⟩)
    (run_main m ρ)

end Cert.KernelIdeal.Final

end
-- ==== Proof.PreRange.lean ====
/-
  What the precondition says of the delays: its last conjunct, read at one element, is `0 ≤ dt ≤ 40000` on the
  extended reals (the comparisons are the order's, the two constants the reals 0 and 40000).
-/
import proofs.«405944_j33406255628322_3_alg».proof.Defs
import proofs.«405944_j33406255628322_3_alg».proof.Proof.Gen.Pre_finite_inputs
import proofs.«405944_j33406255628322_3_alg».proof.Proof.Gen.KernelIdeal
import proofs.«405944_j33406255628322_3_alg».proof.Proof.Arr
import Idealize.ShloMosaic.Lib.ReduceAll
import Idealize.ShloMosaic.Lib.ValueIdx
import Idealize.ShloMosaic.PureOps.Ideal.Laws

noncomputable section

namespace Cert.PreRange

open Idealize.ShloMosaic Idealize.ShloMosaic.TcCoe Idealize.ShloMosaic.ValueIdx Idealize.SL.Sem

/-- The pattern `0x471C4000` denotes the real `40000`: exponent field 142, fraction field `0x1C4000`,
    so `(2^23 + 1851392) · 2^(142 - 127 - 23) = 10240000 / 256`. -/
private theorem ofBits_40000 : Ideal.ofBits .f32 0x471C4000#32 = ((40000 : ℝ) : EReal) := by
  simp [Ideal.ofBits, Ideal.ieee, -EReal.coe_mul]; norm_num

/-- A one-bit word made from a decided proposition is 1 exactly when the proposition holds. -/
private theorem ofBool_decide_eq_one {p : Prop} [Decidable p] (h : BitVec.ofBool (decide p) = 1#1) : p := by
  by_cases hp : p
  · exact hp
  · rw [decide_eq_false hp] at h; exact absurd h (by decide)

/-- The result of a reduction over all axes has one index. -/
private instance : Subsingleton Cert.Pre_finite_inputs.S_.Idx := ⟨fun a b => funext fun d => d.elim0⟩

/-- Under the precondition every delay lies in `[0, 40000]`. -/
theorem dt_range (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S8x2x1000000.Idx) :
    (0 : EReal) ≤ Cert.Delay.arr Cert.KernelIdeal.S8x2x1000000 (m ((c.tc : Thread Cert.KernelIdeal.nD Cert.KernelIdeal.τ).loc Cert.KernelIdeal.main_arg1)) j
    ∧ Cert.Delay.arr Cert.KernelIdeal.S8x2x1000000 (m ((c.tc : Thread Cert.KernelIdeal.nD Cert.KernelIdeal.τ).loc Cert.KernelIdeal.main_arg1)) j ≤ ((40000 : ℝ) : EReal) := by
  have h0 := congrFun (h c) ValueIdx.ix0
  dsimp only [Cert.Pre_finite_inputs.fn, Cert.Pre_finite_inputs.fn_part1] at h0
  -- the last conjunct of the chain: the reduction of the two comparisons
  have hlast := (IntOp.andi_eq_one.1 h0).2
  have hj := Host.reduce_andi_all _ _ _ _ _ hlast j
  obtain ⟨hge, hle⟩ := IntOp.andi_eq_one.1 hj
  refine ⟨?_, ?_⟩
  · -- the broadcast constant read at `j` is the pattern's value
    have hz : Ideal.ofBits .f32 0x00000000#32
        ≤ Cert.Delay.arr Cert.KernelIdeal.S8x2x1000000 (m ((c.tc : Thread Cert.KernelIdeal.nD Cert.KernelIdeal.τ).loc Cert.KernelIdeal.main_arg1)) j :=
      ofBool_decide_eq_one hge
    rwa [Ideal.ofBits_zero_f32] at hz
  · have hu : Cert.Delay.arr Cert.KernelIdeal.S8x2x1000000 (m ((c.tc : Thread Cert.KernelIdeal.nD Cert.KernelIdeal.τ).loc Cert.KernelIdeal.main_arg1)) j
        ≤ Ideal.ofBits .f32 0x471C4000#32 :=
      ofBool_decide_eq_one hle
    rwa [ofBits_40000] at hu

end Cert.PreRange

end
-- ==== Proof.RefRunH.lean ====
/-
  The reference program's run: from any memory with zero counters every weakly fair execution of its @main (68 host
  operations, the two calls of take_along_axis inlined) terminates with the result array at the last stage of the
  operations read one at a time (`val_main_v21` of the three argument arrays) and the arguments unchanged.

  The result is read stretch by stretch. The list of operations is cut into nine consecutive stretches, at places where
  few buffers are still to be read: for each stretch, from any contents in which the buffers it reads hold their stages,
  the buffers it writes that are read later hold theirs, and every buffer it does not write is as before. The stretches
  are then joined from the last to the first.
-/
import proofs.«405944_j33406255628322_3_alg».proof.Proof.RefRun
import proofs.«405944_j33406255628322_3_alg».proof.Proof.RefRead
import Idealize.ShloMosaic.Lib.Pipeline.Frame

noncomputable section

namespace Cert.ReferenceIdeal.RefRunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ### Operations 1–9: the concatenated table, the column numbers shifted by 40000, the floor of the positions as integers and the fractional part -/

/-- Operations 1 to 9 of the list, in order. -/
def cA1 : List (HloOp τ sig (Elt F)) :=
  [ binary main_arg2 main_arg0 main_v0 ((fun a b => concatenate S8x2x1040000 2 [⟨S8x2x40000, a⟩, ⟨S8x2x1000000, b⟩] concatenates_S8x2x40000_S8x2x1000000_S8x2x1040000_d2) : (⟨S8x2x40000, .f32⟩ : BufTy).Contents (Elt F) → (⟨S8x2x1000000, .f32⟩ : BufTy).Contents (Elt F) → (⟨S8x2x1040000, .f32⟩ : BufTy).Contents (Elt F)),
    nullary main_v1 (iotaInDim S1000000 32 0),
    nullary main_c (constantI S_ 32 40000#32),
    unary main_c main_v2 (broadcastInDim S1000000 ![] bcast_S_S1000000 : (⟨S_, .i32⟩ : BufTy).Contents (Elt F) → (⟨S1000000, .i32⟩ : BufTy).Contents (Elt F)),
    binary main_v2 main_v1 main_v3 (addi : (⟨S1000000, .i32⟩ : BufTy).Contents (Elt F) → (⟨S1000000, .i32⟩ : BufTy).Contents (Elt F) → (⟨S1000000, .i32⟩ : BufTy).Contents (Elt F)),
    unary main_arg1 main_v4 (Host.floor : (⟨S8x2x1000000, .f32⟩ : BufTy).Contents (Elt F) → (⟨S8x2x1000000, .f32⟩ : BufTy).Contents (Elt F)),
    unary main_v4 main_v5 (fptosi 32 : (⟨S8x2x1000000, .f32⟩ : BufTy).Contents (Elt F) → (⟨S8x2x1000000, .i32⟩ : BufTy).Contents (Elt F)),
    unary main_v5 main_v6 (sitofp .f32 : (⟨S8x2x1000000, .i32⟩ : BufTy).Contents (Elt F) → (⟨S8x2x1000000, .f32⟩ : BufTy).Contents (Elt F)),
    binary main_arg1 main_v6 main_v7 (subf : (⟨S8x2x1000000, .f32⟩ : BufTy).Contents (Elt F) → (⟨S8x2x1000000, .f32⟩ : BufTy).Contents (Elt F) → (⟨S8x2x1000000, .f32⟩ : BufTy).Contents (Elt F)) ]

/-- Every buffer operations 1 to 9 write is one of these. -/
private theorem cA1_writes : (cA1 (F := F)).Forall fun op => op.writes ⊆
    (([main_v0, main_v1, main_c, main_v2, main_v3, main_v4, main_v5, main_v6, main_v7] : List (Ref sig .tc)).map (Proc.devRef (τ := τ) .tc)).toFinset := by
  simp only [cA1, List.Forall, StableHlo.nullary_writes, StableHlo.unary_writes, StableHlo.binary_writes, StableHlo.ternary_writes,
    StableHlo.reshape_writes, StableHlo.TRef.nullary, StableHlo.TRef.unary, StableHlo.TRef.binary, StableHlo.TRef.ternary, StableHlo.TRef.reshape,
    Finset.singleton_subset_iff, List.mem_toFinset, List.map_cons, List.map_nil, List.mem_cons, true_or, or_true, and_self]

/-- A buffer they do not write is as before. -/
private theorem cA1_frame (W : Valuation τ sig (Elt F)) (r : Ref sig .tc)
    (hr : r ∉ ([main_v0, main_v1, main_c, main_v2, main_v3, main_v4, main_v5, main_v6, main_v7] : List (Ref sig .tc))) :
    StableHlo.after (cA1 (F := F)) W (Proc.devRef .tc r) = W (Proc.devRef .tc r) :=
  StableHlo.after_of_writes_sub _ W cA1_writes hr

/-- After them `main_v0` holds its stage, from a valuation in which the buffers they read hold theirs. -/
private theorem cA1_v0 (W : Valuation τ sig (Elt F)) (x0 : (⟨S8x2x1000000, .f32⟩ : BufTy).Contents (Elt F)) (x2 : (⟨S8x2x40000, .f32⟩ : BufTy).Contents (Elt F))
    (h_arg0 : W (Proc.devRef .tc main_arg0) = x0)
    (h_arg2 : W (Proc.devRef .tc main_arg2) = x2) :
    StableHlo.after (cA1 (F := F)) W (Proc.devRef .tc main_v0) = val_main_v0 (F := F) x0 x2 := by
  unfold cA1
  after_results_simp
  rw [h_arg0, h_arg2]
  rfl

/-- After them `main_v3` holds its stage, from a valuation in which the buffers they read hold theirs. -/
private theorem cA1_v3 (W : Valuation τ sig (Elt F)) :
    StableHlo.after (cA1 (F := F)) W (Proc.devRef .tc main_v3) = val_main_v3 (F := F) := by
  unfold cA1
  after_results_simp
  rfl

/-- After them `main_v5` holds its stage, from a valuation in which the buffers they read hold theirs. -/
private theorem cA1_v5 (W : Valuation τ sig (Elt F)) (x1 : (⟨S8x2x1000000, .f32⟩ : BufTy).Contents (Elt F))
    (h_arg1 : W (Proc.devRef .tc main_arg1) = x1) :
    StableHlo.after (cA1 (F := F)) W (Proc.devRef .tc main_v5) = val_main_v5 (F := F) x1 := by
  unfold cA1
  after_results_simp
  rw [h_arg1]
  rfl

/-- After them `main_v7` holds its stage, from a valuation in which the buffers they read hold theirs. -/
private theorem cA1_v7 (W : Valuation τ sig (Elt F)) (x1 : (⟨S8x2x1000000, .f32⟩ : BufTy).Contents (Elt F))
    (h_arg1 : W (Proc.devRef .tc main_arg1) = x1) :
    StableHlo.after (cA1 (F := F)) W (Proc.devRef .tc main_v7) = val_main_v7 (F := F) x1 := by
  unfold cA1
  after_results_simp
  rw [h_arg1]
  rfl

/-! ### Operations 10–18: the two integer index arrays: the shifted column number less the floor, and that less one, clamped at zero -/

/-- Operations 10 to 18 of the list, in order. -/
def cA2 : List (HloOp τ sig (Elt F)) :=
  [ unary main_v3 main_v8 (broadcastInDim S1x1x1000000 ![2] bcast_S1000000_S1x1x1000000_2 : (⟨S1000000, .i32⟩ : BufTy).Contents (Elt F) → (⟨S1x1x1000000, .i32⟩ : BufTy).Contents (Elt F)),
    unary main_v8 main_v9 (broadcastInDim S8x2x1000000 ![0, 1, 2] bcast_S1x1x1000000_S8x2x1000000_0_1_2 : (⟨S1x1x1000000, .i32⟩ : BufTy).Contents (Elt F) → (⟨S8x2x1000000, .i32⟩ : BufTy).Contents (Elt F)),
    binary main_v9 main_v5 main_v10 (subi : (⟨S8x2x1000000, .i32⟩ : BufTy).Contents (Elt F) → (⟨S8x2x1000000, .i32⟩ : BufTy).Contents (Elt F) → (⟨S8x2x1000000, .i32⟩ : BufTy).Contents (Elt F)),
    nullary main_c_0 (constantI S_ 32 1#32),
    unary main_c_0 main_v11 (broadcastInDim S8x2x1000000 ![] bcast_S_S8x2x1000000 : (⟨S_, .i32⟩ : BufTy).Contents (Elt F) → (⟨S8x2x1000000, .i32⟩ : BufTy).Contents (Elt F)),
    binary main_v10 main_v11 main_v12 (subi : (⟨S8x2x1000000, .i32⟩ : BufTy).Contents (Elt F) → (⟨S8x2x1000000, .i32⟩ : BufTy).Contents (Elt F) → (⟨S8x2x1000000, .i32⟩ : BufTy).Contents (Elt F)),
    nullary main_c_1 (constantI S_ 32 0#32),
    unary main_c_1 main_v13 (broadcastInDim S8x2x1000000 ![] bcast_S_S8x2x1000000 : (⟨S_, .i32⟩ : BufTy).Contents (Elt F) → (⟨S8x2x1000000, .i32⟩ : BufTy).Contents (Elt F)),
    binary main_v12 main_v13 main_v14 (maxsi : (⟨S8x2x1000000, .i32⟩ : BufTy).Contents (Elt F) → (⟨S8x2x1000000, .i32⟩ : BufTy).Contents (Elt F) → (⟨S8x2x1000000, .i32⟩ : BufTy).Contents (Elt F)) ]

/-- Every buffer operations 10 to 18 write is one of these. -/
private theorem cA2_writes : (cA2 (F := F)).Forall fun op => op.writes ⊆
    (([main_v8, main_v9, main_v10, main_c_0, main_v11, main_v12, main_c_1, main_v13, main_v14] : List (Ref sig .tc)).map (Proc.devRef (τ := τ) .tc)).toFinset := by
  simp only [cA2, List.Forall, StableHlo.nullary_writes, StableHlo.unary_writes, StableHlo.binary_writes, StableHlo.ternary_writes,
    StableHlo.reshape_writes, StableHlo.TRef.nullary, StableHlo.TRef.unary, StableHlo.TRef.binary, StableHlo.TRef.ternary, StableHlo.TRef.reshape,
    Finset.singleton_subset_iff, List.mem_toFinset, List.map_cons, List.map_nil, List.mem_cons, true_or, or_true, and_self]

/-- A buffer they do not write is as before. -/
private theorem cA2_frame (W : Valuation τ sig (Elt F)) (r : Ref sig .tc)
    (hr : r ∉ ([main_v8, main_v9, main_v10, main_c_0, main_v11, main_v12, main_c_1, main_v13, main_v14] : List (Ref sig .tc))) :
    StableHlo.after (cA2 (F := F)) W (Proc.devRef .tc r) = W (Proc.devRef .tc r) :=
  StableHlo.after_of_writes_sub _ W cA2_writes hr

/-- After them `main_v10` holds its stage, from a valuation in which the buffers they read hold theirs. -/
private theorem cA2_v10 (W : Valuation τ sig (Elt F)) (x1 : (⟨S8x2x1000000, .f32⟩ : BufTy).Contents (Elt F))
    (h_v3 : W (Proc.devRef .tc main_v3) = val_main_v3 (F := F))
    (h_v5 : W (Proc.devRef .tc main_v5) = val_main_v5 (F := F) x1) :
    StableHlo.after (cA2 (F := F)) W (Proc.devRef .tc main_v10) = val_main_v10 (F := F) x1 := by
  unfold cA2
  after_results_simp
  rw [h_v3, h_v5]
  rfl

/-- After them `main_v14` holds its stage, from a valuation in which the buffers they read hold theirs. -/
private theorem cA2_v14 (W : Valuation τ sig (Elt F)) (x1 : (⟨S8x2x1000000, .f32⟩ : BufTy).Contents (Elt F))
    (h_v3 : W (Proc.devRef .tc main_v3) = val_main_v3 (F := F))
    (h_v5 : W (Proc.devRef .tc main_v5) = val_main_v5 (F := F) x1) :
    StableHlo.after (cA2 (F := F)) W (Proc.devRef .tc main_v14) = val_main_v14 (F := F) x1 := by
  unfold cA2
  after_results_simp
  rw [h_v3, h_v5]
  rfl

/-! ### Operations 19–26: first take: a negative index wrapped by the table's length, as a column of indices -/

/-- Operations 19 to 26 of the list, in order. -/
def cB1 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S8x2x1000000, .i32⟩) main_call0_v0) (broadcastInDim S8x2x1000000 ![] bcast_S_S8x2x1000000),
    TRef.binary (TRef.of (T := ⟨S8x2x1000000, .i32⟩) main_v10) (TRef.of (T := ⟨S8x2x1000000, .i32⟩) main_call0_v0) (TRef.of (T := ⟨S8x2x1000000, .i1⟩) main_call0_v1) (cmpi .slt),
    TRef.nullary (TRef.of (T := ⟨S_, .i32⟩) main_call0_c_0) (constantI S_ 32 1040000#32),
    TRef.unary (TRef.of (T := ⟨S_, .i32⟩) main_call0_c_0) (TRef.of (T := ⟨S8x2x1000000, .i32⟩) main_call0_v2) (broadcastInDim S8x2x1000000 ![] bcast_S_S8x2x1000000),
    TRef.binary (TRef.of (T := ⟨S8x2x1000000, .i32⟩) main_v10) (TRef.of (T := ⟨S8x2x1000000, .i32⟩) main_call0_v2) (TRef.of (T := ⟨S8x2x1000000, .i32⟩) main_call0_v3) addi,
    TRef.ternary (TRef.of (T := ⟨S8x2x1000000, .i1⟩) main_call0_v1) (TRef.of (T := ⟨S8x2x1000000, .i32⟩) main_call0_v3) (TRef.of (T := ⟨S8x2x1000000, .i32⟩) main_v10) (TRef.of (T := ⟨S8x2x1000000, .i32⟩) main_call0_v4) select,
    TRef.reshape (TRef.of (T := ⟨S8x2x1000000, .i32⟩) main_call0_v4) (TRef.of (T := ⟨S8x2x1000000x1, .i32⟩) main_call0_v5) rfl shapeCasts_S8x2x1000000_S8x2x1000000x1 ]

/-- Every buffer operations 19 to 26 write is one of these. -/
private theorem cB1_writes : (cB1 (F := F)).Forall fun op => op.writes ⊆
    (([main_call0_c, main_call0_v0, main_call0_v1, main_call0_c_0, main_call0_v2, main_call0_v3, main_call0_v4, main_call0_v5] : List (Ref sig .tc)).map (Proc.devRef (τ := τ) .tc)).toFinset := by
  simp only [cB1, List.Forall, StableHlo.nullary_writes, StableHlo.unary_writes, StableHlo.binary_writes, StableHlo.ternary_writes,
    StableHlo.reshape_writes, StableHlo.TRef.nullary, StableHlo.TRef.unary, StableHlo.TRef.binary, StableHlo.TRef.ternary, StableHlo.TRef.reshape,
    Finset.singleton_subset_iff, List.mem_toFinset, List.map_cons, List.map_nil, List.mem_cons, true_or, or_true, and_self]

/-- A buffer they do not write is as before. -/
private theorem cB1_frame (W : Valuation τ sig (Elt F)) (r : Ref sig .tc)
    (hr : r ∉ ([main_call0_c, main_call0_v0, main_call0_v1, main_call0_c_0, main_call0_v2, main_call0_v3, main_call0_v4, main_call0_v5] : List (Ref sig .tc))) :
    StableHlo.after (cB1 (F := F)) W (Proc.devRef .tc r) = W (Proc.devRef .tc r) :=
  StableHlo.after_of_writes_sub _ W cB1_writes hr

/-- After them `main_call0_v5` holds its stage, from a valuation in which the buffers they read hold theirs. -/
private theorem cB1_call0_v5 (W : Valuation τ sig (Elt F)) (x1 : (⟨S8x2x1000000, .f32⟩ : BufTy).Contents (Elt F))
    (h_v10 : W (Proc.devRef .tc main_v10) = val_main_v10 (F := F) x1) :
    StableHlo.after (cB1 (F := F)) W (Proc.devRef .tc main_call0_v5) = val_main_call0_v5 (F := F) x1 := by
  unfold cB1
  after_results_simp
  simp only [TRef.ofBuf, TRef.toBuf, cast_eq]
  rw [h_v10]
  rfl

/-! ### Operations 27–36: first take: whether each index lies within the table -/

/-- Operations 27 to 36 of the list, in order. -/
def cB2 : List (HloOp τ sig (Elt F)) :=
  [ TRef.nullary (TRef.of (T := ⟨S1, .i32⟩) main_call0_c_1) (constantI S1 32 1039999#32),
    TRef.nullary (TRef.of (T := ⟨S_, .i32⟩) main_call0_c_2) (constantI S_ 32 0#32),
    TRef.unary (TRef.of (T := ⟨S_, .i32⟩) main_call0_c_2) (TRef.of (T := ⟨S8x2x1000000x1, .i32⟩) main_call0_v6) (broadcastInDim S8x2x1000000x1 ![] bcast_S_S8x2x1000000x1),
    TRef.binary (TRef.of (T := ⟨S8x2x1000000x1, .i32⟩) main_call0_v5) (TRef.of (T := ⟨S8x2x1000000x1, .i32⟩) main_call0_v6) (TRef.of (T := ⟨S8x2x1000000x1, .i1⟩) main_call0_v7) (cmpi .sge),
    TRef.unary (TRef.of (T := ⟨S1, .i32⟩) main_call0_c_1) (TRef.of (T := ⟨S1x1x1x1, .i32⟩) main_call0_v8) (broadcastInDim S1x1x1x1 ![3] bcast_S1_S1x1x1x1_3),
    TRef.unary (TRef.of (T := ⟨S1x1x1x1, .i32⟩) main_call0_v8) (TRef.of (T := ⟨S8x2x1000000x1, .i32⟩) main_call0_v9) (broadcastInDim S8x2x1000000x1 ![0, 1, 2, 3] bcast_S1x1x1x1_S8x2x1000000x1_0_1_2_3),
    TRef.binary (TRef.of (T := ⟨S8x2x1000000x1, .i32⟩) main_call0_v5) (TRef.of (T := ⟨S8x2x1000000x1, .i32⟩) main_call0_v9) (TRef.of (T := ⟨S8x2x1000000x1, .i1⟩) main_call0_v10) (cmpi .sle),
    TRef.binary (TRef.of (T := ⟨S8x2x1000000x1, .i1⟩) main_call0_v7) (TRef.of (T := ⟨S8x2x1000000x1, .i1⟩) main_call0_v10) (TRef.of (T := ⟨S8x2x1000000x1, .i1⟩) main_call0_v11) andi,
    TRef.nullary (TRef.of (T := ⟨S_, .i1⟩) main_call0_c_3) (constantI S_ 1 1#1),
    TRef.binary (TRef.of (T := ⟨S8x2x1000000x1, .i1⟩) main_call0_v11) (TRef.of (T := ⟨S_, .i1⟩) main_call0_c_3) (TRef.of (T := ⟨S8x2x1000000, .i1⟩) main_call0_v12) (fun x v => Host.reduce IntOp.andi x v reducesTo_S8x2x1000000x1_S8x2x1000000_d3 h_S_) ]

/-- Every buffer operations 27 to 36 write is one of these. -/
private theorem cB2_writes : (cB2 (F := F)).Forall fun op => op.writes ⊆
    (([main_call0_c_1, main_call0_c_2, main_call0_v6, main_call0_v7, main_call0_v8, main_call0_v9, main_call0_v10, main_call0_v11, main_call0_c_3, main_call0_v12] : List (Ref sig .tc)).map (Proc.devRef (τ := τ) .tc)).toFinset := by
  simp only [cB2, List.Forall, StableHlo.nullary_writes, StableHlo.unary_writes, StableHlo.binary_writes, StableHlo.ternary_writes,
    StableHlo.reshape_writes, StableHlo.TRef.nullary, StableHlo.TRef.unary, StableHlo.TRef.binary, StableHlo.TRef.ternary, StableHlo.TRef.reshape,
    Finset.singleton_subset_iff, List.mem_toFinset, List.map_cons, List.map_nil, List.mem_cons, true_or, or_true, and_self]

/-- A buffer they do not write is as before. -/
private theorem cB2_frame (W : Valuation τ sig (Elt F)) (r : Ref sig .tc)
    (hr : r ∉ ([main_call0_c_1, main_call0_c_2, main_call0_v6, main_call0_v7, main_call0_v8, main_call0_v9, main_call0_v10, main_call0_v11, main_call0_c_3, main_call0_v12] : List (Ref sig .tc))) :
    StableHlo.after (cB2 (F := F)) W (Proc.devRef .tc r) = W (Proc.devRef .tc r) :=
  StableHlo.after_of_writes_sub _ W cB2_writes hr

/-- After them `main_call0_v12` holds its stage, from a valuation in which the buffers they read hold theirs. -/
private theorem cB2_call0_v12 (W : Valuation τ sig (Elt F)) (x1 : (⟨S8x2x1000000, .f32⟩ : BufTy).Contents (Elt F))
    (h_call0_v5 : W (Proc.devRef .tc main_call0_v5) = val_main_call0_v5 (F := F) x1) :
    StableHlo.after (cB2 (F := F)) W (Proc.devRef .tc main_call0_v12) = val_main_call0_v12 (F := F) x1 := by
  unfold cB2
  after_results_simp
  simp only [TRef.ofBuf, TRef.toBuf, cast_eq]
  rw [h_call0_v5]
  rfl

/-! ### Operations 37–40: first take: the gathered entries, not-a-number where the index lies outside -/

/-- Operations 37 to 40 of the list, in order. -/
def cB3 : List (HloOp τ sig (Elt F)) :=
  [ TRef.binary (TRef.of (T := ⟨S8x2x1040000, .f32⟩) main_v0) (TRef.of (T := ⟨S8x2x1000000x1, .i32⟩) main_call0_v5) (TRef.of (T := ⟨S8x2x1000000, .f32⟩) main_call0_v13) (fun x i => Host.gather gather_S8x2x1040000_S8x2x1000000x1_S8x2x1000000_n_2_01_01_2_3_111 x i),
    TRef.nullary (TRef.of (T := ⟨S_, .f32⟩) main_call0_cst) (constant S_ .f32 0x7FC00000#32),
    TRef.unary (TRef.of (T := ⟨S_, .f32⟩) main_call0_cst) (TRef.of (T := ⟨S8x2x1000000, .f32⟩) main_call0_v14) (broadcastInDim S8x2x1000000 ![] bcast_S_S8x2x1000000),
    TRef.ternary (TRef.of (T := ⟨S8x2x1000000, .i1⟩) main_call0_v12) (TRef.of (T := ⟨S8x2x1000000, .f32⟩) main_call0_v13) (TRef.of (T := ⟨S8x2x1000000, .f32⟩) main_call0_v14) (TRef.of (T := ⟨S8x2x1000000, .f32⟩) main_v15) select ]

/-- Every buffer operations 37 to 40 write is one of these. -/
private theorem cB3_writes : (cB3 (F := F)).Forall fun op => op.writes ⊆
    (([main_call0_v13, main_call0_cst, main_call0_v14, main_v15] : List (Ref sig .tc)).map (Proc.devRef (τ := τ) .tc)).toFinset := by
  simp only [cB3, List.Forall, StableHlo.nullary_writes, StableHlo.unary_writes, StableHlo.binary_writes, StableHlo.ternary_writes,
    StableHlo.reshape_writes, StableHlo.TRef.nullary, StableHlo.TRef.unary, StableHlo.TRef.binary, StableHlo.TRef.ternary, StableHlo.TRef.reshape,
    Finset.singleton_subset_iff, List.mem_toFinset, List.map_cons, List.map_nil, List.mem_cons, true_or, or_true, and_self]

/-- A buffer they do not write is as before. -/
private theorem cB3_frame (W : Valuation τ sig (Elt F)) (r : Ref sig .tc)
    (hr : r ∉ ([main_call0_v13, main_call0_cst, main_call0_v14, main_v15] : List (Ref sig .tc))) :
    StableHlo.after (cB3 (F := F)) W (Proc.devRef .tc r) = W (Proc.devRef .tc r) :=
  StableHlo.after_of_writes_sub _ W cB3_writes hr

/-- After them `main_v15` holds its stage, from a valuation in which the buffers they read hold theirs. -/
private theorem cB3_v15 (W : Valuation τ sig (Elt F)) (x0 x1 : (⟨S8x2x1000000, .f32⟩ : BufTy).Contents (Elt F)) (x2 : (⟨S8x2x40000, .f32⟩ : BufTy).Contents (Elt F))
    (h_v0 : W (Proc.devRef .tc main_v0) = val_main_v0 (F := F) x0 x2)
    (h_call0_v5 : W (Proc.devRef .tc main_call0_v5) = val_main_call0_v5 (F := F) x1)
    (h_call0_v12 : W (Proc.devRef .tc main_call0_v12) = val_main_call0_v12 (F := F) x1) :
    StableHlo.after (cB3 (F := F)) W (Proc.devRef .tc main_v15) = val_main_v15 (F := F) x0 x1 x2 := by
  unfold cB3
  after_results_simp
  simp only [TRef.ofBuf, TRef.toBuf, cast_eq]
  rw [h_v0, h_call0_v5, h_call0_v12]
  rfl

/-! ### Operations 41–48: second take: a negative index wrapped by the table's length, as a column of indices -/

/-- Operations 41 to 48 of the list, in order. -/
def cC1 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S8x2x1000000, .i32⟩) main_call1_v0) (broadcastInDim S8x2x1000000 ![] bcast_S_S8x2x1000000),
    TRef.binary (TRef.of (T := ⟨S8x2x1000000, .i32⟩) main_v14) (TRef.of (T := ⟨S8x2x1000000, .i32⟩) main_call1_v0) (TRef.of (T := ⟨S8x2x1000000, .i1⟩) main_call1_v1) (cmpi .slt),
    TRef.nullary (TRef.of (T := ⟨S_, .i32⟩) main_call1_c_0) (constantI S_ 32 1040000#32),
    TRef.unary (TRef.of (T := ⟨S_, .i32⟩) main_call1_c_0) (TRef.of (T := ⟨S8x2x1000000, .i32⟩) main_call1_v2) (broadcastInDim S8x2x1000000 ![] bcast_S_S8x2x1000000),
    TRef.binary (TRef.of (T := ⟨S8x2x1000000, .i32⟩) main_v14) (TRef.of (T := ⟨S8x2x1000000, .i32⟩) main_call1_v2) (TRef.of (T := ⟨S8x2x1000000, .i32⟩) main_call1_v3) addi,
    TRef.ternary (TRef.of (T := ⟨S8x2x1000000, .i1⟩) main_call1_v1) (TRef.of (T := ⟨S8x2x1000000, .i32⟩) main_call1_v3) (TRef.of (T := ⟨S8x2x1000000, .i32⟩) main_v14) (TRef.of (T := ⟨S8x2x1000000, .i32⟩) main_call1_v4) select,
    TRef.reshape (TRef.of (T := ⟨S8x2x1000000, .i32⟩) main_call1_v4) (TRef.of (T := ⟨S8x2x1000000x1, .i32⟩) main_call1_v5) rfl shapeCasts_S8x2x1000000_S8x2x1000000x1 ]

/-- Every buffer operations 41 to 48 write is one of these. -/
private theorem cC1_writes : (cC1 (F := F)).Forall fun op => op.writes ⊆
    (([main_call1_c, main_call1_v0, main_call1_v1, main_call1_c_0, main_call1_v2, main_call1_v3, main_call1_v4, main_call1_v5] : List (Ref sig .tc)).map (Proc.devRef (τ := τ) .tc)).toFinset := by
  simp only [cC1, List.Forall, StableHlo.nullary_writes, StableHlo.unary_writes, StableHlo.binary_writes, StableHlo.ternary_writes,
    StableHlo.reshape_writes, StableHlo.TRef.nullary, StableHlo.TRef.unary, StableHlo.TRef.binary, StableHlo.TRef.ternary, StableHlo.TRef.reshape,
    Finset.singleton_subset_iff, List.mem_toFinset, List.map_cons, List.map_nil, List.mem_cons, true_or, or_true, and_self]

/-- A buffer they do not write is as before. -/
private theorem cC1_frame (W : Valuation τ sig (Elt F)) (r : Ref sig .tc)
    (hr : r ∉ ([main_call1_c, main_call1_v0, main_call1_v1, main_call1_c_0, main_call1_v2, main_call1_v3, main_call1_v4, main_call1_v5] : List (Ref sig .tc))) :
    StableHlo.after (cC1 (F := F)) W (Proc.devRef .tc r) = W (Proc.devRef .tc r) :=
  StableHlo.after_of_writes_sub _ W cC1_writes hr

/-- After them `main_call1_v5` holds its stage, from a valuation in which the buffers they read hold theirs. -/
private theorem cC1_call1_v5 (W : Valuation τ sig (Elt F)) (x1 : (⟨S8x2x1000000, .f32⟩ : BufTy).Contents (Elt F))
    (h_v14 : W (Proc.devRef .tc main_v14) = val_main_v14 (F := F) x1) :
    StableHlo.after (cC1 (F := F)) W (Proc.devRef .tc main_call1_v5) = val_main_call1_v5 (F := F) x1 := by
  unfold cC1
  after_results_simp
  simp only [TRef.ofBuf, TRef.toBuf, cast_eq]
  rw [h_v14]
  rfl

/-! ### Operations 49–58: second take: whether each index lies within the table -/

/-- Operations 49 to 58 of the list, in order. -/
def cC2 : List (HloOp τ sig (Elt F)) :=
  [ TRef.nullary (TRef.of (T := ⟨S1, .i32⟩) main_call1_c_1) (constantI S1 32 1039999#32),
    TRef.nullary (TRef.of (T := ⟨S_, .i32⟩) main_call1_c_2) (constantI S_ 32 0#32),
    TRef.unary (TRef.of (T := ⟨S_, .i32⟩) main_call1_c_2) (TRef.of (T := ⟨S8x2x1000000x1, .i32⟩) main_call1_v6) (broadcastInDim S8x2x1000000x1 ![] bcast_S_S8x2x1000000x1),
    TRef.binary (TRef.of (T := ⟨S8x2x1000000x1, .i32⟩) main_call1_v5) (TRef.of (T := ⟨S8x2x1000000x1, .i32⟩) main_call1_v6) (TRef.of (T := ⟨S8x2x1000000x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S8x2x1000000x1, .i32⟩) main_call1_v9) (broadcastInDim S8x2x1000000x1 ![0, 1, 2, 3] bcast_S1x1x1x1_S8x2x1000000x1_0_1_2_3),
    TRef.binary (TRef.of (T := ⟨S8x2x1000000x1, .i32⟩) main_call1_v5) (TRef.of (T := ⟨S8x2x1000000x1, .i32⟩) main_call1_v9) (TRef.of (T := ⟨S8x2x1000000x1, .i1⟩) main_call1_v10) (cmpi .sle),
    TRef.binary (TRef.of (T := ⟨S8x2x1000000x1, .i1⟩) main_call1_v7) (TRef.of (T := ⟨S8x2x1000000x1, .i1⟩) main_call1_v10) (TRef.of (T := ⟨S8x2x1000000x1, .i1⟩) main_call1_v11) andi,
    TRef.nullary (TRef.of (T := ⟨S_, .i1⟩) main_call1_c_3) (constantI S_ 1 1#1),
    TRef.binary (TRef.of (T := ⟨S8x2x1000000x1, .i1⟩) main_call1_v11) (TRef.of (T := ⟨S_, .i1⟩) main_call1_c_3) (TRef.of (T := ⟨S8x2x1000000, .i1⟩) main_call1_v12) (fun x v => Host.reduce IntOp.andi x v reducesTo_S8x2x1000000x1_S8x2x1000000_d3 h_S_) ]

/-- Every buffer operations 49 to 58 write is one of these. -/
private theorem cC2_writes : (cC2 (F := F)).Forall fun op => op.writes ⊆
    (([main_call1_c_1, main_call1_c_2, main_call1_v6, main_call1_v7, main_call1_v8, main_call1_v9, main_call1_v10, main_call1_v11, main_call1_c_3, main_call1_v12] : List (Ref sig .tc)).map (Proc.devRef (τ := τ) .tc)).toFinset := by
  simp only [cC2, List.Forall, StableHlo.nullary_writes, StableHlo.unary_writes, StableHlo.binary_writes, StableHlo.ternary_writes,
    StableHlo.reshape_writes, StableHlo.TRef.nullary, StableHlo.TRef.unary, StableHlo.TRef.binary, StableHlo.TRef.ternary, StableHlo.TRef.reshape,
    Finset.singleton_subset_iff, List.mem_toFinset, List.map_cons, List.map_nil, List.mem_cons, true_or, or_true, and_self]

/-- A buffer they do not write is as before. -/
private theorem cC2_frame (W : Valuation τ sig (Elt F)) (r : Ref sig .tc)
    (hr : r ∉ ([main_call1_c_1, main_call1_c_2, main_call1_v6, main_call1_v7, main_call1_v8, main_call1_v9, main_call1_v10, main_call1_v11, main_call1_c_3, main_call1_v12] : List (Ref sig .tc))) :
    StableHlo.after (cC2 (F := F)) W (Proc.devRef .tc r) = W (Proc.devRef .tc r) :=
  StableHlo.after_of_writes_sub _ W cC2_writes hr

/-- After them `main_call1_v12` holds its stage, from a valuation in which the buffers they read hold theirs. -/
private theorem cC2_call1_v12 (W : Valuation τ sig (Elt F)) (x1 : (⟨S8x2x1000000, .f32⟩ : BufTy).Contents (Elt F))
    (h_call1_v5 : W (Proc.devRef .tc main_call1_v5) = val_main_call1_v5 (F := F) x1) :
    StableHlo.after (cC2 (F := F)) W (Proc.devRef .tc main_call1_v12) = val_main_call1_v12 (F := F) x1 := by
  unfold cC2
  after_results_simp
  simp only [TRef.ofBuf, TRef.toBuf, cast_eq]
  rw [h_call1_v5]
  rfl

/-! ### Operations 59–62: second take: the gathered entries, not-a-number where the index lies outside -/

/-- Operations 59 to 62 of the list, in order. -/
def cC3 : List (HloOp τ sig (Elt F)) :=
  [ TRef.binary (TRef.of (T := ⟨S8x2x1040000, .f32⟩) main_v0) (TRef.of (T := ⟨S8x2x1000000x1, .i32⟩) main_call1_v5) (TRef.of (T := ⟨S8x2x1000000, .f32⟩) main_call1_v13) (fun x i => Host.gather gather_S8x2x1040000_S8x2x1000000x1_S8x2x1000000_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S8x2x1000000, .f32⟩) main_call1_v14) (broadcastInDim S8x2x1000000 ![] bcast_S_S8x2x1000000),
    TRef.ternary (TRef.of (T := ⟨S8x2x1000000, .i1⟩) main_call1_v12) (TRef.of (T := ⟨S8x2x1000000, .f32⟩) main_call1_v13) (TRef.of (T := ⟨S8x2x1000000, .f32⟩) main_call1_v14) (TRef.of (T := ⟨S8x2x1000000, .f32⟩) main_v16) select ]

/-- Every buffer operations 59 to 62 write is one of these. -/
private theorem cC3_writes : (cC3 (F := F)).Forall fun op => op.writes ⊆
    (([main_call1_v13, main_call1_cst, main_call1_v14, main_v16] : List (Ref sig .tc)).map (Proc.devRef (τ := τ) .tc)).toFinset := by
  simp only [cC3, List.Forall, StableHlo.nullary_writes, StableHlo.unary_writes, StableHlo.binary_writes, StableHlo.ternary_writes,
    StableHlo.reshape_writes, StableHlo.TRef.nullary, StableHlo.TRef.unary, StableHlo.TRef.binary, StableHlo.TRef.ternary, StableHlo.TRef.reshape,
    Finset.singleton_subset_iff, List.mem_toFinset, List.map_cons, List.map_nil, List.mem_cons, true_or, or_true, and_self]

/-- A buffer they do not write is as before. -/
private theorem cC3_frame (W : Valuation τ sig (Elt F)) (r : Ref sig .tc)
    (hr : r ∉ ([main_call1_v13, main_call1_cst, main_call1_v14, main_v16] : List (Ref sig .tc))) :
    StableHlo.after (cC3 (F := F)) W (Proc.devRef .tc r) = W (Proc.devRef .tc r) :=
  StableHlo.after_of_writes_sub _ W cC3_writes hr

/-- After them `main_v16` holds its stage, from a valuation in which the buffers they read hold theirs. -/
private theorem cC3_v16 (W : Valuation τ sig (Elt F)) (x0 x1 : (⟨S8x2x1000000, .f32⟩ : BufTy).Contents (Elt F)) (x2 : (⟨S8x2x40000, .f32⟩ : BufTy).Contents (Elt F))
    (h_v0 : W (Proc.devRef .tc main_v0) = val_main_v0 (F := F) x0 x2)
    (h_call1_v5 : W (Proc.devRef .tc main_call1_v5) = val_main_call1_v5 (F := F) x1)
    (h_call1_v12 : W (Proc.devRef .tc main_call1_v12) = val_main_call1_v12 (F := F) x1) :
    StableHlo.after (cC3 (F := F)) W (Proc.devRef .tc main_v16) = val_main_v16 (F := F) x0 x1 x2 := by
  unfold cC3
  after_results_simp
  simp only [TRef.ofBuf, TRef.toBuf, cast_eq]
  rw [h_v0, h_call1_v5, h_call1_v12]
  rfl

/-! ### Operations 63–68: the blend of the two takes by the fractional part -/

/-- Operations 63 to 68 of the list, in order. -/
def cD : List (HloOp τ sig (Elt F)) :=
  [ nullary main_cst (constant S_ .f32 0x3F800000#32),
    unary main_cst main_v17 (broadcastInDim S8x2x1000000 ![] bcast_S_S8x2x1000000 : (⟨S_, .f32⟩ : BufTy).Contents (Elt F) → (⟨S8x2x1000000, .f32⟩ : BufTy).Contents (Elt F)),
    binary main_v17 main_v7 main_v18 (subf : (⟨S8x2x1000000, .f32⟩ : BufTy).Contents (Elt F) → (⟨S8x2x1000000, .f32⟩ : BufTy).Contents (Elt F) → (⟨S8x2x1000000, .f32⟩ : BufTy).Contents (Elt F)),
    binary main_v18 main_v15 main_v19 (mulf : (⟨S8x2x1000000, .f32⟩ : BufTy).Contents (Elt F) → (⟨S8x2x1000000, .f32⟩ : BufTy).Contents (Elt F) → (⟨S8x2x1000000, .f32⟩ : BufTy).Contents (Elt F)),
    binary main_v7 main_v16 main_v20 (mulf : (⟨S8x2x1000000, .f32⟩ : BufTy).Contents (Elt F) → (⟨S8x2x1000000, .f32⟩ : BufTy).Contents (Elt F) → (⟨S8x2x1000000, .f32⟩ : BufTy).Contents (Elt F)),
    binary main_v19 main_v20 main_v21 (addf : (⟨S8x2x1000000, .f32⟩ : BufTy).Contents (Elt F) → (⟨S8x2x1000000, .f32⟩ : BufTy).Contents (Elt F) → (⟨S8x2x1000000, .f32⟩ : BufTy).Contents (Elt F)) ]

/-- Every buffer operations 63 to 68 write is one of these. -/
private theorem cD_writes : (cD (F := F)).Forall fun op => op.writes ⊆
    (([main_cst, main_v17, main_v18, main_v19, main_v20, main_v21] : List (Ref sig .tc)).map (Proc.devRef (τ := τ) .tc)).toFinset := by
  simp only [cD, List.Forall, StableHlo.nullary_writes, StableHlo.unary_writes, StableHlo.binary_writes, StableHlo.ternary_writes,
    StableHlo.reshape_writes, StableHlo.TRef.nullary, StableHlo.TRef.unary, StableHlo.TRef.binary, StableHlo.TRef.ternary, StableHlo.TRef.reshape,
    Finset.singleton_subset_iff, List.mem_toFinset, List.map_cons, List.map_nil, List.mem_cons, true_or, or_true, and_self]

/-- A buffer they do not write is as before. -/
private theorem cD_frame (W : Valuation τ sig (Elt F)) (r : Ref sig .tc)
    (hr : r ∉ ([main_cst, main_v17, main_v18, main_v19, main_v20, main_v21] : List (Ref sig .tc))) :
    StableHlo.after (cD (F := F)) W (Proc.devRef .tc r) = W (Proc.devRef .tc r) :=
  StableHlo.after_of_writes_sub _ W cD_writes hr

/-- After them `main_v21` holds its stage, from a valuation in which the buffers they read hold theirs. -/
private theorem cD_v21 (W : Valuation τ sig (Elt F)) (x0 x1 : (⟨S8x2x1000000, .f32⟩ : BufTy).Contents (Elt F)) (x2 : (⟨S8x2x40000, .f32⟩ : BufTy).Contents (Elt F))
    (h_v7 : W (Proc.devRef .tc main_v7) = val_main_v7 (F := F) x1)
    (h_v15 : W (Proc.devRef .tc main_v15) = val_main_v15 (F := F) x0 x1 x2)
    (h_v16 : W (Proc.devRef .tc main_v16) = val_main_v16 (F := F) x0 x1 x2) :
    StableHlo.after (cD (F := F)) W (Proc.devRef .tc main_v21) = val_main_v21 (F := F) x0 x1 x2 := by
  unfold cD
  after_results_simp
  rw [h_v7, h_v15, h_v16]
  rfl

/-! ### The stretches joined, last first -/

/-- From the stages before operation 63, the result buffer after operations 63 to 68. -/
private theorem tail8 (W : Valuation τ sig (Elt F)) (x0 x1 : (⟨S8x2x1000000, .f32⟩ : BufTy).Contents (Elt F)) (x2 : (⟨S8x2x40000, .f32⟩ : BufTy).Contents (Elt F))
    (h_v7 : W (Proc.devRef .tc main_v7) = val_main_v7 (F := F) x1)
    (h_v15 : W (Proc.devRef .tc main_v15) = val_main_v15 (F := F) x0 x1 x2)
    (h_v16 : W (Proc.devRef .tc main_v16) = val_main_v16 (F := F) x0 x1 x2) :
    StableHlo.after (cD (F := F)) W (Proc.devRef .tc main_v21) = val_main_v21 (F := F) x0 x1 x2 :=
  cD_v21 W x0 x1 x2 h_v7 h_v15 h_v16

/-- From the stages before operation 59, the result buffer after operations 59 to 68. -/
private theorem tail7 (W : Valuation τ sig (Elt F)) (x0 x1 : (⟨S8x2x1000000, .f32⟩ : BufTy).Contents (Elt F)) (x2 : (⟨S8x2x40000, .f32⟩ : BufTy).Contents (Elt F))
    (h_v0 : W (Proc.devRef .tc main_v0) = val_main_v0 (F := F) x0 x2)
    (h_v7 : W (Proc.devRef .tc main_v7) = val_main_v7 (F := F) x1)
    (h_v15 : W (Proc.devRef .tc main_v15) = val_main_v15 (F := F) x0 x1 x2)
    (h_call1_v5 : W (Proc.devRef .tc main_call1_v5) = val_main_call1_v5 (F := F) x1)
    (h_call1_v12 : W (Proc.devRef .tc main_call1_v12) = val_main_call1_v12 (F := F) x1) :
    StableHlo.after (cD (F := F)) (StableHlo.after (cC3 (F := F)) W) (Proc.devRef .tc main_v21) = val_main_v21 (F := F) x0 x1 x2 :=
  tail8 (StableHlo.after (cC3 (F := F)) W) x0 x1 x2
    ((cC3_frame W main_v7 (by decide)).trans h_v7)
    ((cC3_frame W main_v15 (by decide)).trans h_v15)
    (cC3_v16 W x0 x1 x2 h_v0 h_call1_v5 h_call1_v12)

/-- From the stages before operation 49, the result buffer after operations 49 to 68. -/
private theorem tail6 (W : Valuation τ sig (Elt F)) (x0 x1 : (⟨S8x2x1000000, .f32⟩ : BufTy).Contents (Elt F)) (x2 : (⟨S8x2x40000, .f32⟩ : BufTy).Contents (Elt F))
    (h_v0 : W (Proc.devRef .tc main_v0) = val_main_v0 (F := F) x0 x2)
    (h_v7 : W (Proc.devRef .tc main_v7) = val_main_v7 (F := F) x1)
    (h_v15 : W (Proc.devRef .tc main_v15) = val_main_v15 (F := F) x0 x1 x2)
    (h_call1_v5 : W (Proc.devRef .tc main_call1_v5) = val_main_call1_v5 (F := F) x1) :
    StableHlo.after (cD (F := F)) (StableHlo.after (cC3 (F := F)) (StableHlo.after (cC2 (F := F)) W)) (Proc.devRef .tc main_v21) = val_main_v21 (F := F) x0 x1 x2 :=
  tail7 (StableHlo.after (cC2 (F := F)) W) x0 x1 x2
    ((cC2_frame W main_v0 (by decide)).trans h_v0)
    ((cC2_frame W main_v7 (by decide)).trans h_v7)
    ((cC2_frame W main_v15 (by decide)).trans h_v15)
    ((cC2_frame W main_call1_v5 (by decide)).trans h_call1_v5)
    (cC2_call1_v12 W x1 h_call1_v5)

/-- From the stages before operation 41, the result buffer after operations 41 to 68. -/
private theorem tail5 (W : Valuation τ sig (Elt F)) (x0 x1 : (⟨S8x2x1000000, .f32⟩ : BufTy).Contents (Elt F)) (x2 : (⟨S8x2x40000, .f32⟩ : BufTy).Contents (Elt F))
    (h_v0 : W (Proc.devRef .tc main_v0) = val_main_v0 (F := F) x0 x2)
    (h_v7 : W (Proc.devRef .tc main_v7) = val_main_v7 (F := F) x1)
    (h_v14 : W (Proc.devRef .tc main_v14) = val_main_v14 (F := F) x1)
    (h_v15 : W (Proc.devRef .tc main_v15) = val_main_v15 (F := F) x0 x1 x2) :
    StableHlo.after (cD (F := F)) (StableHlo.after (cC3 (F := F)) (StableHlo.after (cC2 (F := F)) (StableHlo.after (cC1 (F := F)) W))) (Proc.devRef .tc main_v21) = val_main_v21 (F := F) x0 x1 x2 :=
  tail6 (StableHlo.after (cC1 (F := F)) W) x0 x1 x2
    ((cC1_frame W main_v0 (by decide)).trans h_v0)
    ((cC1_frame W main_v7 (by decide)).trans h_v7)
    ((cC1_frame W main_v15 (by decide)).trans h_v15)
    (cC1_call1_v5 W x1 h_v14)

/-- From the stages before operation 37, the result buffer after operations 37 to 68. -/
private theorem tail4 (W : Valuation τ sig (Elt F)) (x0 x1 : (⟨S8x2x1000000, .f32⟩ : BufTy).Contents (Elt F)) (x2 : (⟨S8x2x40000, .f32⟩ : BufTy).Contents (Elt F))
    (h_v0 : W (Proc.devRef .tc main_v0) = val_main_v0 (F := F) x0 x2)
    (h_v7 : W (Proc.devRef .tc main_v7) = val_main_v7 (F := F) x1)
    (h_v14 : W (Proc.devRef .tc main_v14) = val_main_v14 (F := F) x1)
    (h_call0_v5 : W (Proc.devRef .tc main_call0_v5) = val_main_call0_v5 (F := F) x1)
    (h_call0_v12 : W (Proc.devRef .tc main_call0_v12) = val_main_call0_v12 (F := F) x1) :
    StableHlo.after (cD (F := F)) (StableHlo.after (cC3 (F := F)) (StableHlo.after (cC2 (F := F)) (StableHlo.after (cC1 (F := F)) (StableHlo.after (cB3 (F := F)) W)))) (Proc.devRef .tc main_v21) = val_main_v21 (F := F) x0 x1 x2 :=
  tail5 (StableHlo.after (cB3 (F := F)) W) x0 x1 x2
    ((cB3_frame W main_v0 (by decide)).trans h_v0)
    ((cB3_frame W main_v7 (by decide)).trans h_v7)
    ((cB3_frame W main_v14 (by decide)).trans h_v14)
    (cB3_v15 W x0 x1 x2 h_v0 h_call0_v5 h_call0_v12)

/-- From the stages before operation 27, the result buffer after operations 27 to 68. -/
private theorem tail3 (W : Valuation τ sig (Elt F)) (x0 x1 : (⟨S8x2x1000000, .f32⟩ : BufTy).Contents (Elt F)) (x2 : (⟨S8x2x40000, .f32⟩ : BufTy).Contents (Elt F))
    (h_v0 : W (Proc.devRef .tc main_v0) = val_main_v0 (F := F) x0 x2)
    (h_v7 : W (Proc.devRef .tc main_v7) = val_main_v7 (F := F) x1)
    (h_v14 : W (Proc.devRef .tc main_v14) = val_main_v14 (F := F) x1)
    (h_call0_v5 : W (Proc.devRef .tc main_call0_v5) = val_main_call0_v5 (F := F) x1) :
    StableHlo.after (cD (F := F)) (StableHlo.after (cC3 (F := F)) (StableHlo.after (cC2 (F := F)) (StableHlo.after (cC1 (F := F)) (StableHlo.after (cB3 (F := F)) (StableHlo.after (cB2 (F := F)) W))))) (Proc.devRef .tc main_v21) = val_main_v21 (F := F) x0 x1 x2 :=
  tail4 (StableHlo.after (cB2 (F := F)) W) x0 x1 x2
    ((cB2_frame W main_v0 (by decide)).trans h_v0)
    ((cB2_frame W main_v7 (by decide)).trans h_v7)
    ((cB2_frame W main_v14 (by decide)).trans h_v14)
    ((cB2_frame W main_call0_v5 (by decide)).trans h_call0_v5)
    (cB2_call0_v12 W x1 h_call0_v5)

/-- From the stages before operation 19, the result buffer after operations 19 to 68. -/
private theorem tail2 (W : Valuation τ sig (Elt F)) (x0 x1 : (⟨S8x2x1000000, .f32⟩ : BufTy).Contents (Elt F)) (x2 : (⟨S8x2x40000, .f32⟩ : BufTy).Contents (Elt F))
    (h_v0 : W (Proc.devRef .tc main_v0) = val_main_v0 (F := F) x0 x2)
    (h_v7 : W (Proc.devRef .tc main_v7) = val_main_v7 (F := F) x1)
    (h_v10 : W (Proc.devRef .tc main_v10) = val_main_v10 (F := F) x1)
    (h_v14 : W (Proc.devRef .tc main_v14) = val_main_v14 (F := F) x1) :
    StableHlo.after (cD (F := F)) (StableHlo.after (cC3 (F := F)) (StableHlo.after (cC2 (F := F)) (StableHlo.after (cC1 (F := F)) (StableHlo.after (cB3 (F := F)) (StableHlo.after (cB2 (F := F)) (StableHlo.after (cB1 (F := F)) W)))))) (Proc.devRef .tc main_v21) = val_main_v21 (F := F) x0 x1 x2 :=
  tail3 (StableHlo.after (cB1 (F := F)) W) x0 x1 x2
    ((cB1_frame W main_v0 (by decide)).trans h_v0)
    ((cB1_frame W main_v7 (by decide)).trans h_v7)
    ((cB1_frame W main_v14 (by decide)).trans h_v14)
    (cB1_call0_v5 W x1 h_v10)

/-- From the stages before operation 10, the result buffer after operations 10 to 68. -/
private theorem tail1 (W : Valuation τ sig (Elt F)) (x0 x1 : (⟨S8x2x1000000, .f32⟩ : BufTy).Contents (Elt F)) (x2 : (⟨S8x2x40000, .f32⟩ : BufTy).Contents (Elt F))
    (h_v0 : W (Proc.devRef .tc main_v0) = val_main_v0 (F := F) x0 x2)
    (h_v3 : W (Proc.devRef .tc main_v3) = val_main_v3 (F := F))
    (h_v5 : W (Proc.devRef .tc main_v5) = val_main_v5 (F := F) x1)
    (h_v7 : W (Proc.devRef .tc main_v7) = val_main_v7 (F := F) x1) :
    StableHlo.after (cD (F := F)) (StableHlo.after (cC3 (F := F)) (StableHlo.after (cC2 (F := F)) (StableHlo.after (cC1 (F := F)) (StableHlo.after (cB3 (F := F)) (StableHlo.after (cB2 (F := F)) (StableHlo.after (cB1 (F := F)) (StableHlo.after (cA2 (F := F)) W))))))) (Proc.devRef .tc main_v21) = val_main_v21 (F := F) x0 x1 x2 :=
  tail2 (StableHlo.after (cA2 (F := F)) W) x0 x1 x2
    ((cA2_frame W main_v0 (by decide)).trans h_v0)
    ((cA2_frame W main_v7 (by decide)).trans h_v7)
    (cA2_v10 W x1 h_v3 h_v5)
    (cA2_v14 W x1 h_v3 h_v5)

/-- From the stages before operation 1, the result buffer after operations 1 to 68. -/
private theorem tail0 (W : Valuation τ sig (Elt F)) (x0 x1 : (⟨S8x2x1000000, .f32⟩ : BufTy).Contents (Elt F)) (x2 : (⟨S8x2x40000, .f32⟩ : BufTy).Contents (Elt F))
    (h_arg0 : W (Proc.devRef .tc main_arg0) = x0)
    (h_arg1 : W (Proc.devRef .tc main_arg1) = x1)
    (h_arg2 : W (Proc.devRef .tc main_arg2) = x2) :
    StableHlo.after (cD (F := F)) (StableHlo.after (cC3 (F := F)) (StableHlo.after (cC2 (F := F)) (StableHlo.after (cC1 (F := F)) (StableHlo.after (cB3 (F := F)) (StableHlo.after (cB2 (F := F)) (StableHlo.after (cB1 (F := F)) (StableHlo.after (cA2 (F := F)) (StableHlo.after (cA1 (F := F)) W)))))))) (Proc.devRef .tc main_v21) = val_main_v21 (F := F) x0 x1 x2 :=
  tail1 (StableHlo.after (cA1 (F := F)) W) x0 x1 x2
    (cA1_v0 W x0 x2 h_arg0 h_arg2)
    (cA1_v3 W)
    (cA1_v5 W x1 h_arg1)
    (cA1_v7 W x1 h_arg1)

/-- The list is its nine stretches in order. -/
private theorem ops_eq : ops (F := F) = cA1 ++ (cA2 ++ (cB1 ++ (cB2 ++ (cB3 ++ (cC1 ++ (cC2 ++ (cC3 ++ (cD)))))))) := rfl

/-- What the 68 operations leave in the result buffer, from contents `V` of the buffers: the last stage of the three
    argument arrays. -/
theorem after_result (V : Valuation τ sig (Elt F)) :
    StableHlo.after (ops (F := F)) V (Proc.devRef .tc main_v21)
      = val_main_v21 (F := F) (V (Proc.devRef .tc main_arg0)) (V (Proc.devRef .tc main_arg1)) (V (Proc.devRef .tc main_arg2)) := by
  rw [ops_eq]
  simp only [StableHlo.after_append]
  exact tail0 V _ _ _ rfl rfl rfl

/-- No operation writes an argument array. -/
theorem after_arg (V : Valuation τ sig (Elt F)) (a : Ref sig .tc) (ha : a = main_arg0 ∨ a = main_arg1 ∨ a = main_arg2) :
    StableHlo.after (ops (F := F)) V (Proc.devRef .tc a) = V (Proc.devRef .tc a) :=
  StableHlo.after_of_forall_not_mem (b := Proc.devRef .tc a) _ _ (List.forall_iff_forall_mem.mp (by
    simp only [ops, List.Forall, StableHlo.nullary_writes, StableHlo.unary_writes, StableHlo.binary_writes,
      StableHlo.ternary_writes, StableHlo.reshape_writes,
      StableHlo.TRef.nullary, StableHlo.TRef.unary, StableHlo.TRef.binary, StableHlo.TRef.ternary, StableHlo.TRef.reshape, Finset.mem_singleton]
    rcases ha with rfl | rfl | rfl <;> (repeat' apply And.intro) <;> exact StableHlo.devRef_ne_of_ne (by decide)))

/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = val_main_v21 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v21).trans (after_result _),
      (h c main_arg0).trans (after_arg _ main_arg0 (.inl rfl)),
      (h c main_arg1).trans (after_arg _ main_arg1 (.inr (.inl rfl))),
      (h c main_arg2).trans (after_arg _ main_arg2 (.inr (.inr rfl)))⟩)
    (run_seq scopedRefs_eq scopedSems_eq defs main (fun _ => ops) main_eq (fun _ => ops_sub) m ρ)

end Cert.ReferenceIdeal.RefRunH

end
-- ==== Proof.RefValue.lean ====
/-
  The reference computes the specification: for delays in `[0, 40000]` its result, read one operation at a time,
  is `Cert.Delay.delayed`. The tap positions `40000 + t - ⌊d⌋` and (clipped at 0) one before are natural numbers
  below 1040000, so jnp's index normalisation leaves them alone, the in-range mask is set, the gather reads the
  concatenation `buffer ++ x` at that position, and the select keeps the gathered sample.
-/
import proofs.«405944_j33406255628322_3_alg».proof.Proof.RefRead
import proofs.«405944_j33406255628322_3_alg».proof.Proof.Spec
import Idealize.ShloMosaic.Lib.ValueIdx
import Idealize.ShloMosaic.Lib.StableHlo.Predicate
import Idealize.ShloMosaic.Lib.WordArith
import Idealize.ShloMosaic.Lib.IdealHost
import Idealize.ShloMosaic.PureOps.Reduce

noncomputable section

namespace Cert.ReferenceIdeal.RefValue

open Cert.ReferenceIdeal Cert.ReferenceIdeal.ReadP
open Idealize.ShloMosaic Idealize.ShloMosaic.ValueIdx

/-! ## Words -/

/-- A small number less a smaller word, taken on 32-bit words, is the word of the difference. -/
private theorem ofNat_sub_word (a : ℕ) (w : BitVec 32) (hk : w.toNat ≤ a) (ha : a < 2 ^ 32) :
    IntOp.subi (BitVec.ofNat 32 a) w = BitVec.ofNat 32 (a - w.toNat) := by
  apply BitVec.eq_of_toNat_eq
  simp only [IntOp.subi, BitVec.toNat_sub, BitVec.toNat_ofNat]
  have := w.isLt
  omega

/-- A sum of two small numbers, taken on 32-bit words, is the word of the sum. -/
private theorem ofNat_add_ofNat (a k : ℕ) :
    IntOp.addi (BitVec.ofNat 32 a) (BitVec.ofNat 32 k) = BitVec.ofNat 32 (a + k) := by
  apply BitVec.eq_of_toNat_eq
  simp only [IntOp.addi, BitVec.toNat_add, BitVec.toNat_ofNat]
  omega

/-- One less than a small number, clipped below at zero as signed words, is the truncated predecessor. -/
private theorem maxsi_sub_one (n : ℕ) (hn : n < 2 ^ 31) :
    IntOp.maxsi (IntOp.subi (BitVec.ofNat 32 n) 1#32) 0#32 = BitVec.ofNat 32 (n - 1) := by
  rcases Nat.eq_zero_or_pos n with rfl | hpos
  · decide
  · have e : IntOp.subi (BitVec.ofNat 32 n) 1#32 = BitVec.ofNat 32 (n - 1) :=
      StableHlo.Predicate.sub_one_ofNat n hpos (by omega)
    rw [e]
    unfold IntOp.maxsi
    by_cases h1 : n - 1 = 0
    · rw [h1]; decide
    · rw [if_pos]
      simp only [BitVec.slt, decide_eq_true_eq]
      rw [WordArith.toInt_ofNat_small (n - 1) (by omega)]
      show (0 : ℤ) < ((n - 1 : ℕ) : ℤ)
      omega

/-- jnp's normalisation of an index (a negative one counts from the end) leaves a small natural number alone. -/
private theorem normalize_ofNat (n : ℕ) (hn : n < 2 ^ 31) :
    Scalar.select (IntOp.cmpi .slt (BitVec.ofNat 32 n) 0#32) (IntOp.addi (BitVec.ofNat 32 n) 1040000#32) (BitVec.ofNat 32 n)
      = BitVec.ofNat 32 n := by
  have h : IntOp.cmpi .slt (BitVec.ofNat 32 n) 0#32 = 0#1 := by
    apply eq_zero_of_ne_one
    intro h1
    have := (StableHlo.Predicate.slt_iff_toNat (a := BitVec.ofNat 32 n) (b := 0#32)
      (by rw [BitVec.toNat_ofNat]; omega) (by decide)).mp h1
    simp at this
  rw [h, select_zero]

/-- The in-range mask of a position below 1040000 is set. -/
private theorem inrange_ofNat (n : ℕ) (hn : n < 1040000) :
    IntOp.andi (IntOp.cmpi .sge (BitVec.ofNat 32 n) 0#32) (IntOp.cmpi .sle (BitVec.ofNat 32 n) 1039999#32) = 1#1 := by
  have hN : (BitVec.ofNat 32 n).toNat = n := by rw [BitVec.toNat_ofNat]; omega
  have h1 : IntOp.cmpi .sge (BitVec.ofNat 32 n) 0#32 = 1#1 :=
    (StableHlo.Predicate.sge_iff_toNat (by rw [hN]; omega) (by decide)).mpr (by simp)
  have h2 : IntOp.cmpi .sle (BitVec.ofNat 32 n) 1039999#32 = 1#1 :=
    (StableHlo.Predicate.sle_iff_toNat (by rw [hN]; omega) (by decide)).mpr (by rw [hN]; simp; omega)
  rw [h1, h2]; decide

/-! ## The delay's two parts and the tap positions, at an index -/

section Stages
variable (b : Fin 8) (c : Fin 2) (t : Fin 1000000)
variable (x dt : (⟨S8x2x1000000, .f32⟩ : BufTy).Contents (Elt Ideal)) (buf : (⟨S8x2x40000, .f32⟩ : BufTy).Contents (Elt Ideal))

/-- Floor, then conversion to a signed word: the specification's integer part. -/
private theorem v5_at : val_main_v5 (F := Ideal) dt (ix3 b c t) = Cert.Delay.ipart ((dt : S8x2x1000000.Idx → EReal) (ix3 b c t)) := rfl

/-- The delay less its integer part read back: the specification's fractional part. -/
private theorem v7_at : (val_main_v7 (F := Ideal) dt : S8x2x1000000.Idx → EReal) (ix3 b c t)
    = Cert.Delay.fpart ((dt : S8x2x1000000.Idx → EReal) (ix3 b c t)) := rfl

/-- The constant one, everywhere. -/
private theorem v17_at : (val_main_v17 (F := Ideal) : S8x2x1000000.Idx → EReal) (ix3 b c t) = 1 := by
  rw [val_main_v17_apply, val_main_cst_apply]
  exact Ideal.ofBits_one_f32

/-- `40000 + t`, as a word. -/
private theorem v9_at : val_main_v9 (F := Ideal) (ix3 b c t) = BitVec.ofNat 32 (40000 + t.val) := by
  rw [val_main_v9_apply, val_main_v8_apply, val_main_v3_apply, val_main_v2_apply, val_main_c_apply, val_main_v1_apply]
  exact ofNat_add_ofNat 40000 _

variable (h0 : (0 : EReal) ≤ (dt : S8x2x1000000.Idx → EReal) (ix3 b c t))
  (h1 : (dt : S8x2x1000000.Idx → EReal) (ix3 b c t) ≤ ((40000 : ℝ) : EReal))
include h0 h1

/-- The first tap's position `40000 + t - ⌊d⌋`, as a word: the subtraction does not wrap. -/
private theorem v10_at : val_main_v10 (F := Ideal) dt (ix3 b c t)
    = BitVec.ofNat 32 (40000 + t.val - (Cert.Delay.ipart ((dt : S8x2x1000000.Idx → EReal) (ix3 b c t))).toNat) := by
  have hk := Cert.Delay.ipart_toNat_le h0 h1
  have ht := t.isLt
  rw [val_main_v10_apply, v9_at, v5_at]
  exact ofNat_sub_word _ _ (by omega) (by omega)

/-- The second tap's position, one before and clipped at zero, as a word. -/
private theorem v14_at : val_main_v14 (F := Ideal) dt (ix3 b c t)
    = BitVec.ofNat 32 (40000 + t.val - (Cert.Delay.ipart ((dt : S8x2x1000000.Idx → EReal) (ix3 b c t))).toNat - 1) := by
  have ht := t.isLt
  rw [val_main_v14_apply, val_main_v12_apply, val_main_v13_apply, val_main_c_1_apply, val_main_v11_apply, val_main_c_0_apply,
    v10_at b c t dt h0 h1]
  exact maxsi_sub_one _ (by omega)
end Stages

/-! ## The three operations read by hand: the reduction over a unit axis, the gather, the concatenation -/

section Hand
variable (b : Fin 8) (c : Fin 2) (t : Fin 1000000)

/-- An `and`-reduction from 1 over an axis of extent one is the one element it folds. -/
private theorem reduce_and_unit (p : IVec S8x2x1000000x1 1) (h' : S8x2x1000000x1.ReducesTo [3] S8x2x1000000) (hu : 0 < S_.numel) :
    Host.reduce IntOp.andi p (constantI S_ 1 1#1) h' hu (ix3 b c t) = p (ix4 b c t (0 : Fin 1)) := by
  have hR : S8x2x1000000x1.Reduces [3] S8x2x1000000 := by decide
  rw [Host.reduce_eq_fold_single IntOp.andi p _ h' hR hu]
  show Finset.fold IntOp.andi _ (fun k : Fin 1 => p (hR.lift (ix3 b c t) k)) (Finset.univ : Finset (Fin 1)) = _
  rw [Finset.univ_unique, Finset.fold_singleton]
  have e : ∀ k : Fin 1, hR.lift (ix3 b c t) k = ix4 b c t (0 : Fin 1) := by
    intro k; funext a; refine Fin.ext ?_
    match a with
    | ⟨0, _⟩ => rfl
    | ⟨1, _⟩ => rfl
    | ⟨2, _⟩ => rfl
    | ⟨3, _⟩ => show k.val = 0; omega
  simp only [e]
  show IntOp.andi (p (ix4 b c t (0 : Fin 1))) 1#1 = _
  rcases BitVec.eq_zero_or_eq_one (p (ix4 b c t (0 : Fin 1))) with h | h <;> rw [h] <;> decide

/-- The batched take: result position `(b, c, t)` reads the operand's row `(b, c)` at its start index, read signed
    and clamped into the row. -/
private theorem gather_at {α : Type} (x : S8x2x1040000.Idx → α) (idx : IVec S8x2x1000000x1 32) :
    Host.gather gather_S8x2x1040000_S8x2x1000000x1_S8x2x1000000_n_2_01_01_2_3_111 x idx (ix3 b c t)
      = x (ix3 b c ⟨min (idx (ix4 b c t (0 : Fin 1))).toInt.toNat 1039999, by omega⟩) := by
  unfold Host.gather
  congr 1
  funext a
  refine Fin.ext ?_
  -- which operand axes are batching, collapsed, start-indexed: read off the record
  have hb0 : (0 : Fin 3) ∈ gather_S8x2x1040000_S8x2x1000000x1_S8x2x1000000_n_2_01_01_2_3_111.operandBatchingDims := by
    show (0 : Fin 3) ∈ [0, 1]; decide
  have hb1 : (1 : Fin 3) ∈ gather_S8x2x1040000_S8x2x1000000x1_S8x2x1000000_n_2_01_01_2_3_111.operandBatchingDims := by
    show (1 : Fin 3) ∈ [0, 1]; decide
  have hb2 : (2 : Fin 3) ∉ gather_S8x2x1040000_S8x2x1000000x1_S8x2x1000000_n_2_01_01_2_3_111.operandBatchingDims := by
    show (2 : Fin 3) ∉ [0, 1]; decide
  have hc2 : (2 : Fin 3) ∈ gather_S8x2x1040000_S8x2x1000000x1_S8x2x1000000_n_2_01_01_2_3_111.collapsedSliceDims := by
    show (2 : Fin 3) ∈ [2]; decide
  have hm2 : (2 : Fin 3) ∈ gather_S8x2x1040000_S8x2x1000000x1_S8x2x1000000_n_2_01_01_2_3_111.startIndexMap := by
    show (2 : Fin 3) ∈ [2]; decide
  match a with
  | ⟨0, _⟩ =>
    show GatherDims.start _ (ix3 b c t) idx 0 + GatherDims.batchCoord _ (ix3 b c t) 0 + GatherDims.offCoord _ (ix3 b c t) 0 = b.val
    rw [GatherDims.start_batching _ _ _ _ hb0, GatherDims.offCoord_eq_zero _ _ _ (fun h => ((GatherDims.mem_sKept _ _).1 h).2 hb0)]
    unfold GatherDims.batchCoord
    rw [dif_pos hb0]
    simp only [Nat.zero_add, Nat.add_zero]
    rfl
  | ⟨1, _⟩ =>
    show GatherDims.start _ (ix3 b c t) idx 1 + GatherDims.batchCoord _ (ix3 b c t) 1 + GatherDims.offCoord _ (ix3 b c t) 1 = c.val
    rw [GatherDims.start_batching _ _ _ _ hb1, GatherDims.offCoord_eq_zero _ _ _ (fun h => ((GatherDims.mem_sKept _ _).1 h).2 hb1)]
    unfold GatherDims.batchCoord
    rw [dif_pos hb1]
    simp only [Nat.zero_add, Nat.add_zero]
    rfl
  | ⟨2, _⟩ =>
    show GatherDims.start _ (ix3 b c t) idx 2 + GatherDims.batchCoord _ (ix3 b c t) 2 + GatherDims.offCoord _ (ix3 b c t) 2
      = min (idx (ix4 b c t (0 : Fin 1))).toInt.toNat 1039999
    rw [GatherDims.batchCoord_eq_zero _ _ _ hb2, GatherDims.offCoord_eq_zero _ _ _ (fun h => ((GatherDims.mem_sKept _ _).1 h).1 hc2)]
    unfold GatherDims.start
    rw [dif_pos hm2]
    have hsi : GatherDims.siIdx gather_S8x2x1040000_S8x2x1000000x1_S8x2x1000000_n_2_01_01_2_3_111 (ix3 b c t)
        ⟨List.idxOf (2 : Fin 3) gather_S8x2x1040000_S8x2x1000000x1_S8x2x1000000_n_2_01_01_2_3_111.startIndexMap,
          List.idxOf_lt_length_iff.2 hm2⟩ = ix4 b c t (0 : Fin 1) := by
      funext e; refine Fin.ext ?_
      match e with
      | ⟨0, _⟩ => rfl
      | ⟨1, _⟩ => rfl
      | ⟨2, _⟩ => rfl
      | ⟨3, _⟩ => rfl
    rw [hsi]
    rfl
end Hand

section Concat
variable (b : Fin 8) (c : Fin 2)
variable (x : (⟨S8x2x1000000, .f32⟩ : BufTy).Contents (Elt Ideal)) (buf : (⟨S8x2x40000, .f32⟩ : BufTy).Contents (Elt Ideal))

/-- The history followed by the input, read at a position: the specification's delay line. -/
private theorem v0_at (n : ℕ) (hn : n < 1040000) :
    (val_main_v0 (F := Ideal) x buf : S8x2x1040000.Idx → EReal) (ix3 b c ⟨n, hn⟩) = Cert.Delay.line x buf b c n := by
  unfold val_main_v0 Cert.Delay.line
  by_cases h : n < 40000
  · rw [dif_pos h]
    exact concatenate_pair_apply_left (t := S8x2x1040000) (s₁ := S8x2x40000) (s₂ := S8x2x1000000) (2 : Fin 3) buf x _
      (ix3 b c ⟨n, hn⟩) rfl (ix3 b c ⟨n, h⟩)
      (fun a => match a with | ⟨0, _⟩ => rfl | ⟨1, _⟩ => rfl | ⟨2, _⟩ => rfl)
  · have h2 : n - 40000 < 1000000 := by omega
    rw [dif_neg h, dif_pos h2]
    exact concatenate_pair_apply_right (t := S8x2x1040000) (s₁ := S8x2x40000) (s₂ := S8x2x1000000) (2 : Fin 3) buf x _
      (ix3 b c ⟨n, hn⟩) rfl rfl (ix3 b c ⟨n - 40000, h2⟩)
      (fun a ha => by
        obtain ⟨v, hv⟩ := a
        have hv3 : v < 3 := hv
        have hne : v ≠ 2 := fun e => ha (by subst e; rfl)
        obtain rfl | rfl : v = 0 ∨ v = 1 := by omega
        · rfl
        · rfl)
      (by show n - 40000 + 40000 = n; omega)
end Concat

/-! ## jnp's take_along_axis at a tap position, and the two calls -/

section Take
variable (b : Fin 8) (c : Fin 2) (t : Fin 1000000)

/-- At a position whose index is a natural number below the row's length the reduced mask is set, the gather reads the
    row there, and the select keeps what it read. -/
private theorem take_at {α : Type} (xpad : S8x2x1040000.Idx → α) (nanv : α) (w5 : IVec S8x2x1000000x1 32)
    (m : IVec S8x2x1000000x1 1) (h' : S8x2x1000000x1.ReducesTo [3] S8x2x1000000) (hu : 0 < S_.numel)
    (n : ℕ) (hn : n < 1040000) (hw : w5 (ix4 b c t (0 : Fin 1)) = BitVec.ofNat 32 n) (hm : m (ix4 b c t (0 : Fin 1)) = 1#1) :
    Scalar.select (Host.reduce IntOp.andi m (constantI S_ 1 1#1) h' hu (ix3 b c t))
        (Host.gather gather_S8x2x1040000_S8x2x1000000x1_S8x2x1000000_n_2_01_01_2_3_111 xpad w5 (ix3 b c t)) nanv
      = xpad (ix3 b c ⟨n, hn⟩) := by
  have e : min (w5 (ix4 b c t (0 : Fin 1))).toInt.toNat 1039999 = n := by
    rw [hw, WordArith.toInt_ofNat_small n (by omega)]; omega
  rw [reduce_and_unit, hm, select_one, gather_at]
  congr 1
  funext a; refine Fin.ext ?_
  match a with
  | ⟨0, _⟩ => rfl
  | ⟨1, _⟩ => rfl
  | ⟨2, _⟩ => exact e

/-- The reshape to a trailing unit axis reads, at `(b, c, t, 0)`, position `(b, c, t)`. -/
private theorem idx_v5 : idx_main_call0_v5 (ix4 b c t (0 : Fin 1)) = ix3 b c t := by
  funext a; refine Fin.ext ?_
  have hb := b.isLt; have hc := c.isLt; have ht := t.isLt
  match a with
  | ⟨0, _⟩ => show (((b.val * 2 + c.val) * 1000000 + t.val) * 1 + 0) / 2000000 = b.val; omega
  | ⟨1, _⟩ => show (((b.val * 2 + c.val) * 1000000 + t.val) * 1 + 0) / 1000000 % 2 = c.val; omega
  | ⟨2, _⟩ => show (((b.val * 2 + c.val) * 1000000 + t.val) * 1 + 0) % 1000000 = t.val; omega

variable (x dt : (⟨S8x2x1000000, .f32⟩ : BufTy).Contents (Elt Ideal)) (buf : (⟨S8x2x40000, .f32⟩ : BufTy).Contents (Elt Ideal))
variable (h0 : (0 : EReal) ≤ (dt : S8x2x1000000.Idx → EReal) (ix3 b c t))
  (h1 : (dt : S8x2x1000000.Idx → EReal) (ix3 b c t) ≤ ((40000 : ℝ) : EReal))
include h0 h1

/-- The first call's start index: the first tap's position, untouched by the normalisation. -/
private theorem call0_v5_at : val_main_call0_v5 (F := Ideal) dt (ix4 b c t (0 : Fin 1))
    = BitVec.ofNat 32 (40000 + t.val - (Cert.Delay.ipart ((dt : S8x2x1000000.Idx → EReal) (ix3 b c t))).toNat) := by
  have ht := t.isLt
  rw [val_main_call0_v5_apply, idx_v5, val_main_call0_v4_apply, val_main_call0_v1_apply, val_main_call0_v3_apply,
    val_main_call0_v0_apply, val_main_call0_c_apply, val_main_call0_v2_apply, val_main_call0_c_0_apply, v10_at b c t dt h0 h1]
  exact normalize_ofNat _ (by omega)

/-- The first call's mask is set there. -/
private theorem call0_v11_at : val_main_call0_v11 (F := Ideal) dt (ix4 b c t (0 : Fin 1)) = 1#1 := by
  have ht := t.isLt
  rw [val_main_call0_v11_apply, val_main_call0_v7_apply, val_main_call0_v10_apply, call0_v5_at b c t dt h0 h1,
    val_main_call0_v6_apply, val_main_call0_c_2_apply, val_main_call0_v9_apply, val_main_call0_v8_apply, val_main_call0_c_1_apply]
  exact inrange_ofNat _ (by omega)

/-- The first tap: the delay line at `40000 + t - ⌊d⌋`. -/
private theorem v15_at : (val_main_v15 (F := Ideal) x dt buf : S8x2x1000000.Idx → EReal) (ix3 b c t)
    = Cert.Delay.line x buf b c (40000 + t.val - (Cert.Delay.ipart ((dt : S8x2x1000000.Idx → EReal) (ix3 b c t))).toNat) := by
  have ht := t.isLt
  have hn : 40000 + t.val - (Cert.Delay.ipart ((dt : S8x2x1000000.Idx → EReal) (ix3 b c t))).toNat < 1040000 := by omega
  rw [val_main_v15_apply, ← v0_at b c x buf _ hn]
  exact take_at b c t (val_main_v0 (F := Ideal) x buf) _ (val_main_call0_v5 (F := Ideal) dt) (val_main_call0_v11 (F := Ideal) dt) _ _ _ hn
    (call0_v5_at b c t dt h0 h1) (call0_v11_at b c t dt h0 h1)

/-- The second call's start index: the second tap's position. -/
private theorem call1_v5_at : val_main_call1_v5 (F := Ideal) dt (ix4 b c t (0 : Fin 1))
    = BitVec.ofNat 32 (40000 + t.val - (Cert.Delay.ipart ((dt : S8x2x1000000.Idx → EReal) (ix3 b c t))).toNat - 1) := by
  have ht := t.isLt
  rw [val_main_call1_v5_apply, show idx_main_call1_v5 (ix4 b c t (0 : Fin 1)) = ix3 b c t from idx_v5 b c t,
    val_main_call1_v4_apply, val_main_call1_v1_apply, val_main_call1_v3_apply,
    val_main_call1_v0_apply, val_main_call1_c_apply, val_main_call1_v2_apply, val_main_call1_c_0_apply, v14_at b c t dt h0 h1]
  exact normalize_ofNat _ (by omega)

/-- The second call's mask is set there. -/
private theorem call1_v11_at : val_main_call1_v11 (F := Ideal) dt (ix4 b c t (0 : Fin 1)) = 1#1 := by
  have ht := t.isLt
  rw [val_main_call1_v11_apply, val_main_call1_v7_apply, val_main_call1_v10_apply, call1_v5_at b c t dt h0 h1,
    val_main_call1_v6_apply, val_main_call1_c_2_apply, val_main_call1_v9_apply, val_main_call1_v8_apply, val_main_call1_c_1_apply]
  exact inrange_ofNat _ (by omega)

/-- The second tap: the delay line one position before, clipped at zero. -/
private theorem v16_at : (val_main_v16 (F := Ideal) x dt buf : S8x2x1000000.Idx → EReal) (ix3 b c t)
    = Cert.Delay.line x buf b c (40000 + t.val - (Cert.Delay.ipart ((dt : S8x2x1000000.Idx → EReal) (ix3 b c t))).toNat - 1) := by
  have ht := t.isLt
  have hn : 40000 + t.val - (Cert.Delay.ipart ((dt : S8x2x1000000.Idx → EReal) (ix3 b c t))).toNat - 1 < 1040000 := by omega
  rw [val_main_v16_apply, ← v0_at b c x buf _ hn]
  exact take_at b c t (val_main_v0 (F := Ideal) x buf) _ (val_main_call1_v5 (F := Ideal) dt) (val_main_call1_v11 (F := Ideal) dt) _ _ _ hn
    (call1_v5_at b c t dt h0 h1) (call1_v11_at b c t dt h0 h1)
end Take

/-- The reference's result array is the delay line's output. -/
theorem ref_eq (x dt : (⟨S8x2x1000000, .f32⟩ : BufTy).Contents (Elt Ideal)) (buf : (⟨S8x2x40000, .f32⟩ : BufTy).Contents (Elt Ideal))
    (hdt : ∀ j : S8x2x1000000.Idx, (0 : EReal) ≤ (dt : S8x2x1000000.Idx → EReal) j ∧ (dt : S8x2x1000000.Idx → EReal) j ≤ ((40000 : ℝ) : EReal)) :
    (val_main_v21 (F := Ideal) x dt buf : S8x2x1000000.Idx → EReal) = Cert.Delay.delayed x dt buf := by
  funext j
  obtain ⟨b, c, t, rfl⟩ : ∃ b c t, j = ix3 b c t := ⟨j 0, j 1, j 2, eq_ix3 j⟩
  obtain ⟨h0, h1⟩ := hdt (ix3 b c t)
  rw [val_main_v21_apply, val_main_v19_apply, val_main_v20_apply, val_main_v18_apply, v17_at, v7_at,
    v15_at b c t x dt buf h0 h1, v16_at b c t x dt buf h0 h1]
  rfl

end Cert.ReferenceIdeal.RefValue

end
-- ==== Proof.lean ====
/-
  A time-varying fractional delay line: `y[b,c,t] = (1 - frac) · s[40000 + t - ⌊d⌋] + frac · s[40000 + t - ⌊d⌋ - 1]` with
  `d = dt[b,c,t]`, `frac = d - ⌊d⌋` and `s = buffer ++ x` the 40000 samples of history followed by the input, the second
  tap not below position 0. The kernel tiles time in blocks of 512, holds for each tile the 40960 samples from the tile's
  start, and reads each tap by a one-hot selection (a matrix product over 80 chunks, then a masked lane sum); the reference
  gathers the taps from `s` directly. Over the extended reals, for delays in `[0, 40000]` — the range of the delay axis the
  operator is defined over — the two compute the same array: a one-hot sum is its one surviving term (`0 · a = 0` for every
  extended real), the tile-relative positions are the absolute ones, and where the kernel's clip of the second tap differs
  from the reference's (the first tap at a tile's very start) the delay is the integer 40000 and the second tap has weight 0.
  The two kernel programs' frames are the pipeline's frame run (one region on the 8 × 1954 grid between host lines); the
  reference's frame is its run with the result dropped; the idealization rewrote nothing.
-/
import proofs.«405944_j33406255628322_3_alg».proof.Defs
import proofs.«405944_j33406255628322_3_alg».proof.Proof.Gen.Kernel
import proofs.«405944_j33406255628322_3_alg».proof.Proof.Gen.KernelIdeal
import proofs.«405944_j33406255628322_3_alg».proof.Proof.Gen.ReferenceIdeal
import proofs.«405944_j33406255628322_3_alg».proof.Proof.Gen.Pre_finite_inputs
import proofs.«405944_j33406255628322_3_alg».proof.Proof.KFrame
import proofs.«405944_j33406255628322_3_alg».proof.Proof.KIFrame
import proofs.«405944_j33406255628322_3_alg».proof.Proof.Final
import proofs.«405944_j33406255628322_3_alg».proof.Proof.PreRange
import proofs.«405944_j33406255628322_3_alg».proof.Proof.RefRunH
import proofs.«405944_j33406255628322_3_alg».proof.Proof.RefValue
import Idealize.ShloMosaic.Adequacy
import Idealize.ShloMosaic.Init

noncomputable section

namespace Cert.Proof

open Idealize.ShloMosaic Idealize.SL.Sem

/-- The kernel program as printed runs to its end and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRunH.run (F := Ideal) m ρ)

/-- Both idealized programs end with the delay line's output of the (agreeing) arguments. -/
theorem algebraic : Cert.algebraic_KernelIdeal_ReferenceIdeal := by
  intro m ρ m' ρ' hpre hagree
  have hdt : ∀ c j, (0 : EReal) ≤ Cert.KernelIdeal.Final.dtA m c j
      ∧ Cert.KernelIdeal.Final.dtA m c j ≤ ((40000 : ℝ) : EReal) :=
    fun c j => Cert.PreRange.dt_range m hpre c j
  refine ⟨fun c => Cert.Delay.delayed (Cert.KernelIdeal.Final.xA m c) (Cert.KernelIdeal.Final.dtA m c) (Cert.KernelIdeal.Final.bufA m c),
    Cert.KernelIdeal.Final.kernel_run m ρ hdt, ?_⟩
  refine (θ_run Cert.ReferenceIdeal.defs _ _).mono (fun _ h c => ⟨(h c).1.trans ?_, (h c).2⟩)
    (Cert.ReferenceIdeal.RefRunH.run (F := Ideal) m' ρ')
  rw [(hagree c).1, (hagree c).2.1, (hagree c).2.2]
  exact Cert.ReferenceIdeal.RefValue.ref_eq _ _ _ (hdt c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
